-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S800000 : Shape := ⟨1, ![800000]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S800000 : S_.BroadcastsInDim S800000 (![] : Fin 0 → Fin S800000.rank)
  reducesTo_S800000_S_d0 : S800000.ReducesTo [0] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S64x32 .f32) (main_arg17 : FVec F S32 .f32) (main_arg18 : FVec F S32x1 .f32) (main_arg19 : FVec F S1 .f32) (main_v63 : IVec S_ 1) (main_v67 : IVec S_ 1) : IVec S_ 1 :=
  let main_v68 : IVec S_ 1 := andi main_v63 main_v67
  let main_v69 : FVec F S64x32 .f32 := Host.absf main_arg16
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x1 .f32 := Host.absf main_arg18
  let main_cst_30 : FVec F S_ .f32 := constant S_ .f32 0x7F800000#32
  let main_v80 : FVec F S32x1 .f32 := broadcastInDim S32x1 ![] bcast_S_S32x1 main_cst_30
  let main_v81 : IVec S32x1 1 := cmpf .olt main_v79 main_v80
  let main_c_31 : IVec S_ 1 := constantI S_ 1 1#1
  let main_v82 : IVec S_ 1 := (fun x v => Host.reduce IntOp.andi x v reducesTo_S32x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_v48 main_v49 main_v50

def fn_part1 {F : FTy → Type} [FloatOps F] (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x5 .f32) (main_arg1 : IVec S2x800000 32) (main_arg2 : FVec F S800000 .f32) (main_arg3 : IVec S50000 32) (main_arg4 : FVec F S5x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x5 : Shape := ⟨2, ![50000, 5]⟩
abbrev S2x800000 : Shape := ⟨2, ![2, 800000]⟩
abbrev S800000 : Shape := ⟨1, ![800000]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x5 : Shape := ⟨2, ![5000, 5]⟩
abbrev S5000x64 : Shape := ⟨2, ![5000, 64]⟩
abbrev S850000x64 : Shape := ⟨2, ![850000, 64]⟩
abbrev S1x64 : Shape := ⟨2, ![1, 64]⟩
abbrev S50000x1 : Shape := ⟨2, ![50000, 1]⟩
abbrev S1x32 : Shape := ⟨2, ![1, 32]⟩
abbrev S1x1 : Shape := ⟨2, ![1, 1]⟩
abbrev S128x1 : Shape := ⟨2, ![128, 1]⟩
abbrev S5000x1 : Shape := ⟨2, ![5000, 1]⟩
abbrev S128x64 : Shape := ⟨2, ![128, 64]⟩
abbrev S5000x128 : Shape := ⟨2, ![5000, 128]⟩
abbrev S128 : Shape := ⟨1, ![128]⟩
abbrev S128x32 : Shape := ⟨2, ![128, 32]⟩

abbrev nBuf : Space → Nat
  | .hbm => 116
  | .vmem => 39
  | .smem => 0
  | _ => 0

abbrev bufTy : (tb : Table) → Fin (tcTables nBuf tb) → BufTy
  | .hbm, ⟨0, _⟩ => ⟨S50000x5, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S5x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x32, .f32⟩
  | .hbm, ⟨17, _⟩ => ⟨S32, .f32⟩
  | .hbm, ⟨18, _⟩ => ⟨S32x1, .f32⟩
  | .hbm, ⟨19, _⟩ => ⟨S1, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S50000, .i32⟩
  | .hbm, ⟨25, _⟩ => ⟨S850000, .i32⟩
  | .hbm, ⟨26, _⟩ => ⟨S850000, .i32⟩
  | .hbm, ⟨27, _⟩ => ⟨S_, .f32⟩
  | .hbm, ⟨28, _⟩ => ⟨S50000, .f32⟩
  | .hbm, ⟨29, _⟩ => ⟨S850000, .f32⟩
  | .hbm, ⟨30, _⟩ => ⟨S_, .f32⟩
  | .hbm, ⟨31, _⟩ => ⟨S50000, .f32⟩
  | .hbm, ⟨32, _⟩ => ⟨S850000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000, .f32⟩
  | .hbm, ⟨64, _⟩ => ⟨S850000, .f32⟩
  | .hbm, ⟨65, _⟩ => ⟨S50000x64, .f32⟩
  | .hbm, ⟨66, _⟩ => ⟨S850000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S850000x1, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x64, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S1x64, .f32⟩
  | .hbm, ⟨109, _⟩ => ⟨S1x64, .f32⟩
  | .hbm, ⟨110, _⟩ => ⟨S50000x64, .f32⟩
  | .hbm, ⟨111, _⟩ => ⟨S50000x1, .i32⟩
  | .hbm, ⟨112, _⟩ => ⟨S1x32, .f32⟩
  | .hbm, ⟨113, _⟩ => ⟨S1x1, .f32⟩
  | .hbm, ⟨114, _⟩ => ⟨S128x1, .f32⟩
  | .hbm, ⟨115, _⟩ => ⟨S128, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .i32⟩
  | .local _ .vmem, ⟨31, _⟩ => ⟨S5000x1, .i32⟩
  | .local _ .vmem, ⟨32, _⟩ => ⟨S64x32, .f32⟩
  | .local _ .vmem, ⟨33, _⟩ => ⟨S1x32, .f32⟩
  | .local _ .vmem, ⟨34, _⟩ => ⟨S32x1, .f32⟩
  | .local _ .vmem, ⟨35, _⟩ => ⟨S1x1, .f32⟩
  | .local _ .vmem, ⟨36, _⟩ => ⟨S128x1, .f32⟩
  | .local _ .vmem, ⟨37, _⟩ => ⟨S128x64, .f32⟩
  | .local _ .vmem, ⟨38, _⟩ => ⟨S128x1, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_10 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_scratch0 : Ref sig .tc := ⟨.vmem, 37, rfl⟩
abbrev cc4_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_13 : BitVec 32 := 0#32
  let v31 : BitVec 1 := Scalar.cmpi .ne v30 c0_i32_13
  v31

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S50000_S50000x1 : S50000.ShapeCasts S50000x1
  shapeCasts_S32_S1x32 : S32.ShapeCasts S1x32
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  reduces_S5000x128_S128 : S5000x128.Reduces [0] S128
  shapeCasts_S128_S128x1 : S128.ShapeCasts S128x1
  broadcasts_S128x1_S128x64 : S128x1.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  shapeCasts_S128x1_S128 : S128x1.ShapeCasts S128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x5_S5x64_S5000x64_1_0_0_1_n_n_wf : DotDims.WF S5000x5 S5x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x1.size a ≤ S32x1.size a
  hwx4_4 : ∀ i : grid4.Coords, EltTy.bits .f32 = 32 ∨ (Rect.block (s := S32x1) S32x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x1.size a ≤ S128x1.size a
  hwx4_6 : ∀ i : grid4.Coords, EltTy.bits .f32 = 32 ∨ (Rect.block (s := S128x1) S128x1.size (cc4_transform_6 i) (hinb4_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v73) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S32x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v77) S128x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S50000x5 : Shape := ⟨2, ![50000, 5]⟩
abbrev S2x800000 : Shape := ⟨2, ![2, 800000]⟩
abbrev S800000 : Shape := ⟨1, ![800000]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S128x64 : Shape := ⟨2, ![128, 64]⟩
abbrev S50000x1 : Shape := ⟨2, ![50000, 1]⟩
abbrev S128 : Shape := ⟨1, ![128]⟩
abbrev S128x1 : Shape := ⟨2, ![128, 1]⟩
abbrev S128x32 : Shape := ⟨2, ![128, 32]⟩
abbrev S1x32 : Shape := ⟨2, ![1, 32]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S50000x5, .f32⟩
  | 1 => ⟨S2x800000, .i32⟩
  | 2 => ⟨S800000, .f32⟩
  | 3 => ⟨S50000, .i32⟩
  | 4 => ⟨S5x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64x32, .f32⟩
  | 17 => ⟨S32, .f32⟩
  | 18 => ⟨S32x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S50000, .i32⟩
  | 25 => ⟨S850000, .i32⟩
  | 26 => ⟨S850000, .i32⟩
  | 27 => ⟨S_, .f32⟩
  | 28 => ⟨S50000, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S50000x64, .f32⟩
  | 66 => ⟨S850000x1, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x64, .f32⟩
  | 76 => ⟨S850000x64, .f32⟩
  | 77 => ⟨S850000x64, .f32⟩
  | 78 => ⟨S_, .f32⟩
  | 79 => ⟨S50000x64, .f32⟩
  | 80 => ⟨S850000x1, .i32⟩
  | 81 => ⟨S50000x64, .f32⟩
  | 82 => ⟨S1x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S64, .f32⟩
  | 90 => ⟨S64, .f32⟩
  | 91 => ⟨S64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S1x800000, .i32⟩
  | 105 => ⟨S800000, .i32⟩
  | 106 => ⟨S1x800000, .i32⟩
  | 107 => ⟨S800000, .i32⟩
  | 108 => ⟨S50000, .i32⟩
  | 109 => ⟨S850000, .i32⟩
  | 110 => ⟨S850000, .i32⟩
  | 111 => ⟨S_, .f32⟩
  | 112 => ⟨S50000, .f32⟩
  | 113 => ⟨S850000, .f32⟩
  | 114 => ⟨S_, .f32⟩
  | 115 => ⟨S50000, .f32⟩
  | 116 => ⟨S850000x1, .i32⟩
  | 117 => ⟨S50000, .f32⟩
  | 118 => ⟨S_, .f32⟩
  | 119 => ⟨S50000, .f32⟩
  | 120 => ⟨S50000, .i1⟩
  | 121 => ⟨S_, .f32⟩
  | 122 => ⟨S50000, .f32⟩
  | 123 => ⟨S50000, .f32⟩
  | 124 => ⟨S50000, .f32⟩
  | 125 => ⟨S_, .f32⟩
  | 126 => ⟨S_, .f32⟩
  | 127 => ⟨S50000, .f32⟩
  | _ => ⟨S50000x5, .f32⟩

abbrev hbmTy0_1 (i : Nat) : BufTy := match i % 128 with
  | 0 => ⟨S50000, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000, .f32⟩
  | 10 => ⟨S850000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S850000, .f32⟩
  | 21 => ⟨S50000x64, .f32⟩
  | 22 => ⟨S850000x1, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000x64, .f32⟩
  | 32 => ⟨S850000x64, .f32⟩
  | 33 => ⟨S850000x64, .f32⟩
  | 34 => ⟨S_, .f32⟩
  | 35 => ⟨S50000x64, .f32⟩
  | 36 => ⟨S850000x1, .i32⟩
  | 37 => ⟨S50000x64, .f32⟩
  | 38 => ⟨S1x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S_, .f32⟩
  | 45 => ⟨S64, .f32⟩
  | 46 => ⟨S64, .f32⟩
  | 47 => ⟨S64, .f32⟩
  | 48 => ⟨S1x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .f32⟩
  | 61 => ⟨S128x64, .f32⟩
  | 62 => ⟨S50000x1, .i32⟩
  | 63 => ⟨S128x64, .f32⟩
  | 64 => ⟨S_, .f32⟩
  | 65 => ⟨S50000, .f32⟩
  | 66 => ⟨S_, .f32⟩
  | 67 => ⟨S128, .f32⟩
  | 68 => ⟨S50000x1, .i32⟩
  | 69 => ⟨S128, .f32⟩
  | 70 => ⟨S_, .f32⟩
  | 71 => ⟨S128, .f32⟩
  | 72 => ⟨S128, .f32⟩
  | 73 => ⟨S128x1, .f32⟩
  | 74 => ⟨S128x64, .f32⟩
  | 75 => ⟨S128x64, .f32⟩
  | 76 => ⟨S128x32, .f32⟩
  | 77 => ⟨S1x32, .f32⟩
  | 78 => ⟨S128x32, .f32⟩
  | 79 => ⟨S128x32, .f32⟩
  | 80 => ⟨S_, .f32⟩
  | 81 => ⟨S128x32, .f32⟩
  | 82 => ⟨S128x32, .f32⟩
  | 83 => ⟨S128x1, .f32⟩
  | 84 => ⟨S1x1, .f32⟩
  | 85 => ⟨S128x1, .f32⟩
  | 86 => ⟨S128x1, .f32⟩
  | 87 => ⟨S128, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call1_cst : Ref sig .tc := ⟨.hbm, 101, rfl⟩
abbrev main_call1_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_15 : Ref sig .tc := ⟨.hbm, 125, rfl⟩
abbrev main_call2_v0 : Ref sig .tc := ⟨.hbm, 126, rfl⟩
abbrev main_call2_v1 : Ref sig .tc := ⟨.hbm, 127, rfl⟩
abbrev main_v84 : Ref sig .tc := ⟨.hbm, 128, rfl⟩
abbrev main_c_16 : Ref sig .tc := ⟨.hbm, 129, rfl⟩
abbrev main_v85 : Ref sig .tc := ⟨.hbm, 130, rfl⟩
abbrev main_v86 : Ref sig .tc := ⟨.hbm, 131, rfl⟩
abbrev main_c_17 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_18 : Ref sig .tc := ⟨.hbm, 139, rfl⟩
abbrev main_v93 : Ref sig .tc := ⟨.hbm, 140, rfl⟩
abbrev main_v94 : Ref sig .tc := ⟨.hbm, 141, rfl⟩
abbrev main_c_19 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_20 : Ref sig .tc := ⟨.hbm, 151, rfl⟩
abbrev main_v103 : Ref sig .tc := ⟨.hbm, 152, rfl⟩
abbrev main_v104 : Ref sig .tc := ⟨.hbm, 153, rfl⟩
abbrev main_c_21 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_22 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_23 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_call3_cst : Ref sig .tc := ⟨.hbm, 185, rfl⟩
abbrev main_call3_v0 : Ref sig .tc := ⟨.hbm, 186, rfl⟩
abbrev main_v133 : Ref sig .tc := ⟨.hbm, 187, rfl⟩
abbrev main_cst_24 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_25 : Ref sig .tc := ⟨.hbm, 192, rfl⟩
abbrev main_v137 : Ref sig .tc := ⟨.hbm, 193, rfl⟩
abbrev main_cst_26 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_27 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_call4_cst : Ref sig .tc := ⟨.hbm, 208, rfl⟩
abbrev main_call4_v0 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S128x64 : S_.BroadcastsInDim S128x64 (![] : Fin 0 → Fin S128x64.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x5_S5x64_S50000x64_1_0_0_1_n_n_wf : DotDims.WF S50000x5 S5x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

class Facts : Prop extends Facts₀ where

variable [Facts]
-- ==== Proof.BitsR0.lean ====
/-
  The first projection, rows of x times W1, tile by tile: for any contents V of the TensorCore's buffers when the
  region is entered, each of the ten grid points loads its 5000 rows of the left operand and the whole right operand,
  multiplies them into a zero accumulator and stores the 5000 x 64 product over the output block. The proof data
  below name what every window's staging buffer holds after the body at a point, and the body's run is checked
  against them.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of the 5000 x 64 output block. -/
abbrev rOut0 : Rect S5000x64 := Rect.unit (s := S5000x64) ![0, 0] S5000x64.size inb_S5000x64_S5000x64_0_0
abbrev rX0 : Rect S5000x5 := Rect.unit (s := S5000x5) ![0, 0] S5000x5.size inb_S5000x5_S5000x5_0_0
abbrev rW0 : Rect S5x64 := Rect.unit (s := S5x64) ![0, 0] S5x64.size inb_S5x64_S5x64_0_0

/-- What the body leaves in the output block: its one store, the product of the loaded blocks. -/
def out0_2 (x0 : Vec F S5000x5 .f32) (x1 : Vec F S5x64 .f32) : Vec F S5000x64 .f32 :=
  View.canon [⟨rOut0, k0_pay1 (View.ld x0 rX0) (View.ld x1 rW0)⟩]

theorem cover0_2 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

set_option maxHeartbeats 1000000 in
/-- The body on whole staging memrefs: inputs kept, the output block at the product. -/
theorem sound_kernel0 (c : Dev nD) (E : Set ℕ) (i : grid0.Coords)
    (arg1 : Memref sig .tc .vmem S5000x5 .f32) (harg1 : arg1.IsWhole) (arg2 : Memref sig .tc .vmem S5x64 .f32) (harg2 : arg2.IsWhole)
    (arg3 : Memref sig .tc .vmem S5000x64 .f32) (harg3 : arg3.IsWhole)
    (x0 : Vec F S5000x5 .f32) (x1 : Vec F S5x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first projection's pipeline on core c: arrays as the region finds them; after the body each
    input buffer at its block and the output buffer at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1.lean ====
/-
  The first bias-add, batch-norm and rectifier, tile by tile: each of the ten grid points loads its 5000 rows of the
  aggregated features and the five 1 x 64 parameter rows (bias, scale, shift, mean, variance), computes
  max(((a + bias) - mean) * rsqrt(variance + eps) * scale + shift, 0) row by row and stores the 5000 x 64 result over the
  output block.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rOut1 : Rect S5000x64 := Rect.unit (s := S5000x64) ![0, 0] S5000x64.size inb_S5000x64_S5000x64_0_0
abbrev rP1 : Rect S1x64 := Rect.unit (s := S1x64) ![0, 0] S1x64.size inb_S1x64_S1x64_0_0

/-- What the body leaves in the output block: its one store, the normalised and rectified rows. The parameter rows
    come in window order: bias, scale, shift, mean, variance. -/
def out1_6 (x0 : Vec F S5000x64 .f32) (x1 x2 x3 x4 x5 : Vec F S1x64 .f32) : Vec F S5000x64 .f32 :=
  View.canon [⟨rOut1, k1_pay1 (View.ld x0 rOut1) (View.ld x1 rP1) (View.ld x4 rP1) (View.ld x5 rP1) (View.ld x2 rP1) (View.ld x3 rP1)⟩]

theorem cover1_6 (p0 : Vec F S5000x64 .f32) (y : S5000x64.Idx) :
    ∃ pc ∈ ([⟨rOut1, p0⟩] : List (View.Piece (Elt F) S5000x64 .f32)), y ∈ pc.1.set :=
  View.cover_of_tiled [⟨rOut1, p0⟩] S5000x64.size (by rfl) y

set_option maxHeartbeats 1000000 in
/-- The body on whole staging memrefs: inputs kept, the output block at the normalised rows. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__bn_relu_kernel i arg1 harg1 arg2 harg2 arg3 harg3 arg4 harg4 arg5 harg5 arg6 harg6 arg7 harg7) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of this pipeline on core c: arrays as the region finds them; after the body each input buffer at
    its block and the output buffer at the normalised rows of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsR2.lean ====
/-
  The second projection, rows of the hidden features times W2, tile by tile: for any contents V of the TensorCore's buffers when the
  region is entered, each of the ten grid points loads its 5000 rows of the left operand (64 columns) and the whole right operand,
  multiplies them into a zero accumulator and stores the 5000 x 64 product over the output block. The proof data
  below name what every window's staging buffer holds after the body at a point, and the body's run is checked
  against them.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangle of the 5000 x 64 output block. -/
abbrev rOut2 : Rect S5000x64 := Rect.unit (s := S5000x64) ![0, 0] S5000x64.size inb_S5000x64_S5000x64_0_0
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0

/-- What the body leaves in the output block: its one store, the product of the loaded blocks. -/
def out2_2 (x0 : Vec F S5000x64 .f32) (x1 : Vec F S64x64 .f32) : Vec F S5000x64 .f32 :=
  View.canon [⟨rOut2, k2_pay1 (View.ld x0 rX2) (View.ld x1 rW2)⟩]

theorem cover2_2 (p0 : Vec F S5000x64 .f32) (y : S5000x64.Idx) :
    ∃ pc ∈ ([⟨rOut2, p0⟩] : List (View.Piece (Elt F) S5000x64 .f32)), y ∈ pc.1.set :=
  View.cover_of_tiled [⟨rOut2, p0⟩] S5000x64.size (by rfl) y

set_option maxHeartbeats 1000000 in
/-- The body on whole staging memrefs: inputs kept, the output block at the product. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The proof data of the second projection's pipeline on core c: arrays as the region finds them; after the body each
    input buffer at its block and the output buffer at the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsR3.lean ====
/-
  The second bias-add, batch-norm and rectifier, tile by tile: each of the ten grid points loads its 5000 rows of the
  aggregated features and the five 1 x 64 parameter rows (bias, scale, shift, mean, variance), computes
  max(((a + bias) - mean) * rsqrt(variance + eps) * scale + shift, 0) row by row and stores the 5000 x 64 result over the
  output block.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rOut3 : Rect S5000x64 := Rect.unit (s := S5000x64) ![0, 0] S5000x64.size inb_S5000x64_S5000x64_0_0
abbrev rP3 : Rect S1x64 := Rect.unit (s := S1x64) ![0, 0] S1x64.size inb_S1x64_S1x64_0_0

/-- What the body leaves in the output block: its one store, the normalised and rectified rows. The parameter rows
    come in window order: bias, scale, shift, mean, variance. -/
def out3_6 (x0 : Vec F S5000x64 .f32) (x1 x2 x3 x4 x5 : Vec F S1x64 .f32) : Vec F S5000x64 .f32 :=
  View.canon [⟨rOut3, k3_pay1 (View.ld x0 rOut3) (View.ld x1 rP3) (View.ld x4 rP3) (View.ld x5 rP3) (View.ld x2 rP3) (View.ld x3 rP3)⟩]

theorem cover3_6 (p0 : Vec F S5000x64 .f32) (y : S5000x64.Idx) :
    ∃ pc ∈ ([⟨rOut3, p0⟩] : List (View.Piece (Elt F) S5000x64 .f32)), y ∈ pc.1.set :=
  View.cover_of_tiled [⟨rOut3, p0⟩] S5000x64.size (by rfl) y

set_option maxHeartbeats 1000000 in
/-- The body on whole staging memrefs: inputs kept, the output block at the normalised rows. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__bn_relu_kernel i arg1 harg1 arg2 harg2 arg3 harg3 arg4 harg4 arg5 harg5 arg6 harg6 arg7 harg7) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- Each input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The proof data of this pipeline on core c: arrays as the region finds them; after the body each input buffer at
    its block and the output buffer at the normalised rows of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsR4.lean ====
/-
  The pooling region: ten grid points of 5000 rows each. Two scratch buffers are carried from point to point: a
  128 x 64 table of per-graph row sums and a 128 x 1 table of per-graph row counts. The first point clears them;
  every point adds its tile's contribution (the one-hot matrix of the tile's graph ids, transposed, times the tile's
  rows; and the one-hot matrix's column sums); the last point divides sums by counts (at least one), applies the
  two-layer head and stores the 128 x 1 result block, which is written back once, after the last point.
  The proof data name what the scratch buffers hold after each point as a recursion over the points.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile's rows, its graph ids, and the head's parameters as the point's staging buffers hold them, at their literal types. -/
abbrev hblk4 (c : Dev nD) (t : Fin cfg4.N) : Vec F S5000x64 .f32 := iblk4 V c 0 t
abbrev bblk4 (c : Dev nD) (t : Fin cfg4.N) : Vec F S5000x1 .i32 := iblk4 V c 1 t
abbrev w1blk4 (c : Dev nD) (t : Fin cfg4.N) : Vec F S64x32 .f32 := iblk4 V c 2 t
abbrev b1blk4 (c : Dev nD) (t : Fin cfg4.N) : Vec F S1x32 .f32 := iblk4 V c 3 t
abbrev w2blk4 (c : Dev nD) (t : Fin cfg4.N) : Vec F S32x1 .f32 := iblk4 V c 4 t
abbrev b2blk4 (c : Dev nD) (t : Fin cfg4.N) : Vec F S1x1 .f32 := iblk4 V c 5 t

abbrev rS4 : Rect S128x64 := Rect.unit (s := S128x64) ![0, 0] S128x64.size inb_S128x64_S128x64_0_0
abbrev rC4 : Rect S128x1 := Rect.unit (s := S128x1) ![0, 0] S128x1.size inb_S128x1_S128x1_0_0
abbrev rH4 : Rect S5000x64 := Rect.unit (s := S5000x64) ![0, 0] S5000x64.size inb_S5000x64_S5000x64_0_0
abbrev rB4 : Rect S5000x1 := Rect.unit (s := S5000x1) ![0, 0] S5000x1.size inb_S5000x1_S5000x1_0_0
abbrev rW14 : Rect S64x32 := Rect.unit (s := S64x32) ![0, 0] S64x32.size inb_S64x32_S64x32_0_0
abbrev rB14 : Rect S1x32 := Rect.unit (s := S1x32) ![0, 0] S1x32.size inb_S1x32_S1x32_0_0
abbrev rW24 : Rect S32x1 := Rect.unit (s := S32x1) ![0, 0] S32x1.size inb_S32x1_S32x1_0_0
abbrev rB24 : Rect S1x1 := Rect.unit (s := S1x1) ![0, 0] S1x1.size inb_S1x1_S1x1_0_0

/-- One point's update of the sums table: the tile's contribution added to what the table held. -/
def stepS4 (hb : Vec F S5000x64 .f32) (bb : Vec F S5000x1 .i32) (s : Vec F S128x64 .f32) : Vec F S128x64 .f32 :=
  k4_pay4 (View.ld hb rH4) (View.ld bb rB4) s
/-- One point's update of the counts table. -/
def stepC4 (bb : Vec F S5000x1 .i32) (n : Vec F S128x1 .f32) : Vec F S128x1 .f32 :=
  k4_pay5 (View.ld bb rB4) n

/-- The two tables after the body at point n: cleared before the first point's update, carried afterwards. -/
def accAt4 (c : Dev nD) : (n : ℕ) → n < cfg4.N → Vec F S128x64 .f32 × Vec F S128x1 .f32
  | 0, h => (stepS4 (hblk4 V c ⟨0, h⟩) (bblk4 V c ⟨0, h⟩) (k4_pay1 (F := F)), stepC4 (bblk4 V c ⟨0, h⟩) (k4_pay2 (F := F)))
  | n + 1, h => (stepS4 (hblk4 V c ⟨n + 1, h⟩) (bblk4 V c ⟨n + 1, h⟩) (accAt4 c n (Nat.lt_of_succ_lt h)).1,
                 stepC4 (bblk4 V c ⟨n + 1, h⟩) (accAt4 c n (Nat.lt_of_succ_lt h)).2)

/-- What the last point stores into the result block: the head applied to sums over counts. -/
def out4_6 (c : Dev nD) (t : Fin cfg4.N) : Vec F S128x1 .f32 :=
  k4_pay6 (accAt4 V c t.val t.isLt).1 (accAt4 V c t.val t.isLt).2
    (View.ld (w1blk4 V c t) rW14) (View.ld (b1blk4 V c t) rB14) (View.ld (w2blk4 V c t) rW24) (View.ld (b2blk4 V c t) rB24)

/-- The region's invariant before point n: before the first point the class's own (scoped buffers at anything, the
    generator register at some state); afterwards the two scratch tables at their named contents beside the other scoped
    buffers and the register. -/
def Phi4 (c : Dev nD) : (n : ℕ) → n ≤ cfg4.N → sProp 𝕄
  | 0, _ => Pipeline.ΦA spec4 c
  | n + 1, h => iprop((owns (c : Thread nD τ) (Memref.whole cc4_scratch0) fullShare (accAt4 V c n h).1
      ∗ owns (c : Thread nD τ) (Memref.whole cc4_scratch1) fullShare (accAt4 V c n h).2)
      ∗ Pipeline.scopedRestBut (Ix := Unit) (Name := ℕ) (U := UR sig nD τ) (Lvl := ℕ) (Val := Elt F) spec4 c [cc4_scratch0, cc4_scratch1]
      ∗ ∃ r, prngReg c r)

/-- The proof data of the pooling pipeline on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c t := by dsimp only [dat4]

/-- The first conditional of the body (clear the tables), as the body computes it from the grid coordinate. -/
abbrev cond4_1 (i : grid4.Coords) : Prop :=
  (Scalar.cmpi .ne (Scalar.extui (Scalar.cmpi .eq (BitVec.ofNat 32 (i 0).val) 0#32)) 0#32) = 1#1

/-- It holds at the first point only; the second conditional (finalize) at the last point only. -/
theorem hcond4_1 : ∀ t : Fin cfg4.N, cond4_1 (grid4.coords t) ↔ t.val = 0 :=
  (by decide +kernel : ∀ t : Fin grid4.N, cond4_1 (grid4.coords t) ↔ t.val = 0)
theorem hcond4_2 : ∀ t : Fin cfg4.N, k4_cond2 (grid4.coords t) = 1#1 ↔ t.val = 9 :=
  (by decide +kernel : ∀ t : Fin grid4.N, k4_cond2 (grid4.coords t) = 1#1 ↔ t.val = 9)

/-- The zero offsets of a whole-buffer rectangle of rank two. -/
theorem hz4 : (![0, 0] : Fin 2 → Nat) = fun _ => 0 := by
  funext a; fin_cases a <;> rfl

/-- A whole-buffer store made last leaves its payload, whatever was stored before and whatever the buffer held. -/
theorem read_writes_whole_last {S : Shape} {e : EltTy} {sp : Space} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero hz inb y⟩),
    View.canon_cons_unit_zero hz]

/-- A whole-buffer load after such a store reads the payload. -/
theorem readCov_whole_last {S : Shape} {e : EltTy} {sp : Space} (v : View sig .tc sp S e)
    {off : Fin S.rank → Nat} (hz : off = fun _ => 0) (inb : ∀ a, off a + S.size a ≤ S.size a)
    (w : S.Idx → Elt F e) (L : List (View.Piece (Elt F) S e)) :
    v.readCov (⟨Rect.unit off S.size inb, w⟩ :: L) (Rect.unit off S.size inb).toLoadRect = w := by
  rw [View.readCov_eq_canon_ld v _ _ (fun y => ⟨_, List.mem_cons_self, View.mem_set_unit_zero hz inb y⟩),
    View.canon_cons_unit_zero hz, View.ld_unit_zero hz]

/-- A whole-buffer load reads the contents. -/
theorem readAt_whole {S : Shape} {e : EltTy} {sp : Space} (v : View sig .tc sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  View.ld_unit_zero hz inb _

set_option maxHeartbeats 1000000 in
/-- The body at the first point, on whole memrefs: the tables, at anything, are cleared and then updated with the tile's
    contribution; nothing is stored into the result block; the tile's rows and graph ids are kept. -/
theorem kernel4_first (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S128x1 .f32) (harg7 : arg7.IsWhole) (arg8 : Memref sig .tc .vmem S128x64 .f32) (harg8 : arg8.IsWhole)
    (arg9 : Memref sig .tc .vmem S128x1 .f32) (harg9 : arg9.IsWhole)
    (hc1 : cond4_1 i) (hc2 : ¬k4_cond2 i = 1#1)
    (x0 : Vec F S5000x64 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg8 fullShare (stepS4 x0 x1 (k4_pay1 (F := F)))
            ∗ owns (c : Thread nD τ) arg9 fullShare (stepC4 x1 (k4_pay2 (F := F)))) -∗ K ⟨⟩))
      ⊢ wp frame (wpE (defs₀ (F := F)) Variants.none c none) E
          (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%d7, %f7, -, H7⟩, ⟨%d8, %f8, -, H8⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H7]
  · iexists _; isplitr
    swap; · iexact H7
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  iexists _; isplitr
  swap; · iexact H8
  ipureintro
  sl_unfold_run_names
  simp only [read_writes_whole_last (S := S128x64) _ _ hz4, read_writes_whole_last (S := S128x1) _ _ hz4,
    readCov_whole_last (S := S128x64) _ hz4, readCov_whole_last (S := S128x1) _ hz4,
    readAt_whole (S := S128x64) _ _ hz4, readAt_whole (S := S128x1) _ _ hz4]
  rfl

set_option maxHeartbeats 1000000 in
/-- The body at a point that is neither the first nor the last: the tables, at s and n, are updated with the tile's
    contribution; nothing else is stored. -/
theorem kernel4_mid (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S128x1 .f32) (harg7 : arg7.IsWhole) (arg8 : Memref sig .tc .vmem S128x64 .f32) (harg8 : arg8.IsWhole)
    (arg9 : Memref sig .tc .vmem S128x1 .f32) (harg9 : arg9.IsWhole)
    (hc1 : ¬cond4_1 i) (hc2 : ¬k4_cond2 i = 1#1)
    (x0 : Vec F S5000x64 .f32) (x1 : Vec F S5000x1 .i32) (s : Vec F S128x64 .f32) (n : Vec F S128x1 .f32) (K : PUnit → sProp 𝕄) :
    iprop(owns (c : Thread nD τ) arg1 fullShare x0 ∗ owns (c : Thread nD τ) arg2 fullShare x1
        ∗ owns (c : Thread nD τ) arg8 fullShare s ∗ owns (c : Thread nD τ) arg9 fullShare n
        ∗ (iprop(owns (c : Thread nD τ) arg1 fullShare x0 ∗ owns (c : Thread nD τ) arg2 fullShare x1
            ∗ owns (c : Thread nD τ) arg8 fullShare (stepS4 x0 x1 s) ∗ owns (c : Thread nD τ) arg9 fullShare (stepC4 x1 n)) -∗ K ⟨⟩))
      ⊢ wp frame (wpE (defs₀ (F := F)) Variants.none c none) E
          (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f7, %hf7, H7⟩, ⟨%f8, %hf8, H8⟩, Hk⟩
  subst hf0; subst hf1; subst hf7; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H7]
  · iexists _; isplitr
    swap; · iexact H7
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  iexists _; isplitr
  swap; · iexact H8
  ipureintro
  sl_unfold_run_names
  simp only [read_writes_whole_last (S := S128x64) _ _ hz4, read_writes_whole_last (S := S128x1) _ _ hz4,
    readCov_whole_last (S := S128x64) _ hz4, readCov_whole_last (S := S128x1) _ hz4,
    readAt_whole (S := S128x64) _ _ hz4, readAt_whole (S := S128x1) _ _ hz4]
  rfl

set_option maxHeartbeats 1000000 in
/-- The body at the last point: the tables are updated as at any later point, and the result block, at anything, is stored
    at the head applied to the updated sums over the updated counts; the head's parameters are kept. -/
theorem kernel4_last (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S128x1 .f32) (harg7 : arg7.IsWhole) (arg8 : Memref sig .tc .vmem S128x64 .f32) (harg8 : arg8.IsWhole)
    (arg9 : Memref sig .tc .vmem S128x1 .f32) (harg9 : arg9.IsWhole)
    (hc1 : ¬cond4_1 i) (hc2 : k4_cond2 i = 1#1)
    (x0 : Vec F S5000x64 .f32) (x1 : Vec F S5000x1 .i32) (x2 : Vec F S64x32 .f32) (x3 : Vec F S1x32 .f32)
    (x4 : Vec F S32x1 .f32) (x5 : Vec F S1x1 .f32) (s : Vec F S128x64 .f32) (n : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare s ∗ owns (c : Thread nD τ) arg9 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k4_pay6 (stepS4 x0 x1 s) (stepC4 x1 n) (View.ld x2 rW14) (View.ld x3 rB14) (View.ld x4 rW24) (View.ld x5 rB24))
            ∗ owns (c : Thread nD τ) arg8 fullShare (stepS4 x0 x1 s) ∗ owns (c : Thread nD τ) arg9 fullShare (stepC4 x1 n)) -∗ K ⟨⟩))
      ⊢ wp frame (wpE (defs₀ (F := F)) Variants.none c none) E
          (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0; subst hf1; subst hf2; subst hf3; subst hf4; subst hf5; subst hf7; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  isplitl [H7]
  · iexists _; isplitr
    swap; · iexact H7
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  iexists _; isplitr
  swap; · iexact H8
  ipureintro
  sl_unfold_run_names
  simp only [read_writes_whole_last (S := S128x64) _ _ hz4, read_writes_whole_last (S := S128x1) _ _ hz4,
    readCov_whole_last (S := S128x64) _ hz4, readCov_whole_last (S := S128x1) _ hz4,
    readAt_whole (S := S128x64) _ _ hz4, readAt_whole (S := S128x1) _ _ hz4]
  rfl

/-! ## Where the result window is idle -/

theorem liveAt4_6 : ∀ t : Fin cfg4.N, k4_cond2 (grid4.coords t) = 1#1 → cfg4.idle 6 (grid4.coords t) = false :=
  (by decide +kernel : ∀ t : Fin grid4.N, k4_cond2 (grid4.coords t) = 1#1 → cfg4.idle 6 (grid4.coords t) = false)
theorem idleAt4_6 : ∀ t : Fin cfg4.N, ¬k4_cond2 (grid4.coords t) = 1#1 → cfg4.idle 6 (grid4.coords t) = true :=
  (by decide +kernel : ∀ t : Fin grid4.N, ¬k4_cond2 (grid4.coords t) = 1#1 → cfg4.idle 6 (grid4.coords t) = true)
/-- The result block is written back after the last point only. -/
theorem noFlush4_6 (t : Fin cfg4.N) (h : t.val ≠ 9) : (cfg4.win 6).flush t = false := by
  have hN : t.val < 10 := lt_of_lt_of_eq t.isLt (show cfg4.N = 10 from N_4)
  cases hf : (cfg4.win 6).flush t with
  | false => rfl
  | true => exact absurd (by have := (flush4_6 t).mp hf; omega) h

/-! ## The recursion of the tables, at a point -/

theorem accAt4_zero_fst (c : Dev nD) (t : Fin cfg4.N) (h0 : t.val = 0) :
    (accAt4 V c t.val t.isLt).1 = stepS4 (hblk4 V c t) (bblk4 V c t) (k4_pay1 (F := F)) := by
  obtain ⟨n, hn⟩ := t
  cases n with
  | zero => rfl
  | succ n => exact absurd h0 (Nat.succ_ne_zero n)
theorem accAt4_zero_snd (c : Dev nD) (t : Fin cfg4.N) (h0 : t.val = 0) :
    (accAt4 V c t.val t.isLt).2 = stepC4 (bblk4 V c t) (k4_pay2 (F := F)) := by
  obtain ⟨n, hn⟩ := t
  cases n with
  | zero => rfl
  | succ n => exact absurd h0 (Nat.succ_ne_zero n)
theorem accAt4_pos_fst (c : Dev nD) (t : Fin cfg4.N) (h0 : t.val ≠ 0) :
    (accAt4 V c t.val t.isLt).1
      = stepS4 (hblk4 V c t) (bblk4 V c t) (accAt4 V c (t.val - 1) (Nat.lt_of_le_of_lt (Nat.sub_le _ _) t.isLt)).1 := by
  obtain ⟨n, hn⟩ := t
  cases n with
  | zero => exact absurd rfl h0
  | succ n => rfl
theorem accAt4_pos_snd (c : Dev nD) (t : Fin cfg4.N) (h0 : t.val ≠ 0) :
    (accAt4 V c t.val t.isLt).2
      = stepC4 (bblk4 V c t) (accAt4 V c (t.val - 1) (Nat.lt_of_le_of_lt (Nat.sub_le _ _) t.isLt)).2 := by
  obtain ⟨n, hn⟩ := t
  cases n with
  | zero => exact absurd rfl h0
  | succ n => rfl

/-! ## The invariant, by the point -/

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop((owns (c : Thread nD τ) (Memref.whole cc4_scratch0) fullShare (accAt4 V c n hn).1
      ∗ owns (c : Thread nD τ) (Memref.whole cc4_scratch1) fullShare (accAt4 V c n hn).2)
      ∗ Pipeline.scopedRestBut (Ix := Unit) (Name := ℕ) (U := UR sig nD τ) (Lvl := ℕ) (Val := Elt F) spec4 c [cc4_scratch0, cc4_scratch1]
      ∗ ∃ r, prngReg c r) := rfl

theorem Phi4_pos (c : Dev nD) (n : ℕ) (h : n ≤ cfg4.N) (hz : n ≠ 0) :
    Phi4 V c n h = iprop((owns (c : Thread nD τ) (Memref.whole cc4_scratch0) fullShare (accAt4 V c (n - 1) (by omega)).1
      ∗ owns (c : Thread nD τ) (Memref.whole cc4_scratch1) fullShare (accAt4 V c (n - 1) (by omega)).2)
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl hz
  | succ n => rfl

/-- The class's own invariant with the two tables named: each whole at some contents, beside the other scoped buffers
    and the generator register. -/
theorem PhiA4_eq (c : Dev nD) :
    (Pipeline.ΦA spec4 c : sProp 𝕄)
      = iprop((((∃ d, owns (c : Thread nD τ) (Memref.whole cc4_scratch0) fullShare d)
            ∗ (∃ d, owns (c : Thread nD τ) (Memref.whole cc4_scratch1) fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [owns_whole]; try rfl

theorem Phi4_castSucc (c : Dev nD) (t : Fin cfg4.N) :
    (dat4 V c).Φ t.castSucc = Phi4 V c t.val (Nat.le_of_lt t.isLt) := by
  dsimp only [dat4]; simp only [Fin.coe_castSucc]

/-! ## The input windows -/

/-- Each input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- An input window is never idle: the body leaves its block in place. -/
theorem leaves4_0 (c : Dev nD) (t : Fin cfg4.N) :
    (dat4 V c).leavesExact 0 t = owns (c : Thread nD τ) (st4_0 t) fullShare (iblk4 V c 0 t) := by
  rw [show (dat4 V c).leavesExact 0 t = owns (c : Thread nD τ) (st4_0 t) fullShare ((dat4 V c).after 0 t) from rfl, after4_0]
theorem leaves4_1 (c : Dev nD) (t : Fin cfg4.N) :
    (dat4 V c).leavesExact 1 t = owns (c : Thread nD τ) (st4_1 t) fullShare (iblk4 V c 1 t) := by
  rw [show (dat4 V c).leavesExact 1 t = owns (c : Thread nD τ) (st4_1 t) fullShare ((dat4 V c).after 1 t) from rfl, after4_1]
theorem leaves4_2 (c : Dev nD) (t : Fin cfg4.N) :
    (dat4 V c).leavesExact 2 t = owns (c : Thread nD τ) (st4_2 t) fullShare (iblk4 V c 2 t) := by
  rw [show (dat4 V c).leavesExact 2 t = owns (c : Thread nD τ) (st4_2 t) fullShare ((dat4 V c).after 2 t) from rfl, after4_2]
theorem leaves4_3 (c : Dev nD) (t : Fin cfg4.N) :
    (dat4 V c).leavesExact 3 t = owns (c : Thread nD τ) (st4_3 t) fullShare (iblk4 V c 3 t) := by
  rw [show (dat4 V c).leavesExact 3 t = owns (c : Thread nD τ) (st4_3 t) fullShare ((dat4 V c).after 3 t) from rfl, after4_3]
theorem leaves4_4 (c : Dev nD) (t : Fin cfg4.N) :
    (dat4 V c).leavesExact 4 t = owns (c : Thread nD τ) (st4_4 t) fullShare (iblk4 V c 4 t) := by
  rw [show (dat4 V c).leavesExact 4 t = owns (c : Thread nD τ) (st4_4 t) fullShare ((dat4 V c).after 4 t) from rfl, after4_4]
theorem leaves4_5 (c : Dev nD) (t : Fin cfg4.N) :
    (dat4 V c).leavesExact 5 t = owns (c : Thread nD τ) (st4_5 t) fullShare (iblk4 V c 5 t) := by
  rw [show (dat4 V c).leavesExact 5 t = owns (c : Thread nD τ) (st4_5 t) fullShare ((dat4 V c).after 5 t) from rfl, after4_5]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point. The first point opens the class's invariant for the two tables at anything and leaves them
    cleared and updated; a later point finds them at what the point before left and updates them; at every point but the
    last the result window is idle and handed back as found; the last point also stores the result block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3, leaves4_4, leaves4_5]
  have hN : t.val < 10 := lt_of_lt_of_eq t.isLt (show cfg4.N = 10 from N_4)
  by_cases h0 : t.val = 0
  · have hc1 : cond4_1 (grid4.coords t) := (hcond4_1 t).mpr h0
    have hc2 : ¬k4_cond2 (grid4.coords t) = 1#1 := fun h => by have := (hcond4_2 t).mp h; omega
    rw [Dat.leavesExact_idle (dat4 V c) 6 t (idleAt4_6 t hc2) (noFlush4_6 t (by omega))]
    rw [accAt4_zero_fst V c t h0, accAt4_zero_snd V c t h0]
    rw [Phi4_castSucc V c t, Phi4_zero V c _ _ h0, PhiA4_eq]
    iintro ⟨⟨⟨⟨⟨%s0, HS⟩, ⟨%n0, HC⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel4_first c Set.univ _ _ _ _ _ _ _ _ _ _ _ _ _ _ _ _ _ _ _ hc1 hc2 (hblk4 V c t) (bblk4 V c t) _)
    isplitl [H0]; · iexact H0
    isplitl [H1]; · iexact H1
    isplitl [HS]; · iexists _; iexact HS
    isplitl [HC]; · iexists _; iexact HC
    iintro ⟨H0, H1, HS, HC⟩
    isplitl [HS HC HR Hg]
    · isplitl [HS HC]
      · isplitl [HS]; · iexact HS
        iexact HC
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc1 : ¬cond4_1 (grid4.coords t) := fun h => h0 ((hcond4_1 t).mp h)
    rw [accAt4_pos_fst V c t h0, accAt4_pos_snd V c t h0]
    by_cases h9 : t.val = 9
    · have hc2 : k4_cond2 (grid4.coords t) = 1#1 := (hcond4_2 t).mpr h9
      rw [show (dat4 V c).leavesExact 6 t = owns (c : Thread nD τ) (st4_6 t) fullShare ((dat4 V c).after 6 t) from by
        unfold Dat.leavesExact; rw [liveAt4_6 t hc2], after4_6]
      unfold out4_6
      rw [accAt4_pos_fst V c t h0, accAt4_pos_snd V c t h0]
      rw [Phi4_castSucc V c t, Phi4_pos V c _ _ h0]
      iintro ⟨⟨⟨HS, HC⟩, HR, Hg⟩, Ho, ⟨%d0, H0⟩, ⟨%d1, H1⟩, ⟨%d2, H2⟩, ⟨%d3, H3⟩, ⟨%d4, H4⟩, ⟨%d5, H5⟩, ⟨%d6, H6⟩⟩
      iapply (kernel4_last c Set.univ _ _ _ _ _ _ _ _ _ _ _ _ _ _ _ _ _ _ _ hc1 hc2 (hblk4 V c t) (bblk4 V c t)
        (w1blk4 V c t) (b1blk4 V c t) (w2blk4 V c t) (b2blk4 V c t)
        (accAt4 V c (t.val - 1) (Nat.lt_of_le_of_lt (Nat.sub_le _ _) t.isLt)).1
        (accAt4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HC]; · iexact HC
      iintro ⟨H0, H1, H2, H3, H4, H5, H6, HS, HC⟩
      isplitl [HS HC HR Hg]
      · isplitl [HS HC]
        · isplitl [HS]; · iexact HS
          iexact HC
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬k4_cond2 (grid4.coords t) = 1#1 := fun h => h9 ((hcond4_2 t).mp h)
      rw [Dat.leavesExact_idle (dat4 V c) 6 t (idleAt4_6 t hc2) (noFlush4_6 t h9)]
      rw [Phi4_castSucc V c t, Phi4_pos V c _ _ h0]
      iintro ⟨⟨⟨HS, HC⟩, HR, Hg⟩, Ho, ⟨%d0, H0⟩, ⟨%d1, H1⟩, ⟨%d2, H2⟩, ⟨%d3, H3⟩, ⟨%d4, H4⟩, ⟨%d5, H5⟩, ⟨%d6, H6⟩⟩
      iapply (kernel4_mid c Set.univ _ _ _ _ _ _ _ _ _ _ _ _ _ _ _ _ _ _ _ hc1 hc2 (hblk4 V c t) (bblk4 V c t)
        (accAt4 V c (t.val - 1) (Nat.lt_of_le_of_lt (Nat.sub_le _ _) t.isLt)).1
        (accAt4 V c (t.val - 1) (Nat.lt_of_le_of_lt (Nat.sub_le _ _) t.isLt)).2 _)
      isplitl [H0]; · iexact H0
      isplitl [H1]; · iexact H1
      isplitl [HS]; · iexact HS
      isplitl [HC]; · iexact HC
      iintro ⟨H0, H1, HS, HC⟩
      isplitl [HS HC HR Hg]
      · isplitl [HS HC]
        · isplitl [HS]; · iexact HS
          iexact HC
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives the class's own back: the tables' named contents are forgotten. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), PhiA4_eq]
  iintro ⟨⟨HS, HC⟩, HR, Hg⟩
  isplitl [HS HC HR]
  · isplitl [HS HC]
    · isplitl [HS]; · iexists _; iexact HS
      iexists _; iexact HC
    iexact HR
  iexact Hg

end Cert.Kernel.Hand

end
-- ==== Proof.BitsFold.lean ====
/-
  The TensorCore's buffer contents at every boundary between two items of the main program, as a fold from the launch
  memory: a stretch of host operations composes their results over what it found; a kernel region leaves each of its
  windows' arrays at what its write-backs make of it (the proof data's arrays after the last point) and every other
  buffer as it found it. Each region's proof data are taken at the contents the fold gives at its entry.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import proofs.«431412_j35321811042312_1_alg».proof.Proof.BitsR0
import proofs.«431412_j35321811042312_1_alg».proof.Proof.BitsR1
import proofs.«431412_j35321811042312_1_alg».proof.Proof.BitsR2
import proofs.«431412_j35321811042312_1_alg».proof.Proof.BitsR3
import proofs.«431412_j35321811042312_1_alg».proof.Proof.BitsR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- Launch contents. -/
abbrev U0 : Dev nD → Valuation τ sig (Elt F) := fun c b => m ((c : Dev nD), b)
/-- After the first three host stretches (the edge lists with self loops, degrees, inverse square roots, edge norms). -/
abbrev U1 : Dev nD → Valuation τ sig (Elt F) := fun c => StableHlo.after hostOps0 (U0 m c)
abbrev U2 : Dev nD → Valuation τ sig (Elt F) := fun c => StableHlo.after hostOps0_1 (U1 m c)
abbrev U3 : Dev nD → Valuation τ sig (Elt F) := fun c => StableHlo.after hostOps0_2 (U2 m c)
/-- After the first projection. -/
def U4 (c : Dev nD) : Valuation τ sig (Elt F) :=
  Pipeline.withArrays spec0 c (U3 m c) fun w => (dat0 (atTc (U3 m)) c).arrAt w cfg0.N
/-- After the first gather, scale and scatter-add, and the parameter reshapes. -/
abbrev U5 : Dev nD → Valuation τ sig (Elt F) := fun c => StableHlo.after hostOps1 (U4 m c)
/-- After the first normalisation. -/
def U6 (c : Dev nD) : Valuation τ sig (Elt F) :=
  Pipeline.withArrays spec1 c (U5 m c) fun w => (dat1 (atTc (U5 m)) c).arrAt w cfg1.N
/-- After the second projection. -/
def U7 (c : Dev nD) : Valuation τ sig (Elt F) :=
  Pipeline.withArrays spec2 c (U6 m c) fun w => (dat2 (atTc (U6 m)) c).arrAt w cfg2.N
abbrev U8 : Dev nD → Valuation τ sig (Elt F) := fun c => StableHlo.after hostOps3 (U7 m c)
/-- After the second normalisation. -/
def U9 (c : Dev nD) : Valuation τ sig (Elt F) :=
  Pipeline.withArrays spec3 c (U8 m c) fun w => (dat3 (atTc (U8 m)) c).arrAt w cfg3.N
abbrev U10 : Dev nD → Valuation τ sig (Elt F) := fun c => StableHlo.after hostOps4 (U9 m c)
/-- After the pooling region. -/
def U11 (c : Dev nD) : Valuation τ sig (Elt F) :=
  Pipeline.withArrays spec4 c (U10 m c) fun w => (dat4 (atTc (U10 m)) c).arrAt w cfg4.N
/-- After the final reshape: what the launch reads at the end. -/
abbrev U12 : Dev nD → Valuation τ sig (Elt F) := fun c => StableHlo.after hostOps5 (U11 m c)

theorem U4_arr (c : Dev nD) (w : Fin cfg0.W) :
    U4 m c (Proc.devRef .tc (Pipeline.arrRef spec0 w)) = (dat0 (atTc (U3 m)) c).arrAt w cfg0.N := by
  unfold U4; exact Pipeline.withArrays_arr spec0 launch0.win.arr_inj c _ _ w
theorem U4_of_ne (c : Dev nD) (b : Ref sig .tc) (hb : ∀ w, Pipeline.arrRef spec0 w ≠ b) :
    U4 m c (Proc.devRef .tc b) = U3 m c (Proc.devRef .tc b) := by
  unfold U4; exact Pipeline.withArrays_of_ne spec0 c _ _ b hb
theorem U6_arr (c : Dev nD) (w : Fin cfg1.W) :
    U6 m c (Proc.devRef .tc (Pipeline.arrRef spec1 w)) = (dat1 (atTc (U5 m)) c).arrAt w cfg1.N := by
  unfold U6; exact Pipeline.withArrays_arr spec1 launch1.win.arr_inj c _ _ w
theorem U6_of_ne (c : Dev nD) (b : Ref sig .tc) (hb : ∀ w, Pipeline.arrRef spec1 w ≠ b) :
    U6 m c (Proc.devRef .tc b) = U5 m c (Proc.devRef .tc b) := by
  unfold U6; exact Pipeline.withArrays_of_ne spec1 c _ _ b hb
theorem U7_arr (c : Dev nD) (w : Fin cfg2.W) :
    U7 m c (Proc.devRef .tc (Pipeline.arrRef spec2 w)) = (dat2 (atTc (U6 m)) c).arrAt w cfg2.N := by
  unfold U7; exact Pipeline.withArrays_arr spec2 launch2.win.arr_inj c _ _ w
theorem U7_of_ne (c : Dev nD) (b : Ref sig .tc) (hb : ∀ w, Pipeline.arrRef spec2 w ≠ b) :
    U7 m c (Proc.devRef .tc b) = U6 m c (Proc.devRef .tc b) := by
  unfold U7; exact Pipeline.withArrays_of_ne spec2 c _ _ b hb
theorem U9_arr (c : Dev nD) (w : Fin cfg3.W) :
    U9 m c (Proc.devRef .tc (Pipeline.arrRef spec3 w)) = (dat3 (atTc (U8 m)) c).arrAt w cfg3.N := by
  unfold U9; exact Pipeline.withArrays_arr spec3 launch3.win.arr_inj c _ _ w
theorem U9_of_ne (c : Dev nD) (b : Ref sig .tc) (hb : ∀ w, Pipeline.arrRef spec3 w ≠ b) :
    U9 m c (Proc.devRef .tc b) = U8 m c (Proc.devRef .tc b) := by
  unfold U9; exact Pipeline.withArrays_of_ne spec3 c _ _ b hb
theorem U11_arr (c : Dev nD) (w : Fin cfg4.W) :
    U11 m c (Proc.devRef .tc (Pipeline.arrRef spec4 w)) = (dat4 (atTc (U10 m)) c).arrAt w cfg4.N := by
  unfold U11; exact Pipeline.withArrays_arr spec4 launch4.win.arr_inj c _ _ w
theorem U11_of_ne (c : Dev nD) (b : Ref sig .tc) (hb : ∀ w, Pipeline.arrRef spec4 w ≠ b) :
    U11 m c (Proc.devRef .tc b) = U10 m c (Proc.devRef .tc b) := by
  unfold U11; exact Pipeline.withArrays_of_ne spec4 c _ _ b hb

/-- No pipeline has a prefetched table. -/
abbrev adm : (p : Fin 5) → (pcfgs (F := F) p).Adm := fun p => (cfgs p).toPCfg_adm

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (atTc (U3 m)) c
  | ⟨1, _⟩ => fun c => dat1 (atTc (U5 m)) c
  | ⟨2, _⟩ => fun c => dat2 (atTc (U6 m)) c
  | ⟨3, _⟩ => fun c => dat3 (atTc (U8 m)) c
  | ⟨4, _⟩ => fun c => dat4 (atTc (U10 m)) c

end Cert.Kernel.Hand

end
-- ==== Proof.BitsRun.lean ====
/-
  The launch: the main program as a list of segments (a host segment per stretch of host operations, a region per
  kernel call) chained through the fold of buffer contents, and the run it gives: every weakly fair execution
  terminates without a fault and ends with every unscoped buffer at the fold's last contents. The frame (the
  arguments end as launched) and the result's value are read off that.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import proofs.«431412_j35321811042312_1_alg».proof.Proof.BitsFold
import proofs.«431412_j35321811042312_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

set_option backward.isDefEq.respectTransparency.types false in
/-- Region 0 over the thread state: entered with every unscoped buffer at the fold's contents before it, left at the
    fold's contents after it. Its windows' arrays are split out of the unscoped buffers and put back at their final
    contents; the generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (U3 m)) c).loose
  hwaits := Pipeline.hwaits_of_owed_zero _ _ _ _ L lv 0 fun _ _ => rfl
  pre c := iprop(StableHlo.held (c : Thread nD τ) (Pipeline.ucRefs τ sig) (U3 m c) ∗ Rest c)
  post c := iprop(StableHlo.held (c : Thread nD τ) (Pipeline.ucRefs τ sig) (U4 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (U3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U3 m) c) (atTc (U4 m) c) ((pdats m 0 c).arrAt · cfg0.N) (fun w => (U4_arr m c w).symm)
      (fun b hb => U4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the fold's contents before it, left at the
    fold's contents after it. Its windows' arrays are split out of the unscoped buffers and put back at their final
    contents; the generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U5 m)) c).loose
  hwaits := Pipeline.hwaits_of_owed_zero _ _ _ _ L lv 1 fun _ _ => rfl
  pre c := iprop(StableHlo.held (c : Thread nD τ) (Pipeline.ucRefs τ sig) (U5 m c) ∗ Rest c)
  post c := iprop(StableHlo.held (c : Thread nD τ) (Pipeline.ucRefs τ sig) (U6 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (U5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U5 m) c) (atTc (U6 m) c) ((pdats m 1 c).arrAt · cfg1.N) (fun w => (U6_arr m c w).symm)
      (fun b hb => U6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the fold's contents before it, left at the
    fold's contents after it. Its windows' arrays are split out of the unscoped buffers and put back at their final
    contents; the generator register goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U6 m)) c).loose
  hwaits := Pipeline.hwaits_of_owed_zero _ _ _ _ L lv 2 fun _ _ => rfl
  pre c := iprop(StableHlo.held (c : Thread nD τ) (Pipeline.ucRefs τ sig) (U6 m c) ∗ Rest c)
  post c := iprop(StableHlo.held (c : Thread nD τ) (Pipeline.ucRefs τ sig) (U7 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (U6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U6 m) c) (atTc (U7 m) c) ((pdats m 2 c).arrAt · cfg2.N) (fun w => (U7_arr m c w).symm)
      (fun b hb => U7_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the fold's contents before it, left at the
    fold's contents after it. Its windows' arrays are split out of the unscoped buffers and put back at their final
    contents; the generator register goes into the region's invariant and comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U8 m)) c).loose
  hwaits := Pipeline.hwaits_of_owed_zero _ _ _ _ L lv 3 fun _ _ => rfl
  pre c := iprop(StableHlo.held (c : Thread nD τ) (Pipeline.ucRefs τ sig) (U8 m c) ∗ Rest c)
  post c := iprop(StableHlo.held (c : Thread nD τ) (Pipeline.ucRefs τ sig) (U9 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (U8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U8 m) c) (atTc (U9 m) c) ((pdats m 3 c).arrAt · cfg3.N) (fun w => (U9_arr m c w).symm)
      (fun b hb => U9_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the fold's contents before it, left at the
    fold's contents after it. Its windows' arrays are split out of the unscoped buffers and put back at their final
    contents; the generator register goes into the region's invariant and comes back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (U10 m)) c).loose
  hwaits := Pipeline.hwaits_of_owed_zero _ _ _ _ L lv 4 fun _ _ => rfl
  pre c := iprop(StableHlo.held (c : Thread nD τ) (Pipeline.ucRefs τ sig) (U10 m c) ∗ Rest c)
  post c := iprop(StableHlo.held (c : Thread nD τ) (Pipeline.ucRefs τ sig) (U11 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (U10 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (atTc (U10 m)) c).Φ 0 from rfl]
    iintro ⟨Hp, -, Hr⟩
    iapply (hin4 (atTc (U10 m)) c)
    unfold Pipeline.ΦA
    isplitl [Hr]; · iexact Hr
    iexact Hp
  hout c := by
    rw [Pipeline.ownSems0_none, show (pdats m 4 c).Φ (Fin.last _) = (dat4 (atTc (U10 m)) c).Φ (Fin.last cfg4.N) from rfl]
    iintro Hphi
    ihave H := (hout4 (atTc (U10 m)) c) $$ Hphi
    unfold Pipeline.ΦA
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U10 m) c) (atTc (U11 m) c) ((pdats m 4 c).arrAt · cfg4.N) (fun w => (U11_arr m c w).symm)
      (fun b hb => U11_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The main program's twelve items in order. -/
abbrev segs : List (Pipeline.Seg (pcfgs (F := F)) adm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .region (reg1 m),
    .region (reg2 m),
    .host (hseg hostOps3 hostOps3_sub hostOps3_fresh (U7 m)),
    .region (reg3 m),
    .host (hseg hostOps4 hostOps4_sub hostOps4_fresh (U9 m)),
    .region (reg4 m),
    .host (hseg hostOps5 hostOps5_sub hostOps5_fresh (U11 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of the main program from memory m with zero counters terminates, nothing
    faulting, and every final memory holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U12 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rest c))
    (Tₙ := fun c => iprop(StableHlo.held (c : Thread nD τ) (Pipeline.ucRefs τ sig) (U12 m c) ∗ ∃ r, prngReg c r))
    (hch := fun c => ⟨.rfl, .rfl, .rfl, .rfl, .rfl, .rfl, .rfl, .rfl, .rfl, .rfl, .rfl, .rfl, by
      show (iprop(StableHlo.held (c : Thread nD τ) (Pipeline.ucRefs τ sig) (U12 m c) ∗ Rest c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U12 m c b)
    (hfin := fun c s' => by
      iintro ⟨⟨Hh, -⟩, HSI⟩
      unfold StableHlo.held
      imodintro
      iapply (pointsTo_read_all (Pipeline.ucRefs τ sig) (fun b => (((c : Thread nD τ)).1, b)) (U12 m c) s')
      isplitl [Hh] <;> iassumption)
    (hQ := fun s h c => h c)

end Cert.Kernel.Hand

end
-- ==== Proof.BitsKeep.lean ====
/-
  The buffers no item of the main program writes end as launched: a host stretch changes only what its operations
  write, and a region changes only its output window's array (an input window's array is staged and never written
  back). In particular every argument array ends holding its launch contents.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import proofs.«431412_j35321811042312_1_alg».proof.Proof.BitsFold
import proofs.«431412_j35321811042312_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem U4_keep (c : Dev nD) (b : Ref sig .tc) (hb : b ≠ main_v34) : U4 m c b = U3 m c b := by
  by_cases h0 : b = main_arg0
  · subst h0; exact (U4_arr m c 0).trans (((dat0 (atTc (U3 m)) c).arrAt_in 0 rfl _).trans (A_eq0 _ c 0))
  by_cases h1 : b = main_arg4
  · subst h1; exact (U4_arr m c 1).trans (((dat0 (atTc (U3 m)) c).arrAt_in 1 rfl _).trans (A_eq0 _ c 1))
  refine U4_of_ne m c b (fun w => ?_)
  match w with
  | ⟨0, _⟩ => exact fun e => h0 e.symm
  | ⟨1, _⟩ => exact fun e => h1 e.symm
  | ⟨2, _⟩ => exact fun e => hb e.symm

theorem U6_keep (c : Dev nD) (b : Ref sig .tc) (hb : b ≠ main_v53) : U6 m c b = U5 m c b := by
  by_cases h0 : b = main_v47
  · subst h0; exact (U6_arr m c 0).trans (((dat1 (atTc (U5 m)) c).arrAt_in 0 rfl _).trans (A_eq1 _ c 0))
  by_cases h1 : b = main_v48
  · subst h1; exact (U6_arr m c 1).trans (((dat1 (atTc (U5 m)) c).arrAt_in 1 rfl _).trans (A_eq1 _ c 1))
  by_cases h2 : b = main_v49
  · subst h2; exact (U6_arr m c 2).trans (((dat1 (atTc (U5 m)) c).arrAt_in 2 rfl _).trans (A_eq1 _ c 2))
  by_cases h3 : b = main_v50
  · subst h3; exact (U6_arr m c 3).trans (((dat1 (atTc (U5 m)) c).arrAt_in 3 rfl _).trans (A_eq1 _ c 3))
  by_cases h4 : b = main_v51
  · subst h4; exact (U6_arr m c 4).trans (((dat1 (atTc (U5 m)) c).arrAt_in 4 rfl _).trans (A_eq1 _ c 4))
  by_cases h5 : b = main_v52
  · subst h5; exact (U6_arr m c 5).trans (((dat1 (atTc (U5 m)) c).arrAt_in 5 rfl _).trans (A_eq1 _ c 5))
  refine U6_of_ne m c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

theorem U7_keep (c : Dev nD) (b : Ref sig .tc) (hb : b ≠ main_v54) : U7 m c b = U6 m c b := by
  by_cases h0 : b = main_v53
  · subst h0; exact (U7_arr m c 0).trans (((dat2 (atTc (U6 m)) c).arrAt_in 0 rfl _).trans (A_eq2 _ c 0))
  by_cases h1 : b = main_arg6
  · subst h1; exact (U7_arr m c 1).trans (((dat2 (atTc (U6 m)) c).arrAt_in 1 rfl _).trans (A_eq2 _ c 1))
  refine U7_of_ne m c b (fun w => ?_)
  match w with
  | ⟨0, _⟩ => exact fun e => h0 e.symm
  | ⟨1, _⟩ => exact fun e => h1 e.symm
  | ⟨2, _⟩ => exact fun e => hb e.symm

theorem U9_keep (c : Dev nD) (b : Ref sig .tc) (hb : b ≠ main_v73) : U9 m c b = U8 m c b := by
  by_cases h0 : b = main_v67
  · subst h0; exact (U9_arr m c 0).trans (((dat3 (atTc (U8 m)) c).arrAt_in 0 rfl _).trans (A_eq3 _ c 0))
  by_cases h1 : b = main_v68
  · subst h1; exact (U9_arr m c 1).trans (((dat3 (atTc (U8 m)) c).arrAt_in 1 rfl _).trans (A_eq3 _ c 1))
  by_cases h2 : b = main_v69
  · subst h2; exact (U9_arr m c 2).trans (((dat3 (atTc (U8 m)) c).arrAt_in 2 rfl _).trans (A_eq3 _ c 2))
  by_cases h3 : b = main_v70
  · subst h3; exact (U9_arr m c 3).trans (((dat3 (atTc (U8 m)) c).arrAt_in 3 rfl _).trans (A_eq3 _ c 3))
  by_cases h4 : b = main_v71
  · subst h4; exact (U9_arr m c 4).trans (((dat3 (atTc (U8 m)) c).arrAt_in 4 rfl _).trans (A_eq3 _ c 4))
  by_cases h5 : b = main_v72
  · subst h5; exact (U9_arr m c 5).trans (((dat3 (atTc (U8 m)) c).arrAt_in 5 rfl _).trans (A_eq3 _ c 5))
  refine U9_of_ne m c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

theorem U11_keep (c : Dev nD) (b : Ref sig .tc) (hb : b ≠ main_v77) : U11 m c b = U10 m c b := by
  by_cases h0 : b = main_v73
  · subst h0; exact (U11_arr m c 0).trans (((dat4 (atTc (U10 m)) c).arrAt_in 0 rfl _).trans (A_eq4 _ c 0))
  by_cases h1 : b = main_v74
  · subst h1; exact (U11_arr m c 1).trans (((dat4 (atTc (U10 m)) c).arrAt_in 1 rfl _).trans (A_eq4 _ c 1))
  by_cases h2 : b = main_arg16
  · subst h2; exact (U11_arr m c 2).trans (((dat4 (atTc (U10 m)) c).arrAt_in 2 rfl _).trans (A_eq4 _ c 2))
  by_cases h3 : b = main_v75
  · subst h3; exact (U11_arr m c 3).trans (((dat4 (atTc (U10 m)) c).arrAt_in 3 rfl _).trans (A_eq4 _ c 3))
  by_cases h4 : b = main_arg18
  · subst h4; exact (U11_arr m c 4).trans (((dat4 (atTc (U10 m)) c).arrAt_in 4 rfl _).trans (A_eq4 _ c 4))
  by_cases h5 : b = main_v76
  · subst h5; exact (U11_arr m c 5).trans (((dat4 (atTc (U10 m)) c).arrAt_in 5 rfl _).trans (A_eq4 _ c 5))
  refine U11_of_ne m c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

/-- A buffer that no host stretch writes and that is no region's output array ends as launched. -/
theorem U12_keep (c : Dev nD) (b : Ref sig .tc) (h0 : b ∉ hostOps0_W) (h01 : b ∉ hostOps0_1_W) (h02 : b ∉ hostOps0_2_W)
    (h1 : b ∉ hostOps1_W) (h3 : b ∉ hostOps3_W) (h4 : b ∉ hostOps4_W) (h5 : b ∉ hostOps5_W)
    (n34 : b ≠ main_v34) (n53 : b ≠ main_v53) (n54 : b ≠ main_v54) (n73 : b ≠ main_v73) (n77 : b ≠ main_v77) :
    U12 m c b = m ((c : Thread nD τ).loc b) :=
  (StableHlo.after_of_writes_sub hostOps5 _ hostOps5_writes h5).trans <|
  (U11_keep m c b n77).trans <|
  (StableHlo.after_of_writes_sub hostOps4 _ hostOps4_writes h4).trans <|
  (U9_keep m c b n73).trans <|
  (StableHlo.after_of_writes_sub hostOps3 _ hostOps3_writes h3).trans <|
  (U7_keep m c b n54).trans <|
  (U6_keep m c b n53).trans <|
  (StableHlo.after_of_writes_sub hostOps1 _ hostOps1_writes h1).trans <|
  (U4_keep m c b n34).trans <|
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0)

theorem U12_main_arg0 (c : Dev nD) : U12 m c main_arg0 = m ((c : Thread nD τ).loc main_arg0) :=
  U12_keep m c main_arg0 (by decide) (by decide) (by decide) (by decide) (by decide) (by decide) (by decide) (by decide) (by decide) (by decide) (by decide) (by decide)
theorem U12_main_arg1 (c : Dev nD) : U12 m c main_arg1 = m ((c : Thread nD τ).loc main_arg1) :=
  U12_keep m c main_arg1 (by decide) (by decide) (by decide) (by decide) (by decide) (by decide) (by decide) (by decide) (by decide) (by decide) (by decide) (by decide)
theorem U12_main_arg2 (c : Dev nD) : U12 m c main_arg2 = m ((c : Thread nD τ).loc main_arg2) :=
  U12_keep m c main_arg2 (by decide) (by decide) (by decide) (by decide) (by decide) (by decide) (by decide) (by decide) (by decide) (by decide) (by decide) (by decide)
theorem U12_main_arg3 (c : Dev nD) : U12 m c main_arg3 = m ((c : Thread nD τ).loc main_arg3) :=
  U12_keep m c main_arg3 (by decide) (by decide) (by decide) (by decide) (by decide) (by decide) (by decide) (by decide) (by decide) (by decide) (by decide) (by decide)
theorem U12_main_arg4 (c : Dev nD) : U12 m c main_arg4 = m ((c : Thread nD τ).loc main_arg4) :=
  U12_keep m c main_arg4 (by decide) (by decide) (by decide) (by decide) (by decide) (by decide) (by decide) (by decide) (by decide) (by decide) (by decide) (by decide)
theorem U12_main_arg5 (c : Dev nD) : U12 m c main_arg5 = m ((c : Thread nD τ).loc main_arg5) :=
  U12_keep m c main_arg5 (by decide) (by decide) (by decide) (by decide) (by decide) (by decide) (by decide) (by decide) (by decide) (by decide) (by decide) (by decide)
theorem U12_main_arg6 (c : Dev nD) : U12 m c main_arg6 = m ((c : Thread nD τ).loc main_arg6) :=
  U12_keep m c main_arg6 (by decide) (by decide) (by decide) (by decide) (by decide) (by decide) (by decide) (by decide) (by decide) (by decide) (by decide) (by decide)
theorem U12_main_arg7 (c : Dev nD) : U12 m c main_arg7 = m ((c : Thread nD τ).loc main_arg7) :=
  U12_keep m c main_arg7 (by decide) (by decide) (by decide) (by decide) (by decide) (by decide) (by decide) (by decide) (by decide) (by decide) (by decide) (by decide)
theorem U12_main_arg8 (c : Dev nD) : U12 m c main_arg8 = m ((c : Thread nD τ).loc main_arg8) :=
  U12_keep m c main_arg8 (by decide) (by decide) (by decide) (by decide) (by decide) (by decide) (by decide) (by decide) (by decide) (by decide) (by decide) (by decide)
theorem U12_main_arg9 (c : Dev nD) : U12 m c main_arg9 = m ((c : Thread nD τ).loc main_arg9) :=
  U12_keep m c main_arg9 (by decide) (by decide) (by decide) (by decide) (by decide) (by decide) (by decide) (by decide) (by decide) (by decide) (by decide) (by decide)
theorem U12_main_arg10 (c : Dev nD) : U12 m c main_arg10 = m ((c : Thread nD τ).loc main_arg10) :=
  U12_keep m c main_arg10 (by decide) (by decide) (by decide) (by decide) (by decide) (by decide) (by decide) (by decide) (by decide) (by decide) (by decide) (by decide)
theorem U12_main_arg11 (c : Dev nD) : U12 m c main_arg11 = m ((c : Thread nD τ).loc main_arg11) :=
  U12_keep m c main_arg11 (by decide) (by decide) (by decide) (by decide) (by decide) (by decide) (by decide) (by decide) (by decide) (by decide) (by decide) (by decide)
theorem U12_main_arg12 (c : Dev nD) : U12 m c main_arg12 = m ((c : Thread nD τ).loc main_arg12) :=
  U12_keep m c main_arg12 (by decide) (by decide) (by decide) (by decide) (by decide) (by decide) (by decide) (by decide) (by decide) (by decide) (by decide) (by decide)
theorem U12_main_arg13 (c : Dev nD) : U12 m c main_arg13 = m ((c : Thread nD τ).loc main_arg13) :=
  U12_keep m c main_arg13 (by decide) (by decide) (by decide) (by decide) (by decide) (by decide) (by decide) (by decide) (by decide) (by decide) (by decide) (by decide)
theorem U12_main_arg14 (c : Dev nD) : U12 m c main_arg14 = m ((c : Thread nD τ).loc main_arg14) :=
  U12_keep m c main_arg14 (by decide) (by decide) (by decide) (by decide) (by decide) (by decide) (by decide) (by decide) (by decide) (by decide) (by decide) (by decide)
theorem U12_main_arg15 (c : Dev nD) : U12 m c main_arg15 = m ((c : Thread nD τ).loc main_arg15) :=
  U12_keep m c main_arg15 (by decide) (by decide) (by decide) (by decide) (by decide) (by decide) (by decide) (by decide) (by decide) (by decide) (by decide) (by decide)
theorem U12_main_arg16 (c : Dev nD) : U12 m c main_arg16 = m ((c : Thread nD τ).loc main_arg16) :=
  U12_keep m c main_arg16 (by decide) (by decide) (by decide) (by decide) (by decide) (by decide) (by decide) (by decide) (by decide) (by decide) (by decide) (by decide)
theorem U12_main_arg17 (c : Dev nD) : U12 m c main_arg17 = m ((c : Thread nD τ).loc main_arg17) :=
  U12_keep m c main_arg17 (by decide) (by decide) (by decide) (by decide) (by decide) (by decide) (by decide) (by decide) (by decide) (by decide) (by decide) (by decide)
theorem U12_main_arg18 (c : Dev nD) : U12 m c main_arg18 = m ((c : Thread nD τ).loc main_arg18) :=
  U12_keep m c main_arg18 (by decide) (by decide) (by decide) (by decide) (by decide) (by decide) (by decide) (by decide) (by decide) (by decide) (by decide) (by decide)
theorem U12_main_arg19 (c : Dev nD) : U12 m c main_arg19 = m ((c : Thread nD τ).loc main_arg19) :=
  U12_keep m c main_arg19 (by decide) (by decide) (by decide) (by decide) (by decide) (by decide) (by decide) (by decide) (by decide) (by decide) (by decide) (by decide)

end Cert.Kernel.Hand

end
-- ==== Proof.BitsPost.lean ====
/-
  The run's posts the claims ask for: the result buffer at the fold's last contents beside the twenty argument arrays
  as launched, and the frame alone.
-/
import proofs.«431412_j35321811042312_1_alg».proof.Proof.Gen.Kernel.Launch
import proofs.«431412_j35321811042312_1_alg».proof.Proof.Gen.Kernel.Skeleton
import proofs.«431412_j35321811042312_1_alg».proof.Proof.Gen.Kernel.Points
import proofs.«431412_j35321811042312_1_alg».proof.Proof.BitsRun
import proofs.«431412_j35321811042312_1_alg».proof.Proof.BitsKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faulting; the result buffer ends at the fold's last contents
    and every argument array as launched. -/
theorem run_post : θ_run defs (onTc (τ := τ) (main (F := F))) ⟨m, fun _ => 0, ρ⟩ (fun r => ∀ c : Dev nD,
      r.2.mem ((c.tc : Thread nD τ).loc main_v78) = U12 m c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v78 (by decide)),
      (h c _ (mem_uc main_arg0 (by decide))).trans (U12_main_arg0 m c),
      (h c _ (mem_uc main_arg1 (by decide))).trans (U12_main_arg1 m c),
      (h c _ (mem_uc main_arg2 (by decide))).trans (U12_main_arg2 m c),
      (h c _ (mem_uc main_arg3 (by decide))).trans (U12_main_arg3 m c),
      (h c _ (mem_uc main_arg4 (by decide))).trans (U12_main_arg4 m c),
      (h c _ (mem_uc main_arg5 (by decide))).trans (U12_main_arg5 m c),
      (h c _ (mem_uc main_arg6 (by decide))).trans (U12_main_arg6 m c),
      (h c _ (mem_uc main_arg7 (by decide))).trans (U12_main_arg7 m c),
      (h c _ (mem_uc main_arg8 (by decide))).trans (U12_main_arg8 m c),
      (h c _ (mem_uc main_arg9 (by decide))).trans (U12_main_arg9 m c),
      (h c _ (mem_uc main_arg10 (by decide))).trans (U12_main_arg10 m c),
      (h c _ (mem_uc main_arg11 (by decide))).trans (U12_main_arg11 m c),
      (h c _ (mem_uc main_arg12 (by decide))).trans (U12_main_arg12 m c),
      (h c _ (mem_uc main_arg13 (by decide))).trans (U12_main_arg13 m c),
      (h c _ (mem_uc main_arg14 (by decide))).trans (U12_main_arg14 m c),
      (h c _ (mem_uc main_arg15 (by decide))).trans (U12_main_arg15 m c),
      (h c _ (mem_uc main_arg16 (by decide))).trans (U12_main_arg16 m c),
      (h c _ (mem_uc main_arg17 (by decide))).trans (U12_main_arg17 m c),
      (h c _ (mem_uc main_arg18 (by decide))).trans (U12_main_arg18 m c),
      (h c _ (mem_uc main_arg19 (by decide))).trans (U12_main_arg19 m c)⟩)
    (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_post m ρ)

end Cert.Kernel.Hand

end
-- ==== Proof.IdealR0.lean ====
/-
  The first projection, rows of x times W1, tile by tile: for any contents V of the TensorCore's buffers when the
  region is entered, each of the ten grid points loads its 5000 rows of the left operand and the whole right operand,
  multiplies them into a zero accumulator and stores the 5000 x 64 product over the output block. The proof data
  below name what every window's staging buffer holds after the body at a point, and the body's run is checked
  against them.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of the 5000 x 64 output block. -/
abbrev rOut0 : Rect S5000x64 := Rect.unit (s := S5000x64) ![0, 0] S5000x64.size inb_S5000x64_S5000x64_0_0
abbrev rX0 : Rect S5000x5 := Rect.unit (s := S5000x5) ![0, 0] S5000x5.size inb_S5000x5_S5000x5_0_0
abbrev rW0 : Rect S5x64 := Rect.unit (s := S5x64) ![0, 0] S5x64.size inb_S5x64_S5x64_0_0

/-- What the body leaves in the output block: its one store, the product of the loaded blocks. -/
def out0_2 (x0 : Vec F S5000x5 .f32) (x1 : Vec F S5x64 .f32) : Vec F S5000x64 .f32 :=
  View.canon [⟨rOut0, k0_pay1 (View.ld x0 rX0) (View.ld x1 rW0)⟩]

theorem cover0_2 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

set_option maxHeartbeats 1000000 in
/-- The body on whole staging memrefs: inputs kept, the output block at the product. -/
theorem sound_kernel0 (c : Dev nD) (E : Set ℕ) (i : grid0.Coords)
    (arg1 : Memref sig .tc .vmem S5000x5 .f32) (harg1 : arg1.IsWhole) (arg2 : Memref sig .tc .vmem S5x64 .f32) (harg2 : arg2.IsWhole)
    (arg3 : Memref sig .tc .vmem S5000x64 .f32) (harg3 : arg3.IsWhole)
    (x0 : Vec F S5000x5 .f32) (x1 : Vec F S5x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first projection's pipeline on core c: arrays as the region finds them; after the body each
    input buffer at its block and the output buffer at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealR1.lean ====
/-
  The first bias-add, batch-norm and rectifier, tile by tile: each of the ten grid points loads its 5000 rows of the
  aggregated features and the five 1 x 64 parameter rows (bias, scale, shift, mean, variance), computes
  max(((a + bias) - mean) * rsqrt(variance + eps) * scale + shift, 0) row by row and stores the 5000 x 64 result over the
  output block.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rOut1 : Rect S5000x64 := Rect.unit (s := S5000x64) ![0, 0] S5000x64.size inb_S5000x64_S5000x64_0_0
abbrev rP1 : Rect S1x64 := Rect.unit (s := S1x64) ![0, 0] S1x64.size inb_S1x64_S1x64_0_0

/-- What the body leaves in the output block: its one store, the normalised and rectified rows. The parameter rows
    come in window order: bias, scale, shift, mean, variance. -/
def out1_6 (x0 : Vec F S5000x64 .f32) (x1 x2 x3 x4 x5 : Vec F S1x64 .f32) : Vec F S5000x64 .f32 :=
  View.canon [⟨rOut1, k1_pay1 (View.ld x0 rOut1) (View.ld x1 rP1) (View.ld x4 rP1) (View.ld x5 rP1) (View.ld x2 rP1) (View.ld x3 rP1)⟩]

theorem cover1_6 (p0 : Vec F S5000x64 .f32) (y : S5000x64.Idx) :
    ∃ pc ∈ ([⟨rOut1, p0⟩] : List (View.Piece (Elt F) S5000x64 .f32)), y ∈ pc.1.set :=
  View.cover_of_tiled [⟨rOut1, p0⟩] S5000x64.size (by rfl) y

set_option maxHeartbeats 1000000 in
/-- The body on whole staging memrefs: inputs kept, the output block at the normalised rows. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__bn_relu_kernel i arg1 harg1 arg2 harg2 arg3 harg3 arg4 harg4 arg5 harg5 arg6 harg6 arg7 harg7) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of this pipeline on core c: arrays as the region finds them; after the body each input buffer at
    its block and the output buffer at the normalised rows of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealR2.lean ====
/-
  The second projection, rows of the hidden features times W2, tile by tile: for any contents V of the TensorCore's buffers when the
  region is entered, each of the ten grid points loads its 5000 rows of the left operand (64 columns) and the whole right operand,
  multiplies them into a zero accumulator and stores the 5000 x 64 product over the output block. The proof data
  below name what every window's staging buffer holds after the body at a point, and the body's run is checked
  against them.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangle of the 5000 x 64 output block. -/
abbrev rOut2 : Rect S5000x64 := Rect.unit (s := S5000x64) ![0, 0] S5000x64.size inb_S5000x64_S5000x64_0_0
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0

/-- What the body leaves in the output block: its one store, the product of the loaded blocks. -/
def out2_2 (x0 : Vec F S5000x64 .f32) (x1 : Vec F S64x64 .f32) : Vec F S5000x64 .f32 :=
  View.canon [⟨rOut2, k2_pay1 (View.ld x0 rX2) (View.ld x1 rW2)⟩]

theorem cover2_2 (p0 : Vec F S5000x64 .f32) (y : S5000x64.Idx) :
    ∃ pc ∈ ([⟨rOut2, p0⟩] : List (View.Piece (Elt F) S5000x64 .f32)), y ∈ pc.1.set :=
  View.cover_of_tiled [⟨rOut2, p0⟩] S5000x64.size (by rfl) y

set_option maxHeartbeats 1000000 in
/-- The body on whole staging memrefs: inputs kept, the output block at the product. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The proof data of the second projection's pipeline on core c: arrays as the region finds them; after the body each
    input buffer at its block and the output buffer at the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealR3.lean ====
/-
  The second bias-add, batch-norm and rectifier, tile by tile: each of the ten grid points loads its 5000 rows of the
  aggregated features and the five 1 x 64 parameter rows (bias, scale, shift, mean, variance), computes
  max(((a + bias) - mean) * rsqrt(variance + eps) * scale + shift, 0) row by row and stores the 5000 x 64 result over the
  output block.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rOut3 : Rect S5000x64 := Rect.unit (s := S5000x64) ![0, 0] S5000x64.size inb_S5000x64_S5000x64_0_0
abbrev rP3 : Rect S1x64 := Rect.unit (s := S1x64) ![0, 0] S1x64.size inb_S1x64_S1x64_0_0

/-- What the body leaves in the output block: its one store, the normalised and rectified rows. The parameter rows
    come in window order: bias, scale, shift, mean, variance. -/
def out3_6 (x0 : Vec F S5000x64 .f32) (x1 x2 x3 x4 x5 : Vec F S1x64 .f32) : Vec F S5000x64 .f32 :=
  View.canon [⟨rOut3, k3_pay1 (View.ld x0 rOut3) (View.ld x1 rP3) (View.ld x4 rP3) (View.ld x5 rP3) (View.ld x2 rP3) (View.ld x3 rP3)⟩]

theorem cover3_6 (p0 : Vec F S5000x64 .f32) (y : S5000x64.Idx) :
    ∃ pc ∈ ([⟨rOut3, p0⟩] : List (View.Piece (Elt F) S5000x64 .f32)), y ∈ pc.1.set :=
  View.cover_of_tiled [⟨rOut3, p0⟩] S5000x64.size (by rfl) y

set_option maxHeartbeats 1000000 in
/-- The body on whole staging memrefs: inputs kept, the output block at the normalised rows. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__bn_relu_kernel i arg1 harg1 arg2 harg2 arg3 harg3 arg4 harg4 arg5 harg5 arg6 harg6 arg7 harg7) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- Each input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The proof data of this pipeline on core c: arrays as the region finds them; after the body each input buffer at
    its block and the output buffer at the normalised rows of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealR4.lean ====
/-
  The pooling region: ten grid points of 5000 rows each. Two scratch buffers are carried from point to point: a
  128 x 64 table of per-graph row sums and a 128 x 1 table of per-graph row counts. The first point clears them;
  every point adds its tile's contribution (the one-hot matrix of the tile's graph ids, transposed, times the tile's
  rows; and the one-hot matrix's column sums); the last point divides sums by counts (at least one), applies the
  two-layer head and stores the 128 x 1 result block, which is written back once, after the last point.
  The proof data name what the scratch buffers hold after each point as a recursion over the points.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile's rows, its graph ids, and the head's parameters as the point's staging buffers hold them, at their literal types. -/
abbrev hblk4 (c : Dev nD) (t : Fin cfg4.N) : Vec F S5000x64 .f32 := iblk4 V c 0 t
abbrev bblk4 (c : Dev nD) (t : Fin cfg4.N) : Vec F S5000x1 .i32 := iblk4 V c 1 t
abbrev w1blk4 (c : Dev nD) (t : Fin cfg4.N) : Vec F S64x32 .f32 := iblk4 V c 2 t
abbrev b1blk4 (c : Dev nD) (t : Fin cfg4.N) : Vec F S1x32 .f32 := iblk4 V c 3 t
abbrev w2blk4 (c : Dev nD) (t : Fin cfg4.N) : Vec F S32x1 .f32 := iblk4 V c 4 t
abbrev b2blk4 (c : Dev nD) (t : Fin cfg4.N) : Vec F S1x1 .f32 := iblk4 V c 5 t

abbrev rS4 : Rect S128x64 := Rect.unit (s := S128x64) ![0, 0] S128x64.size inb_S128x64_S128x64_0_0
abbrev rC4 : Rect S128x1 := Rect.unit (s := S128x1) ![0, 0] S128x1.size inb_S128x1_S128x1_0_0
abbrev rH4 : Rect S5000x64 := Rect.unit (s := S5000x64) ![0, 0] S5000x64.size inb_S5000x64_S5000x64_0_0
abbrev rB4 : Rect S5000x1 := Rect.unit (s := S5000x1) ![0, 0] S5000x1.size inb_S5000x1_S5000x1_0_0
abbrev rW14 : Rect S64x32 := Rect.unit (s := S64x32) ![0, 0] S64x32.size inb_S64x32_S64x32_0_0
abbrev rB14 : Rect S1x32 := Rect.unit (s := S1x32) ![0, 0] S1x32.size inb_S1x32_S1x32_0_0
abbrev rW24 : Rect S32x1 := Rect.unit (s := S32x1) ![0, 0] S32x1.size inb_S32x1_S32x1_0_0
abbrev rB24 : Rect S1x1 := Rect.unit (s := S1x1) ![0, 0] S1x1.size inb_S1x1_S1x1_0_0

/-- One point's update of the sums table: the tile's contribution added to what the table held. -/
def stepS4 (hb : Vec F S5000x64 .f32) (bb : Vec F S5000x1 .i32) (s : Vec F S128x64 .f32) : Vec F S128x64 .f32 :=
  k4_pay4 (View.ld hb rH4) (View.ld bb rB4) s
/-- One point's update of the counts table. -/
def stepC4 (bb : Vec F S5000x1 .i32) (n : Vec F S128x1 .f32) : Vec F S128x1 .f32 :=
  k4_pay5 (View.ld bb rB4) n

/-- The two tables after the body at point n: cleared before the first point's update, carried afterwards. -/
def accAt4 (c : Dev nD) : (n : ℕ) → n < cfg4.N → Vec F S128x64 .f32 × Vec F S128x1 .f32
  | 0, h => (stepS4 (hblk4 V c ⟨0, h⟩) (bblk4 V c ⟨0, h⟩) (k4_pay1 (F := F)), stepC4 (bblk4 V c ⟨0, h⟩) (k4_pay2 (F := F)))
  | n + 1, h => (stepS4 (hblk4 V c ⟨n + 1, h⟩) (bblk4 V c ⟨n + 1, h⟩) (accAt4 c n (Nat.lt_of_succ_lt h)).1,
                 stepC4 (bblk4 V c ⟨n + 1, h⟩) (accAt4 c n (Nat.lt_of_succ_lt h)).2)

/-- What the last point stores into the result block: the head applied to sums over counts. -/
def out4_6 (c : Dev nD) (t : Fin cfg4.N) : Vec F S128x1 .f32 :=
  k4_pay6 (accAt4 V c t.val t.isLt).1 (accAt4 V c t.val t.isLt).2
    (View.ld (w1blk4 V c t) rW14) (View.ld (b1blk4 V c t) rB14) (View.ld (w2blk4 V c t) rW24) (View.ld (b2blk4 V c t) rB24)

/-- The region's invariant before point n: before the first point the class's own (scoped buffers at anything, the
    generator register at some state); afterwards the two scratch tables at their named contents beside the other scoped
    buffers and the register. -/
def Phi4 (c : Dev nD) : (n : ℕ) → n ≤ cfg4.N → sProp 𝕄
  | 0, _ => Pipeline.ΦA spec4 c
  | n + 1, h => iprop((owns (c : Thread nD τ) (Memref.whole cc4_scratch0) fullShare (accAt4 V c n h).1
      ∗ owns (c : Thread nD τ) (Memref.whole cc4_scratch1) fullShare (accAt4 V c n h).2)
      ∗ Pipeline.scopedRestBut (Ix := Unit) (Name := ℕ) (U := UR sig nD τ) (Lvl := ℕ) (Val := Elt F) spec4 c [cc4_scratch0, cc4_scratch1]
      ∗ ∃ r, prngReg c r)

/-- The proof data of the pooling pipeline on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 V c t := by dsimp only [dat4]

/-- The first conditional of the body (clear the tables), as the body computes it from the grid coordinate. -/
abbrev cond4_1 (i : grid4.Coords) : Prop :=
  (Scalar.cmpi .ne (Scalar.extui (Scalar.cmpi .eq (BitVec.ofNat 32 (i 0).val) 0#32)) 0#32) = 1#1

/-- It holds at the first point only; the second conditional (finalize) at the last point only. -/
theorem hcond4_1 : ∀ t : Fin cfg4.N, cond4_1 (grid4.coords t) ↔ t.val = 0 :=
  (by decide +kernel : ∀ t : Fin grid4.N, cond4_1 (grid4.coords t) ↔ t.val = 0)
theorem hcond4_2 : ∀ t : Fin cfg4.N, k4_cond2 (grid4.coords t) = 1#1 ↔ t.val = 9 :=
  (by decide +kernel : ∀ t : Fin grid4.N, k4_cond2 (grid4.coords t) = 1#1 ↔ t.val = 9)

/-- The zero offsets of a whole-buffer rectangle of rank two. -/
theorem hz4 : (![0, 0] : Fin 2 → Nat) = fun _ => 0 := by
  funext a; fin_cases a <;> rfl

/-- A whole-buffer store made last leaves its payload, whatever was stored before and whatever the buffer held. -/
theorem read_writes_whole_last {S : Shape} {e : EltTy} {sp : Space} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero hz inb y⟩),
    View.canon_cons_unit_zero hz]

/-- A whole-buffer load after such a store reads the payload. -/
theorem readCov_whole_last {S : Shape} {e : EltTy} {sp : Space} (v : View sig .tc sp S e)
    {off : Fin S.rank → Nat} (hz : off = fun _ => 0) (inb : ∀ a, off a + S.size a ≤ S.size a)
    (w : S.Idx → Elt F e) (L : List (View.Piece (Elt F) S e)) :
    v.readCov (⟨Rect.unit off S.size inb, w⟩ :: L) (Rect.unit off S.size inb).toLoadRect = w := by
  rw [View.readCov_eq_canon_ld v _ _ (fun y => ⟨_, List.mem_cons_self, View.mem_set_unit_zero hz inb y⟩),
    View.canon_cons_unit_zero hz, View.ld_unit_zero hz]

/-- A whole-buffer load reads the contents. -/
theorem readAt_whole {S : Shape} {e : EltTy} {sp : Space} (v : View sig .tc sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  View.ld_unit_zero hz inb _

set_option maxHeartbeats 1000000 in
/-- The body at the first point, on whole memrefs: the tables, at anything, are cleared and then updated with the tile's
    contribution; nothing is stored into the result block; the tile's rows and graph ids are kept. -/
theorem kernel4_first (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S128x1 .f32) (harg7 : arg7.IsWhole) (arg8 : Memref sig .tc .vmem S128x64 .f32) (harg8 : arg8.IsWhole)
    (arg9 : Memref sig .tc .vmem S128x1 .f32) (harg9 : arg9.IsWhole)
    (hc1 : cond4_1 i) (hc2 : ¬k4_cond2 i = 1#1)
    (x0 : Vec F S5000x64 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg8 fullShare (stepS4 x0 x1 (k4_pay1 (F := F)))
            ∗ owns (c : Thread nD τ) arg9 fullShare (stepC4 x1 (k4_pay2 (F := F)))) -∗ K ⟨⟩))
      ⊢ wp frame (wpE (defs₀ (F := F)) Variants.none c none) E
          (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%d7, %f7, -, H7⟩, ⟨%d8, %f8, -, H8⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H7]
  · iexists _; isplitr
    swap; · iexact H7
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  iexists _; isplitr
  swap; · iexact H8
  ipureintro
  sl_unfold_run_names
  simp only [read_writes_whole_last (S := S128x64) _ _ hz4, read_writes_whole_last (S := S128x1) _ _ hz4,
    readCov_whole_last (S := S128x64) _ hz4, readCov_whole_last (S := S128x1) _ hz4,
    readAt_whole (S := S128x64) _ _ hz4, readAt_whole (S := S128x1) _ _ hz4]
  rfl

set_option maxHeartbeats 1000000 in
/-- The body at a point that is neither the first nor the last: the tables, at s and n, are updated with the tile's
    contribution; nothing else is stored. -/
theorem kernel4_mid (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S128x1 .f32) (harg7 : arg7.IsWhole) (arg8 : Memref sig .tc .vmem S128x64 .f32) (harg8 : arg8.IsWhole)
    (arg9 : Memref sig .tc .vmem S128x1 .f32) (harg9 : arg9.IsWhole)
    (hc1 : ¬cond4_1 i) (hc2 : ¬k4_cond2 i = 1#1)
    (x0 : Vec F S5000x64 .f32) (x1 : Vec F S5000x1 .i32) (s : Vec F S128x64 .f32) (n : Vec F S128x1 .f32) (K : PUnit → sProp 𝕄) :
    iprop(owns (c : Thread nD τ) arg1 fullShare x0 ∗ owns (c : Thread nD τ) arg2 fullShare x1
        ∗ owns (c : Thread nD τ) arg8 fullShare s ∗ owns (c : Thread nD τ) arg9 fullShare n
        ∗ (iprop(owns (c : Thread nD τ) arg1 fullShare x0 ∗ owns (c : Thread nD τ) arg2 fullShare x1
            ∗ owns (c : Thread nD τ) arg8 fullShare (stepS4 x0 x1 s) ∗ owns (c : Thread nD τ) arg9 fullShare (stepC4 x1 n)) -∗ K ⟨⟩))
      ⊢ wp frame (wpE (defs₀ (F := F)) Variants.none c none) E
          (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f7, %hf7, H7⟩, ⟨%f8, %hf8, H8⟩, Hk⟩
  subst hf0; subst hf1; subst hf7; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H7]
  · iexists _; isplitr
    swap; · iexact H7
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  iexists _; isplitr
  swap; · iexact H8
  ipureintro
  sl_unfold_run_names
  simp only [read_writes_whole_last (S := S128x64) _ _ hz4, read_writes_whole_last (S := S128x1) _ _ hz4,
    readCov_whole_last (S := S128x64) _ hz4, readCov_whole_last (S := S128x1) _ hz4,
    readAt_whole (S := S128x64) _ _ hz4, readAt_whole (S := S128x1) _ _ hz4]
  rfl

set_option maxHeartbeats 1000000 in
/-- The body at the last point: the tables are updated as at any later point, and the result block, at anything, is stored
    at the head applied to the updated sums over the updated counts; the head's parameters are kept. -/
theorem kernel4_last (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S128x1 .f32) (harg7 : arg7.IsWhole) (arg8 : Memref sig .tc .vmem S128x64 .f32) (harg8 : arg8.IsWhole)
    (arg9 : Memref sig .tc .vmem S128x1 .f32) (harg9 : arg9.IsWhole)
    (hc1 : ¬cond4_1 i) (hc2 : k4_cond2 i = 1#1)
    (x0 : Vec F S5000x64 .f32) (x1 : Vec F S5000x1 .i32) (x2 : Vec F S64x32 .f32) (x3 : Vec F S1x32 .f32)
    (x4 : Vec F S32x1 .f32) (x5 : Vec F S1x1 .f32) (s : Vec F S128x64 .f32) (n : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare s ∗ owns (c : Thread nD τ) arg9 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k4_pay6 (stepS4 x0 x1 s) (stepC4 x1 n) (View.ld x2 rW14) (View.ld x3 rB14) (View.ld x4 rW24) (View.ld x5 rB24))
            ∗ owns (c : Thread nD τ) arg8 fullShare (stepS4 x0 x1 s) ∗ owns (c : Thread nD τ) arg9 fullShare (stepC4 x1 n)) -∗ K ⟨⟩))
      ⊢ wp frame (wpE (defs₀ (F := F)) Variants.none c none) E
          (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0; subst hf1; subst hf2; subst hf3; subst hf4; subst hf5; subst hf7; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  isplitl [H7]
  · iexists _; isplitr
    swap; · iexact H7
    ipureintro
    sl_unfold_run_names
    simp only [read_writes_whole_last (S := S128x64) _ _ hz4, read_writes_whole_last (S := S128x1) _ _ hz4,
      readCov_whole_last (S := S128x64) _ hz4, readCov_whole_last (S := S128x1) _ hz4,
      readAt_whole (S := S128x64) _ _ hz4, readAt_whole (S := S128x1) _ _ hz4]
    rfl
  iexists _; isplitr
  swap; · iexact H8
  ipureintro
  sl_unfold_run_names
  simp only [read_writes_whole_last (S := S128x64) _ _ hz4, read_writes_whole_last (S := S128x1) _ _ hz4,
    readCov_whole_last (S := S128x64) _ hz4, readCov_whole_last (S := S128x1) _ hz4,
    readAt_whole (S := S128x64) _ _ hz4, readAt_whole (S := S128x1) _ _ hz4]
  rfl

/-! ## Where the result window is idle -/

theorem liveAt4_6 : ∀ t : Fin cfg4.N, k4_cond2 (grid4.coords t) = 1#1 → cfg4.idle 6 (grid4.coords t) = false :=
  (by decide +kernel : ∀ t : Fin grid4.N, k4_cond2 (grid4.coords t) = 1#1 → cfg4.idle 6 (grid4.coords t) = false)
theorem idleAt4_6 : ∀ t : Fin cfg4.N, ¬k4_cond2 (grid4.coords t) = 1#1 → cfg4.idle 6 (grid4.coords t) = true :=
  (by decide +kernel : ∀ t : Fin grid4.N, ¬k4_cond2 (grid4.coords t) = 1#1 → cfg4.idle 6 (grid4.coords t) = true)
/-- The result block is written back after the last point only. -/
theorem noFlush4_6 (t : Fin cfg4.N) (h : t.val ≠ 9) : (cfg4.win 6).flush t = false := by
  have hN : t.val < 10 := lt_of_lt_of_eq t.isLt (show cfg4.N = 10 from N_4)
  cases hf : (cfg4.win 6).flush t with
  | false => rfl
  | true => exact absurd (by have := (flush4_6 t).mp hf; omega) h

/-! ## The recursion of the tables, at a point -/

theorem accAt4_zero_fst (c : Dev nD) (t : Fin cfg4.N) (h0 : t.val = 0) :
    (accAt4 V c t.val t.isLt).1 = stepS4 (hblk4 V c t) (bblk4 V c t) (k4_pay1 (F := F)) := by
  obtain ⟨n, hn⟩ := t
  cases n with
  | zero => rfl
  | succ n => exact absurd h0 (Nat.succ_ne_zero n)
theorem accAt4_zero_snd (c : Dev nD) (t : Fin cfg4.N) (h0 : t.val = 0) :
    (accAt4 V c t.val t.isLt).2 = stepC4 (bblk4 V c t) (k4_pay2 (F := F)) := by
  obtain ⟨n, hn⟩ := t
  cases n with
  | zero => rfl
  | succ n => exact absurd h0 (Nat.succ_ne_zero n)
theorem accAt4_pos_fst (c : Dev nD) (t : Fin cfg4.N) (h0 : t.val ≠ 0) :
    (accAt4 V c t.val t.isLt).1
      = stepS4 (hblk4 V c t) (bblk4 V c t) (accAt4 V c (t.val - 1) (Nat.lt_of_le_of_lt (Nat.sub_le _ _) t.isLt)).1 := by
  obtain ⟨n, hn⟩ := t
  cases n with
  | zero => exact absurd rfl h0
  | succ n => rfl
theorem accAt4_pos_snd (c : Dev nD) (t : Fin cfg4.N) (h0 : t.val ≠ 0) :
    (accAt4 V c t.val t.isLt).2
      = stepC4 (bblk4 V c t) (accAt4 V c (t.val - 1) (Nat.lt_of_le_of_lt (Nat.sub_le _ _) t.isLt)).2 := by
  obtain ⟨n, hn⟩ := t
  cases n with
  | zero => exact absurd rfl h0
  | succ n => rfl

/-! ## The invariant, by the point -/

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop((owns (c : Thread nD τ) (Memref.whole cc4_scratch0) fullShare (accAt4 V c n hn).1
      ∗ owns (c : Thread nD τ) (Memref.whole cc4_scratch1) fullShare (accAt4 V c n hn).2)
      ∗ Pipeline.scopedRestBut (Ix := Unit) (Name := ℕ) (U := UR sig nD τ) (Lvl := ℕ) (Val := Elt F) spec4 c [cc4_scratch0, cc4_scratch1]
      ∗ ∃ r, prngReg c r) := rfl

theorem Phi4_pos (c : Dev nD) (n : ℕ) (h : n ≤ cfg4.N) (hz : n ≠ 0) :
    Phi4 V c n h = iprop((owns (c : Thread nD τ) (Memref.whole cc4_scratch0) fullShare (accAt4 V c (n - 1) (by omega)).1
      ∗ owns (c : Thread nD τ) (Memref.whole cc4_scratch1) fullShare (accAt4 V c (n - 1) (by omega)).2)
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl hz
  | succ n => rfl

/-- The class's own invariant with the two tables named: each whole at some contents, beside the other scoped buffers
    and the generator register. -/
theorem PhiA4_eq (c : Dev nD) :
    (Pipeline.ΦA spec4 c : sProp 𝕄)
      = iprop((((∃ d, owns (c : Thread nD τ) (Memref.whole cc4_scratch0) fullShare d)
            ∗ (∃ d, owns (c : Thread nD τ) (Memref.whole cc4_scratch1) fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [owns_whole]; try rfl

theorem Phi4_castSucc (c : Dev nD) (t : Fin cfg4.N) :
    (dat4 V c).Φ t.castSucc = Phi4 V c t.val (Nat.le_of_lt t.isLt) := by
  dsimp only [dat4]; simp only [Fin.coe_castSucc]

/-! ## The input windows -/

/-- Each input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- An input window is never idle: the body leaves its block in place. -/
theorem leaves4_0 (c : Dev nD) (t : Fin cfg4.N) :
    (dat4 V c).leavesExact 0 t = owns (c : Thread nD τ) (st4_0 t) fullShare (iblk4 V c 0 t) := by
  rw [show (dat4 V c).leavesExact 0 t = owns (c : Thread nD τ) (st4_0 t) fullShare ((dat4 V c).after 0 t) from rfl, after4_0]
theorem leaves4_1 (c : Dev nD) (t : Fin cfg4.N) :
    (dat4 V c).leavesExact 1 t = owns (c : Thread nD τ) (st4_1 t) fullShare (iblk4 V c 1 t) := by
  rw [show (dat4 V c).leavesExact 1 t = owns (c : Thread nD τ) (st4_1 t) fullShare ((dat4 V c).after 1 t) from rfl, after4_1]
theorem leaves4_2 (c : Dev nD) (t : Fin cfg4.N) :
    (dat4 V c).leavesExact 2 t = owns (c : Thread nD τ) (st4_2 t) fullShare (iblk4 V c 2 t) := by
  rw [show (dat4 V c).leavesExact 2 t = owns (c : Thread nD τ) (st4_2 t) fullShare ((dat4 V c).after 2 t) from rfl, after4_2]
theorem leaves4_3 (c : Dev nD) (t : Fin cfg4.N) :
    (dat4 V c).leavesExact 3 t = owns (c : Thread nD τ) (st4_3 t) fullShare (iblk4 V c 3 t) := by
  rw [show (dat4 V c).leavesExact 3 t = owns (c : Thread nD τ) (st4_3 t) fullShare ((dat4 V c).after 3 t) from rfl, after4_3]
theorem leaves4_4 (c : Dev nD) (t : Fin cfg4.N) :
    (dat4 V c).leavesExact 4 t = owns (c : Thread nD τ) (st4_4 t) fullShare (iblk4 V c 4 t) := by
  rw [show (dat4 V c).leavesExact 4 t = owns (c : Thread nD τ) (st4_4 t) fullShare ((dat4 V c).after 4 t) from rfl, after4_4]
theorem leaves4_5 (c : Dev nD) (t : Fin cfg4.N) :
    (dat4 V c).leavesExact 5 t = owns (c : Thread nD τ) (st4_5 t) fullShare (iblk4 V c 5 t) := by
  rw [show (dat4 V c).leavesExact 5 t = owns (c : Thread nD τ) (st4_5 t) fullShare ((dat4 V c).after 5 t) from rfl, after4_5]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point. The first point opens the class's invariant for the two tables at anything and leaves them
    cleared and updated; a later point finds them at what the point before left and updates them; at every point but the
    last the result window is idle and handed back as found; the last point also stores the result block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3, leaves4_4, leaves4_5]
  have hN : t.val < 10 := lt_of_lt_of_eq t.isLt (show cfg4.N = 10 from N_4)
  by_cases h0 : t.val = 0
  · have hc1 : cond4_1 (grid4.coords t) := (hcond4_1 t).mpr h0
    have hc2 : ¬k4_cond2 (grid4.coords t) = 1#1 := fun h => by have := (hcond4_2 t).mp h; omega
    rw [Dat.leavesExact_idle (dat4 V c) 6 t (idleAt4_6 t hc2) (noFlush4_6 t (by omega))]
    rw [accAt4_zero_fst V c t h0, accAt4_zero_snd V c t h0]
    rw [Phi4_castSucc V c t, Phi4_zero V c _ _ h0, PhiA4_eq]
    iintro ⟨⟨⟨⟨⟨%s0, HS⟩, ⟨%n0, HC⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel4_first c Set.univ _ _ _ _ _ _ _ _ _ _ _ _ _ _ _ _ _ _ _ hc1 hc2 (hblk4 V c t) (bblk4 V c t) _)
    isplitl [H0]; · iexact H0
    isplitl [H1]; · iexact H1
    isplitl [HS]; · iexists _; iexact HS
    isplitl [HC]; · iexists _; iexact HC
    iintro ⟨H0, H1, HS, HC⟩
    isplitl [HS HC HR Hg]
    · isplitl [HS HC]
      · isplitl [HS]; · iexact HS
        iexact HC
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc1 : ¬cond4_1 (grid4.coords t) := fun h => h0 ((hcond4_1 t).mp h)
    rw [accAt4_pos_fst V c t h0, accAt4_pos_snd V c t h0]
    by_cases h9 : t.val = 9
    · have hc2 : k4_cond2 (grid4.coords t) = 1#1 := (hcond4_2 t).mpr h9
      rw [show (dat4 V c).leavesExact 6 t = owns (c : Thread nD τ) (st4_6 t) fullShare ((dat4 V c).after 6 t) from by
        unfold Dat.leavesExact; rw [liveAt4_6 t hc2], after4_6]
      unfold out4_6
      rw [accAt4_pos_fst V c t h0, accAt4_pos_snd V c t h0]
      rw [Phi4_castSucc V c t, Phi4_pos V c _ _ h0]
      iintro ⟨⟨⟨HS, HC⟩, HR, Hg⟩, Ho, ⟨%d0, H0⟩, ⟨%d1, H1⟩, ⟨%d2, H2⟩, ⟨%d3, H3⟩, ⟨%d4, H4⟩, ⟨%d5, H5⟩, ⟨%d6, H6⟩⟩
      iapply (kernel4_last c Set.univ _ _ _ _ _ _ _ _ _ _ _ _ _ _ _ _ _ _ _ hc1 hc2 (hblk4 V c t) (bblk4 V c t)
        (w1blk4 V c t) (b1blk4 V c t) (w2blk4 V c t) (b2blk4 V c t)
        (accAt4 V c (t.val - 1) (Nat.lt_of_le_of_lt (Nat.sub_le _ _) t.isLt)).1
        (accAt4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HC]; · iexact HC
      iintro ⟨H0, H1, H2, H3, H4, H5, H6, HS, HC⟩
      isplitl [HS HC HR Hg]
      · isplitl [HS HC]
        · isplitl [HS]; · iexact HS
          iexact HC
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬k4_cond2 (grid4.coords t) = 1#1 := fun h => h9 ((hcond4_2 t).mp h)
      rw [Dat.leavesExact_idle (dat4 V c) 6 t (idleAt4_6 t hc2) (noFlush4_6 t h9)]
      rw [Phi4_castSucc V c t, Phi4_pos V c _ _ h0]
      iintro ⟨⟨⟨HS, HC⟩, HR, Hg⟩, Ho, ⟨%d0, H0⟩, ⟨%d1, H1⟩, ⟨%d2, H2⟩, ⟨%d3, H3⟩, ⟨%d4, H4⟩, ⟨%d5, H5⟩, ⟨%d6, H6⟩⟩
      iapply (kernel4_mid c Set.univ _ _ _ _ _ _ _ _ _ _ _ _ _ _ _ _ _ _ _ hc1 hc2 (hblk4 V c t) (bblk4 V c t)
        (accAt4 V c (t.val - 1) (Nat.lt_of_le_of_lt (Nat.sub_le _ _) t.isLt)).1
        (accAt4 V c (t.val - 1) (Nat.lt_of_le_of_lt (Nat.sub_le _ _) t.isLt)).2 _)
      isplitl [H0]; · iexact H0
      isplitl [H1]; · iexact H1
      isplitl [HS]; · iexact HS
      isplitl [HC]; · iexact HC
      iintro ⟨H0, H1, HS, HC⟩
      isplitl [HS HC HR Hg]
      · isplitl [HS HC]
        · isplitl [HS]; · iexact HS
          iexact HC
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives the class's own back: the tables' named contents are forgotten. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), PhiA4_eq]
  iintro ⟨⟨HS, HC⟩, HR, Hg⟩
  isplitl [HS HC HR]
  · isplitl [HS HC]
    · isplitl [HS]; · iexists _; iexact HS
      iexists _; iexact HC
    iexact HR
  iexact Hg

end Cert.KernelIdeal.Hand

end
-- ==== Proof.IdealFold.lean ====
/-
  The TensorCore's buffer contents at every boundary between two items of the main program, as a fold from the launch
  memory: a stretch of host operations composes their results over what it found; a kernel region leaves each of its
  windows' arrays at what its write-backs make of it (the proof data's arrays after the last point) and every other
  buffer as it found it. Each region's proof data are taken at the contents the fold gives at its entry.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import proofs.«431412_j35321811042312_1_alg».proof.Proof.IdealR0
import proofs.«431412_j35321811042312_1_alg».proof.Proof.IdealR1
import proofs.«431412_j35321811042312_1_alg».proof.Proof.IdealR2
import proofs.«431412_j35321811042312_1_alg».proof.Proof.IdealR3
import proofs.«431412_j35321811042312_1_alg».proof.Proof.IdealR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- Launch contents. -/
abbrev U0 : Dev nD → Valuation τ sig (Elt F) := fun c b => m ((c : Dev nD), b)
/-- After the first three host stretches (the edge lists with self loops, degrees, inverse square roots, edge norms). -/
abbrev U1 : Dev nD → Valuation τ sig (Elt F) := fun c => StableHlo.after hostOps0 (U0 m c)
abbrev U2 : Dev nD → Valuation τ sig (Elt F) := fun c => StableHlo.after hostOps0_1 (U1 m c)
abbrev U3 : Dev nD → Valuation τ sig (Elt F) := fun c => StableHlo.after hostOps0_2 (U2 m c)
/-- After the first projection. -/
def U4 (c : Dev nD) : Valuation τ sig (Elt F) :=
  Pipeline.withArrays spec0 c (U3 m c) fun w => (dat0 (atTc (U3 m)) c).arrAt w cfg0.N
/-- After the first gather, scale and scatter-add, and the parameter reshapes. -/
abbrev U5 : Dev nD → Valuation τ sig (Elt F) := fun c => StableHlo.after hostOps1 (U4 m c)
/-- After the first normalisation. -/
def U6 (c : Dev nD) : Valuation τ sig (Elt F) :=
  Pipeline.withArrays spec1 c (U5 m c) fun w => (dat1 (atTc (U5 m)) c).arrAt w cfg1.N
/-- After the second projection. -/
def U7 (c : Dev nD) : Valuation τ sig (Elt F) :=
  Pipeline.withArrays spec2 c (U6 m c) fun w => (dat2 (atTc (U6 m)) c).arrAt w cfg2.N
abbrev U8 : Dev nD → Valuation τ sig (Elt F) := fun c => StableHlo.after hostOps3 (U7 m c)
/-- After the second normalisation. -/
def U9 (c : Dev nD) : Valuation τ sig (Elt F) :=
  Pipeline.withArrays spec3 c (U8 m c) fun w => (dat3 (atTc (U8 m)) c).arrAt w cfg3.N
abbrev U10 : Dev nD → Valuation τ sig (Elt F) := fun c => StableHlo.after hostOps4 (U9 m c)
/-- After the pooling region. -/
def U11 (c : Dev nD) : Valuation τ sig (Elt F) :=
  Pipeline.withArrays spec4 c (U10 m c) fun w => (dat4 (atTc (U10 m)) c).arrAt w cfg4.N
/-- After the final reshape: what the launch reads at the end. -/
abbrev U12 : Dev nD → Valuation τ sig (Elt F) := fun c => StableHlo.after hostOps5 (U11 m c)

theorem U4_arr (c : Dev nD) (w : Fin cfg0.W) :
    U4 m c (Proc.devRef .tc (Pipeline.arrRef spec0 w)) = (dat0 (atTc (U3 m)) c).arrAt w cfg0.N := by
  unfold U4; exact Pipeline.withArrays_arr spec0 launch0.win.arr_inj c _ _ w
theorem U4_of_ne (c : Dev nD) (b : Ref sig .tc) (hb : ∀ w, Pipeline.arrRef spec0 w ≠ b) :
    U4 m c (Proc.devRef .tc b) = U3 m c (Proc.devRef .tc b) := by
  unfold U4; exact Pipeline.withArrays_of_ne spec0 c _ _ b hb
theorem U6_arr (c : Dev nD) (w : Fin cfg1.W) :
    U6 m c (Proc.devRef .tc (Pipeline.arrRef spec1 w)) = (dat1 (atTc (U5 m)) c).arrAt w cfg1.N := by
  unfold U6; exact Pipeline.withArrays_arr spec1 launch1.win.arr_inj c _ _ w
theorem U6_of_ne (c : Dev nD) (b : Ref sig .tc) (hb : ∀ w, Pipeline.arrRef spec1 w ≠ b) :
    U6 m c (Proc.devRef .tc b) = U5 m c (Proc.devRef .tc b) := by
  unfold U6; exact Pipeline.withArrays_of_ne spec1 c _ _ b hb
theorem U7_arr (c : Dev nD) (w : Fin cfg2.W) :
    U7 m c (Proc.devRef .tc (Pipeline.arrRef spec2 w)) = (dat2 (atTc (U6 m)) c).arrAt w cfg2.N := by
  unfold U7; exact Pipeline.withArrays_arr spec2 launch2.win.arr_inj c _ _ w
theorem U7_of_ne (c : Dev nD) (b : Ref sig .tc) (hb : ∀ w, Pipeline.arrRef spec2 w ≠ b) :
    U7 m c (Proc.devRef .tc b) = U6 m c (Proc.devRef .tc b) := by
  unfold U7; exact Pipeline.withArrays_of_ne spec2 c _ _ b hb
theorem U9_arr (c : Dev nD) (w : Fin cfg3.W) :
    U9 m c (Proc.devRef .tc (Pipeline.arrRef spec3 w)) = (dat3 (atTc (U8 m)) c).arrAt w cfg3.N := by
  unfold U9; exact Pipeline.withArrays_arr spec3 launch3.win.arr_inj c _ _ w
theorem U9_of_ne (c : Dev nD) (b : Ref sig .tc) (hb : ∀ w, Pipeline.arrRef spec3 w ≠ b) :
    U9 m c (Proc.devRef .tc b) = U8 m c (Proc.devRef .tc b) := by
  unfold U9; exact Pipeline.withArrays_of_ne spec3 c _ _ b hb
theorem U11_arr (c : Dev nD) (w : Fin cfg4.W) :
    U11 m c (Proc.devRef .tc (Pipeline.arrRef spec4 w)) = (dat4 (atTc (U10 m)) c).arrAt w cfg4.N := by
  unfold U11; exact Pipeline.withArrays_arr spec4 launch4.win.arr_inj c _ _ w
theorem U11_of_ne (c : Dev nD) (b : Ref sig .tc) (hb : ∀ w, Pipeline.arrRef spec4 w ≠ b) :
    U11 m c (Proc.devRef .tc b) = U10 m c (Proc.devRef .tc b) := by
  unfold U11; exact Pipeline.withArrays_of_ne spec4 c _ _ b hb

/-- No pipeline has a prefetched table. -/
abbrev adm : (p : Fin 5) → (pcfgs (F := F) p).Adm := fun p => (cfgs p).toPCfg_adm

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (atTc (U3 m)) c
  | ⟨1, _⟩ => fun c => dat1 (atTc (U5 m)) c
  | ⟨2, _⟩ => fun c => dat2 (atTc (U6 m)) c
  | ⟨3, _⟩ => fun c => dat3 (atTc (U8 m)) c
  | ⟨4, _⟩ => fun c => dat4 (atTc (U10 m)) c

end Cert.KernelIdeal.Hand

end
-- ==== Proof.IdealRun.lean ====
/-
  The launch: the main program as a list of segments (a host segment per stretch of host operations, a region per
  kernel call) chained through the fold of buffer contents, and the run it gives: every weakly fair execution
  terminates without a fault and ends with every unscoped buffer at the fold's last contents. The frame (the
  arguments end as launched) and the result's value are read off that.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import proofs.«431412_j35321811042312_1_alg».proof.Proof.IdealFold
import proofs.«431412_j35321811042312_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

set_option backward.isDefEq.respectTransparency.types false in
/-- Region 0 over the thread state: entered with every unscoped buffer at the fold's contents before it, left at the
    fold's contents after it. Its windows' arrays are split out of the unscoped buffers and put back at their final
    contents; the generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (U3 m)) c).loose
  hwaits := Pipeline.hwaits_of_owed_zero _ _ _ _ L lv 0 fun _ _ => rfl
  pre c := iprop(StableHlo.held (c : Thread nD τ) (Pipeline.ucRefs τ sig) (U3 m c) ∗ Rest c)
  post c := iprop(StableHlo.held (c : Thread nD τ) (Pipeline.ucRefs τ sig) (U4 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (U3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U3 m) c) (atTc (U4 m) c) ((pdats m 0 c).arrAt · cfg0.N) (fun w => (U4_arr m c w).symm)
      (fun b hb => U4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the fold's contents before it, left at the
    fold's contents after it. Its windows' arrays are split out of the unscoped buffers and put back at their final
    contents; the generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U5 m)) c).loose
  hwaits := Pipeline.hwaits_of_owed_zero _ _ _ _ L lv 1 fun _ _ => rfl
  pre c := iprop(StableHlo.held (c : Thread nD τ) (Pipeline.ucRefs τ sig) (U5 m c) ∗ Rest c)
  post c := iprop(StableHlo.held (c : Thread nD τ) (Pipeline.ucRefs τ sig) (U6 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (U5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U5 m) c) (atTc (U6 m) c) ((pdats m 1 c).arrAt · cfg1.N) (fun w => (U6_arr m c w).symm)
      (fun b hb => U6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the fold's contents before it, left at the
    fold's contents after it. Its windows' arrays are split out of the unscoped buffers and put back at their final
    contents; the generator register goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U6 m)) c).loose
  hwaits := Pipeline.hwaits_of_owed_zero _ _ _ _ L lv 2 fun _ _ => rfl
  pre c := iprop(StableHlo.held (c : Thread nD τ) (Pipeline.ucRefs τ sig) (U6 m c) ∗ Rest c)
  post c := iprop(StableHlo.held (c : Thread nD τ) (Pipeline.ucRefs τ sig) (U7 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (U6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U6 m) c) (atTc (U7 m) c) ((pdats m 2 c).arrAt · cfg2.N) (fun w => (U7_arr m c w).symm)
      (fun b hb => U7_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the fold's contents before it, left at the
    fold's contents after it. Its windows' arrays are split out of the unscoped buffers and put back at their final
    contents; the generator register goes into the region's invariant and comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U8 m)) c).loose
  hwaits := Pipeline.hwaits_of_owed_zero _ _ _ _ L lv 3 fun _ _ => rfl
  pre c := iprop(StableHlo.held (c : Thread nD τ) (Pipeline.ucRefs τ sig) (U8 m c) ∗ Rest c)
  post c := iprop(StableHlo.held (c : Thread nD τ) (Pipeline.ucRefs τ sig) (U9 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (U8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U8 m) c) (atTc (U9 m) c) ((pdats m 3 c).arrAt · cfg3.N) (fun w => (U9_arr m c w).symm)
      (fun b hb => U9_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the fold's contents before it, left at the
    fold's contents after it. Its windows' arrays are split out of the unscoped buffers and put back at their final
    contents; the generator register goes into the region's invariant and comes back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (U10 m)) c).loose
  hwaits := Pipeline.hwaits_of_owed_zero _ _ _ _ L lv 4 fun _ _ => rfl
  pre c := iprop(StableHlo.held (c : Thread nD τ) (Pipeline.ucRefs τ sig) (U10 m c) ∗ Rest c)
  post c := iprop(StableHlo.held (c : Thread nD τ) (Pipeline.ucRefs τ sig) (U11 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (U10 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (atTc (U10 m)) c).Φ 0 from rfl]
    iintro ⟨Hp, -, Hr⟩
    iapply (hin4 (atTc (U10 m)) c)
    unfold Pipeline.ΦA
    isplitl [Hr]; · iexact Hr
    iexact Hp
  hout c := by
    rw [Pipeline.ownSems0_none, show (pdats m 4 c).Φ (Fin.last _) = (dat4 (atTc (U10 m)) c).Φ (Fin.last cfg4.N) from rfl]
    iintro Hphi
    ihave H := (hout4 (atTc (U10 m)) c) $$ Hphi
    unfold Pipeline.ΦA
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U10 m) c) (atTc (U11 m) c) ((pdats m 4 c).arrAt · cfg4.N) (fun w => (U11_arr m c w).symm)
      (fun b hb => U11_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The main program's twelve items in order. -/
abbrev segs : List (Pipeline.Seg (pcfgs (F := F)) adm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .region (reg1 m),
    .region (reg2 m),
    .host (hseg hostOps3 hostOps3_sub hostOps3_fresh (U7 m)),
    .region (reg3 m),
    .host (hseg hostOps4 hostOps4_sub hostOps4_fresh (U9 m)),
    .region (reg4 m),
    .host (hseg hostOps5 hostOps5_sub hostOps5_fresh (U11 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of the main program from memory m with zero counters terminates, nothing
    faulting, and every final memory holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U12 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rest c))
    (Tₙ := fun c => iprop(StableHlo.held (c : Thread nD τ) (Pipeline.ucRefs τ sig) (U12 m c) ∗ ∃ r, prngReg c r))
    (hch := fun c => ⟨.rfl, .rfl, .rfl, .rfl, .rfl, .rfl, .rfl, .rfl, .rfl, .rfl, .rfl, .rfl, by
      show (iprop(StableHlo.held (c : Thread nD τ) (Pipeline.ucRefs τ sig) (U12 m c) ∗ Rest c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U12 m c b)
    (hfin := fun c s' => by
      iintro ⟨⟨Hh, -⟩, HSI⟩
      unfold StableHlo.held
      imodintro
      iapply (pointsTo_read_all (Pipeline.ucRefs τ sig) (fun b => (((c : Thread nD τ)).1, b)) (U12 m c) s')
      isplitl [Hh] <;> iassumption)
    (hQ := fun s h c => h c)

end Cert.KernelIdeal.Hand

end
-- ==== Proof.IdealKeep.lean ====
/-
  The buffers no item of the main program writes end as launched: a host stretch changes only what its operations
  write, and a region changes only its output window's array (an input window's array is staged and never written
  back). In particular every argument array ends holding its launch contents.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import proofs.«431412_j35321811042312_1_alg».proof.Proof.IdealFold
import proofs.«431412_j35321811042312_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem U4_keep (c : Dev nD) (b : Ref sig .tc) (hb : b ≠ main_v34) : U4 m c b = U3 m c b := by
  by_cases h0 : b = main_arg0
  · subst h0; exact (U4_arr m c 0).trans (((dat0 (atTc (U3 m)) c).arrAt_in 0 rfl _).trans (A_eq0 _ c 0))
  by_cases h1 : b = main_arg4
  · subst h1; exact (U4_arr m c 1).trans (((dat0 (atTc (U3 m)) c).arrAt_in 1 rfl _).trans (A_eq0 _ c 1))
  refine U4_of_ne m c b (fun w => ?_)
  match w with
  | ⟨0, _⟩ => exact fun e => h0 e.symm
  | ⟨1, _⟩ => exact fun e => h1 e.symm
  | ⟨2, _⟩ => exact fun e => hb e.symm

theorem U6_keep (c : Dev nD) (b : Ref sig .tc) (hb : b ≠ main_v53) : U6 m c b = U5 m c b := by
  by_cases h0 : b = main_v47
  · subst h0; exact (U6_arr m c 0).trans (((dat1 (atTc (U5 m)) c).arrAt_in 0 rfl _).trans (A_eq1 _ c 0))
  by_cases h1 : b = main_v48
  · subst h1; exact (U6_arr m c 1).trans (((dat1 (atTc (U5 m)) c).arrAt_in 1 rfl _).trans (A_eq1 _ c 1))
  by_cases h2 : b = main_v49
  · subst h2; exact (U6_arr m c 2).trans (((dat1 (atTc (U5 m)) c).arrAt_in 2 rfl _).trans (A_eq1 _ c 2))
  by_cases h3 : b = main_v50
  · subst h3; exact (U6_arr m c 3).trans (((dat1 (atTc (U5 m)) c).arrAt_in 3 rfl _).trans (A_eq1 _ c 3))
  by_cases h4 : b = main_v51
  · subst h4; exact (U6_arr m c 4).trans (((dat1 (atTc (U5 m)) c).arrAt_in 4 rfl _).trans (A_eq1 _ c 4))
  by_cases h5 : b = main_v52
  · subst h5; exact (U6_arr m c 5).trans (((dat1 (atTc (U5 m)) c).arrAt_in 5 rfl _).trans (A_eq1 _ c 5))
  refine U6_of_ne m c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

theorem U7_keep (c : Dev nD) (b : Ref sig .tc) (hb : b ≠ main_v54) : U7 m c b = U6 m c b := by
  by_cases h0 : b = main_v53
  · subst h0; exact (U7_arr m c 0).trans (((dat2 (atTc (U6 m)) c).arrAt_in 0 rfl _).trans (A_eq2 _ c 0))
  by_cases h1 : b = main_arg6
  · subst h1; exact (U7_arr m c 1).trans (((dat2 (atTc (U6 m)) c).arrAt_in 1 rfl _).trans (A_eq2 _ c 1))
  refine U7_of_ne m c b (fun w => ?_)
  match w with
  | ⟨0, _⟩ => exact fun e => h0 e.symm
  | ⟨1, _⟩ => exact fun e => h1 e.symm
  | ⟨2, _⟩ => exact fun e => hb e.symm

theorem U9_keep (c : Dev nD) (b : Ref sig .tc) (hb : b ≠ main_v73) : U9 m c b = U8 m c b := by
  by_cases h0 : b = main_v67
  · subst h0; exact (U9_arr m c 0).trans (((dat3 (atTc (U8 m)) c).arrAt_in 0 rfl _).trans (A_eq3 _ c 0))
  by_cases h1 : b = main_v68
  · subst h1; exact (U9_arr m c 1).trans (((dat3 (atTc (U8 m)) c).arrAt_in 1 rfl _).trans (A_eq3 _ c 1))
  by_cases h2 : b = main_v69
  · subst h2; exact (U9_arr m c 2).trans (((dat3 (atTc (U8 m)) c).arrAt_in 2 rfl _).trans (A_eq3 _ c 2))
  by_cases h3 : b = main_v70
  · subst h3; exact (U9_arr m c 3).trans (((dat3 (atTc (U8 m)) c).arrAt_in 3 rfl _).trans (A_eq3 _ c 3))
  by_cases h4 : b = main_v71
  · subst h4; exact (U9_arr m c 4).trans (((dat3 (atTc (U8 m)) c).arrAt_in 4 rfl _).trans (A_eq3 _ c 4))
  by_cases h5 : b = main_v72
  · subst h5; exact (U9_arr m c 5).trans (((dat3 (atTc (U8 m)) c).arrAt_in 5 rfl _).trans (A_eq3 _ c 5))
  refine U9_of_ne m c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

theorem U11_keep (c : Dev nD) (b : Ref sig .tc) (hb : b ≠ main_v77) : U11 m c b = U10 m c b := by
  by_cases h0 : b = main_v73
  · subst h0; exact (U11_arr m c 0).trans (((dat4 (atTc (U10 m)) c).arrAt_in 0 rfl _).trans (A_eq4 _ c 0))
  by_cases h1 : b = main_v74
  · subst h1; exact (U11_arr m c 1).trans (((dat4 (atTc (U10 m)) c).arrAt_in 1 rfl _).trans (A_eq4 _ c 1))
  by_cases h2 : b = main_arg16
  · subst h2; exact (U11_arr m c 2).trans (((dat4 (atTc (U10 m)) c).arrAt_in 2 rfl _).trans (A_eq4 _ c 2))
  by_cases h3 : b = main_v75
  · subst h3; exact (U11_arr m c 3).trans (((dat4 (atTc (U10 m)) c).arrAt_in 3 rfl _).trans (A_eq4 _ c 3))
  by_cases h4 : b = main_arg18
  · subst h4; exact (U11_arr m c 4).trans (((dat4 (atTc (U10 m)) c).arrAt_in 4 rfl _).trans (A_eq4 _ c 4))
  by_cases h5 : b = main_v76
  · subst h5; exact (U11_arr m c 5).trans (((dat4 (atTc (U10 m)) c).arrAt_in 5 rfl _).trans (A_eq4 _ c 5))
  refine U11_of_ne m c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

/-- A buffer that no host stretch writes and that is no region's output array ends as launched. -/
theorem U12_keep (c : Dev nD) (b : Ref sig .tc) (h0 : b ∉ hostOps0_W) (h01 : b ∉ hostOps0_1_W) (h02 : b ∉ hostOps0_2_W)
    (h1 : b ∉ hostOps1_W) (h3 : b ∉ hostOps3_W) (h4 : b ∉ hostOps4_W) (h5 : b ∉ hostOps5_W)
    (n34 : b ≠ main_v34) (n53 : b ≠ main_v53) (n54 : b ≠ main_v54) (n73 : b ≠ main_v73) (n77 : b ≠ main_v77) :
    U12 m c b = m ((c : Thread nD τ).loc b) :=
  (StableHlo.after_of_writes_sub hostOps5 _ hostOps5_writes h5).trans <|
  (U11_keep m c b n77).trans <|
  (StableHlo.after_of_writes_sub hostOps4 _ hostOps4_writes h4).trans <|
  (U9_keep m c b n73).trans <|
  (StableHlo.after_of_writes_sub hostOps3 _ hostOps3_writes h3).trans <|
  (U7_keep m c b n54).trans <|
  (U6_keep m c b n53).trans <|
  (StableHlo.after_of_writes_sub hostOps1 _ hostOps1_writes h1).trans <|
  (U4_keep m c b n34).trans <|
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0)

theorem U12_main_arg0 (c : Dev nD) : U12 m c main_arg0 = m ((c : Thread nD τ).loc main_arg0) :=
  U12_keep m c main_arg0 (by decide) (by decide) (by decide) (by decide) (by decide) (by decide) (by decide) (by decide) (by decide) (by decide) (by decide) (by decide)
theorem U12_main_arg1 (c : Dev nD) : U12 m c main_arg1 = m ((c : Thread nD τ).loc main_arg1) :=
  U12_keep m c main_arg1 (by decide) (by decide) (by decide) (by decide) (by decide) (by decide) (by decide) (by decide) (by decide) (by decide) (by decide) (by decide)
theorem U12_main_arg2 (c : Dev nD) : U12 m c main_arg2 = m ((c : Thread nD τ).loc main_arg2) :=
  U12_keep m c main_arg2 (by decide) (by decide) (by decide) (by decide) (by decide) (by decide) (by decide) (by decide) (by decide) (by decide) (by decide) (by decide)
theorem U12_main_arg3 (c : Dev nD) : U12 m c main_arg3 = m ((c : Thread nD τ).loc main_arg3) :=
  U12_keep m c main_arg3 (by decide) (by decide) (by decide) (by decide) (by decide) (by decide) (by decide) (by decide) (by decide) (by decide) (by decide) (by decide)
theorem U12_main_arg4 (c : Dev nD) : U12 m c main_arg4 = m ((c : Thread nD τ).loc main_arg4) :=
  U12_keep m c main_arg4 (by decide) (by decide) (by decide) (by decide) (by decide) (by decide) (by decide) (by decide) (by decide) (by decide) (by decide) (by decide)
theorem U12_main_arg5 (c : Dev nD) : U12 m c main_arg5 = m ((c : Thread nD τ).loc main_arg5) :=
  U12_keep m c main_arg5 (by decide) (by decide) (by decide) (by decide) (by decide) (by decide) (by decide) (by decide) (by decide) (by decide) (by decide) (by decide)
theorem U12_main_arg6 (c : Dev nD) : U12 m c main_arg6 = m ((c : Thread nD τ).loc main_arg6) :=
  U12_keep m c main_arg6 (by decide) (by decide) (by decide) (by decide) (by decide) (by decide) (by decide) (by decide) (by decide) (by decide) (by decide) (by decide)
theorem U12_main_arg7 (c : Dev nD) : U12 m c main_arg7 = m ((c : Thread nD τ).loc main_arg7) :=
  U12_keep m c main_arg7 (by decide) (by decide) (by decide) (by decide) (by decide) (by decide) (by decide) (by decide) (by decide) (by decide) (by decide) (by decide)
theorem U12_main_arg8 (c : Dev nD) : U12 m c main_arg8 = m ((c : Thread nD τ).loc main_arg8) :=
  U12_keep m c main_arg8 (by decide) (by decide) (by decide) (by decide) (by decide) (by decide) (by decide) (by decide) (by decide) (by decide) (by decide) (by decide)
theorem U12_main_arg9 (c : Dev nD) : U12 m c main_arg9 = m ((c : Thread nD τ).loc main_arg9) :=
  U12_keep m c main_arg9 (by decide) (by decide) (by decide) (by decide) (by decide) (by decide) (by decide) (by decide) (by decide) (by decide) (by decide) (by decide)
theorem U12_main_arg10 (c : Dev nD) : U12 m c main_arg10 = m ((c : Thread nD τ).loc main_arg10) :=
  U12_keep m c main_arg10 (by decide) (by decide) (by decide) (by decide) (by decide) (by decide) (by decide) (by decide) (by decide) (by decide) (by decide) (by decide)
theorem U12_main_arg11 (c : Dev nD) : U12 m c main_arg11 = m ((c : Thread nD τ).loc main_arg11) :=
  U12_keep m c main_arg11 (by decide) (by decide) (by decide) (by decide) (by decide) (by decide) (by decide) (by decide) (by decide) (by decide) (by decide) (by decide)
theorem U12_main_arg12 (c : Dev nD) : U12 m c main_arg12 = m ((c : Thread nD τ).loc main_arg12) :=
  U12_keep m c main_arg12 (by decide) (by decide) (by decide) (by decide) (by decide) (by decide) (by decide) (by decide) (by decide) (by decide) (by decide) (by decide)
theorem U12_main_arg13 (c : Dev nD) : U12 m c main_arg13 = m ((c : Thread nD τ).loc main_arg13) :=
  U12_keep m c main_arg13 (by decide) (by decide) (by decide) (by decide) (by decide) (by decide) (by decide) (by decide) (by decide) (by decide) (by decide) (by decide)
theorem U12_main_arg14 (c : Dev nD) : U12 m c main_arg14 = m ((c : Thread nD τ).loc main_arg14) :=
  U12_keep m c main_arg14 (by decide) (by decide) (by decide) (by decide) (by decide) (by decide) (by decide) (by decide) (by decide) (by decide) (by decide) (by decide)
theorem U12_main_arg15 (c : Dev nD) : U12 m c main_arg15 = m ((c : Thread nD τ).loc main_arg15) :=
  U12_keep m c main_arg15 (by decide) (by decide) (by decide) (by decide) (by decide) (by decide) (by decide) (by decide) (by decide) (by decide) (by decide) (by decide)
theorem U12_main_arg16 (c : Dev nD) : U12 m c main_arg16 = m ((c : Thread nD τ).loc main_arg16) :=
  U12_keep m c main_arg16 (by decide) (by decide) (by decide) (by decide) (by decide) (by decide) (by decide) (by decide) (by decide) (by decide) (by decide) (by decide)
theorem U12_main_arg17 (c : Dev nD) : U12 m c main_arg17 = m ((c : Thread nD τ).loc main_arg17) :=
  U12_keep m c main_arg17 (by decide) (by decide) (by decide) (by decide) (by decide) (by decide) (by decide) (by decide) (by decide) (by decide) (by decide) (by decide)
theorem U12_main_arg18 (c : Dev nD) : U12 m c main_arg18 = m ((c : Thread nD τ).loc main_arg18) :=
  U12_keep m c main_arg18 (by decide) (by decide) (by decide) (by decide) (by decide) (by decide) (by decide) (by decide) (by decide) (by decide) (by decide) (by decide)
theorem U12_main_arg19 (c : Dev nD) : U12 m c main_arg19 = m ((c : Thread nD τ).loc main_arg19) :=
  U12_keep m c main_arg19 (by decide) (by decide) (by decide) (by decide) (by decide) (by decide) (by decide) (by decide) (by decide) (by decide) (by decide) (by decide)

end Cert.KernelIdeal.Hand

end
-- ==== Proof.IdealPost.lean ====
/-
  The run's posts the claims ask for: the result buffer at the fold's last contents beside the twenty argument arrays
  as launched, and the frame alone.
-/
import proofs.«431412_j35321811042312_1_alg».proof.Proof.Gen.KernelIdeal.Launch
import proofs.«431412_j35321811042312_1_alg».proof.Proof.Gen.KernelIdeal.Skeleton
import proofs.«431412_j35321811042312_1_alg».proof.Proof.Gen.KernelIdeal.Points
import proofs.«431412_j35321811042312_1_alg».proof.Proof.IdealRun
import proofs.«431412_j35321811042312_1_alg».proof.Proof.IdealKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faulting; the result buffer ends at the fold's last contents
    and every argument array as launched. -/
theorem run_post : θ_run defs (onTc (τ := τ) (main (F := F))) ⟨m, fun _ => 0, ρ⟩ (fun r => ∀ c : Dev nD,
      r.2.mem ((c.tc : Thread nD τ).loc main_v78) = U12 m c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v78 (by decide)),
      (h c _ (mem_uc main_arg0 (by decide))).trans (U12_main_arg0 m c),
      (h c _ (mem_uc main_arg1 (by decide))).trans (U12_main_arg1 m c),
      (h c _ (mem_uc main_arg2 (by decide))).trans (U12_main_arg2 m c),
      (h c _ (mem_uc main_arg3 (by decide))).trans (U12_main_arg3 m c),
      (h c _ (mem_uc main_arg4 (by decide))).trans (U12_main_arg4 m c),
      (h c _ (mem_uc main_arg5 (by decide))).trans (U12_main_arg5 m c),
      (h c _ (mem_uc main_arg6 (by decide))).trans (U12_main_arg6 m c),
      (h c _ (mem_uc main_arg7 (by decide))).trans (U12_main_arg7 m c),
      (h c _ (mem_uc main_arg8 (by decide))).trans (U12_main_arg8 m c),
      (h c _ (mem_uc main_arg9 (by decide))).trans (U12_main_arg9 m c),
      (h c _ (mem_uc main_arg10 (by decide))).trans (U12_main_arg10 m c),
      (h c _ (mem_uc main_arg11 (by decide))).trans (U12_main_arg11 m c),
      (h c _ (mem_uc main_arg12 (by decide))).trans (U12_main_arg12 m c),
      (h c _ (mem_uc main_arg13 (by decide))).trans (U12_main_arg13 m c),
      (h c _ (mem_uc main_arg14 (by decide))).trans (U12_main_arg14 m c),
      (h c _ (mem_uc main_arg15 (by decide))).trans (U12_main_arg15 m c),
      (h c _ (mem_uc main_arg16 (by decide))).trans (U12_main_arg16 m c),
      (h c _ (mem_uc main_arg17 (by decide))).trans (U12_main_arg17 m c),
      (h c _ (mem_uc main_arg18 (by decide))).trans (U12_main_arg18 m c),
      (h c _ (mem_uc main_arg19 (by decide))).trans (U12_main_arg19 m c)⟩)
    (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_post m ρ)

end Cert.KernelIdeal.Hand

end
-- ==== Proof.RefStages.lean ====
/-
  The reference program cut into its stages, each a function of the stage before it and of the program's arguments:
  the edge normalisation (from the edge list and edge weights), the aggregation of projected rows along the edges
  (gather at the sources, scale by the edge norms, scatter-add at the targets), the bias, batch-norm and rectifier,
  and the mean pooling with the two-layer head. The whole reference result is their composition.
-/
import proofs.«431412_j35321811042312_1_alg».proof.Proof.Gen.ReferenceIdeal.Read

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.ShloMosaic.StableHlo

variable {F : FTy → Type} [FloatOps F]

/-- The sources, the targets (self loops appended) and the symmetric edge norms, from the edge list and weights. -/
def src (x1 : IVec S2x800000 32) : IVec S850000 32 := val_main_v5 (F := F) x1
def dst (x1 : IVec S2x800000 32) : IVec S850000 32 := val_main_v6 (F := F) x1
def nrm (x1 : IVec S2x800000 32) (x2 : FVec F S800000 .f32) : FVec F S850000 .f32 := val_main_v33 (F := F) x1 x2

/-- The aggregation along the edges of projected rows hp: row s(e) of hp scaled by the norm of e, summed into row d(e). -/
def agg (n : FVec F S850000 .f32) (s d : IVec S850000 32) (hp : FVec F S50000x64 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (broadcastInDim S850000x64 ![0, 1] bcast_S850000x1_S850000x64_0_1 (broadcastInDim S850000x1 ![0] bcast_S850000_S850000x1_0 n))
      (Host.gather gather_S50000x64_S850000x1_S850000x64_1_0_n_n_0_1_164 hp
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))))

/-- A length-64 parameter as a row broadcast over the 50000 rows. -/
abbrev rowB (p : FVec F S64 .f32) : FVec F S50000x64 .f32 :=
  broadcastInDim S50000x64 ![0, 1] bcast_S1x64_S50000x64_0_1 (broadcastInDim S1x64 ![1] bcast_S64_S1x64_1 p)

/-- Bias, batch-norm in evaluation mode, rectifier: max(((a + b) - mean) * rsqrt(var + eps) * scale + shift, 0). -/
def bn (a : FVec F S50000x64 .f32) (b scale shift mean var : FVec F S64 .f32) : FVec F S50000x64 .f32 :=
  maximumf
    (addf (mulf (mulf (subf (addf a (rowB b)) (rowB mean))
        (rowB (Host.rsqrt (addf var (broadcastInDim S64 ![] bcast_S_S64 (constant S_ .f32 0x3727C5AC#32))))))
      (rowB scale)) (rowB shift))
    (broadcastInDim S50000x64 ![] bcast_S_S50000x64 (constant S_ .f32 0x00000000#32))

/-- The two projections. -/
def mm1 (x : FVec F S50000x5 .f32) (w : FVec F S5x64 .f32) : FVec F S50000x64 .f32 :=
  Host.dotGeneral dot_S50000x5_S5x64_S50000x64_1_0_0_1_n_n none x w
def mm2 (x : FVec F S50000x64 .f32) (w : FVec F S64x64 .f32) : FVec F S50000x64 .f32 :=
  Host.dotGeneral dot_S50000x64_S64x64_S50000x64_1_0_0_1_n_n none x w

/-- Mean pooling over the graphs of the batch (row sums over counts, counts at least one) and the two-layer head,
    as a 128 x 1 column. -/
def pool (h : FVec F S50000x64 .f32) (batch : IVec S50000 32) (w1 : FVec F S64x32 .f32) (b1 : FVec F S32 .f32)
    (w2 : FVec F S32x1 .f32) (b2 : FVec F S1 .f32) : FVec F S128x1 .f32 :=
  addf (Host.dotGeneral dot_S128x32_S32x1_S128x1_1_0_0_1_n_n none
      (maximumf
        (addf (Host.dotGeneral dot_S128x64_S64x32_S128x32_1_0_0_1_n_n none
            (Host.divf
              (Host.scatterAdd scatter_S128x64_S50000x1_S50000x64_1_0_0_1
                (broadcastInDim S128x64 ![] bcast_S_S128x64 (constant S_ .f32 0x00000000#32))
                (broadcastInDim S50000x1 ![0] bcast_S50000_S50000x1_0 batch) h)
              (broadcastInDim S128x64 ![0, 1] bcast_S128x1_S128x64_0_1 (broadcastInDim S128x1 ![0] bcast_S128_S128x1_0
                (maximumf
                  (Host.scatterAdd scatter_S128_S50000x1_S50000_n_0_0_1
                    (broadcastInDim S128 ![] bcast_S_S128 (constant S_ .f32 0x00000000#32))
                    (broadcastInDim S50000x1 ![0] bcast_S50000_S50000x1_0 batch)
                    (broadcastInDim S50000 ![] bcast_S_S50000 (constant S_ .f32 0x3F800000#32)))
                  (broadcastInDim S128 ![] bcast_S_S128 (constant S_ .f32 0x3F800000#32))))))
            w1)
          (broadcastInDim S128x32 ![0, 1] bcast_S1x32_S128x32_0_1 (broadcastInDim S1x32 ![1] bcast_S32_S1x32_1 b1)))
        (broadcastInDim S128x32 ![] bcast_S_S128x32 (constant S_ .f32 0x00000000#32)))
      w2)
    (broadcastInDim S128x1 ![0, 1] bcast_S1x1_S128x1_0_1 (broadcastInDim S1x1 ![1] bcast_S1_S1x1_1 b2))

/-- A 1 x n row read as a length-n vector, and an n x 1 column read as a length-n vector: the kernel's program passes
    its parameter vectors to the regions as such rows and columns. -/
def unrow {n : Nat} {α : Type} (p : (⟨2, ![1, n]⟩ : Shape).Idx → α) : (⟨1, ![n]⟩ : Shape).Idx → α :=
  fun j => p (ValueIdx.ix2 (0 : Fin 1) (j 0))
def uncol {n : Nat} {α : Type} (p : (⟨2, ![n, 1]⟩ : Shape).Idx → α) : (⟨1, ![n]⟩ : Shape).Idx → α :=
  fun j => p (ValueIdx.ix2 (j 0) (0 : Fin 1))

section chain

variable (x0 : FVec F S50000x5 .f32) (x1 : IVec S2x800000 32) (x2 : FVec F S800000 .f32) (x3 : IVec S50000 32)
    (x4 : FVec F S5x64 .f32) (x5 : FVec F S64 .f32) (x6 : FVec F S64x64 .f32) (x7 x8 x9 x10 x11 x12 x13 x14 x15 : FVec F S64 .f32)
    (x16 : FVec F S64x32 .f32) (x17 : FVec F S32 .f32) (x18 : FVec F S32x1 .f32) (x19 : FVec F S1 .f32)

/-- The second layer recomputes the sources, the targets and the edge norms by the same operations. -/
theorem src2_eq : val_main_v72 (F := F) x1 = src (F := F) x1 := by
  rfl
theorem dst2_eq : val_main_v73 (F := F) x1 = dst (F := F) x1 := by
  rfl
theorem wts2_eq : val_main_v75 (F := F) x2 = val_main_v8 (F := F) x2 := by
  rfl
theorem deg2_eq : val_main_v84 (F := F) x1 x2 = val_main_v17 (F := F) x1 x2 := by
  rfl
theorem nrm2_eq : val_main_v100 (F := F) x1 x2 = nrm x1 x2 := by
  rfl

/-- First layer: aggregation of the projected input rows, then bias, batch-norm and rectifier. -/
theorem v47_eq : val_main_v47 (F := F) x0 x1 x2 x4 = agg (nrm x1 x2) (src (F := F) x1) (dst (F := F) x1) (mm1 x0 x4) := by
  rfl
theorem v66_eq : val_main_v66 (F := F) x0 x1 x2 x4 x5 x8 x9 x10 x11
    = bn (val_main_v47 (F := F) x0 x1 x2 x4) x5 x8 x9 x10 x11 := by
  rfl

/-- Second layer: projection, aggregation over the recomputed edge data, then bias, batch-norm and rectifier. -/
theorem v101_eq : val_main_v101 (F := F) x0 x1 x2 x4 x5 x6 x8 x9 x10 x11
    = mm2 (val_main_v66 (F := F) x0 x1 x2 x4 x5 x8 x9 x10 x11) x6 := by
  rfl
theorem v114_eq : val_main_v114 (F := F) x0 x1 x2 x4 x5 x6 x8 x9 x10 x11
    = agg (val_main_v100 (F := F) x1 x2) (val_main_v72 (F := F) x1) (val_main_v73 (F := F) x1)
        (val_main_v101 (F := F) x0 x1 x2 x4 x5 x6 x8 x9 x10 x11) := by
  rfl
theorem v133_eq : val_main_v133 (F := F) x0 x1 x2 x4 x5 x6 x7 x8 x9 x10 x11 x12 x13 x14 x15
    = bn (val_main_v114 (F := F) x0 x1 x2 x4 x5 x6 x8 x9 x10 x11) x7 x12 x13 x14 x15 := by
  rfl

/-- The pooling and the head. -/
theorem v154_eq : val_main_v154 (F := F) x0 x1 x2 x3 x4 x5 x6 x7 x8 x9 x10 x11 x12 x13 x14 x15 x16 x17 x18 x19
    = pool (val_main_v133 (F := F) x0 x1 x2 x4 x5 x6 x7 x8 x9 x10 x11 x12 x13 x14 x15) x3 x16 x17 x18 x19 := by
  rfl

end chain

/-- The reference's result is the composition of the stages. -/
theorem ref_chain (x0 : FVec F S50000x5 .f32) (x1 : IVec S2x800000 32) (x2 : FVec F S800000 .f32) (x3 : IVec S50000 32)
    (x4 : FVec F S5x64 .f32) (x5 : FVec F S64 .f32) (x6 : FVec F S64x64 .f32) (x7 x8 x9 x10 x11 x12 x13 x14 x15 : FVec F S64 .f32)
    (x16 : FVec F S64x32 .f32) (x17 : FVec F S32 .f32) (x18 : FVec F S32x1 .f32) (x19 : FVec F S1 .f32) :
    val_main_v155 (F := F) x0 x1 x2 x3 x4 x5 x6 x7 x8 x9 x10 x11 x12 x13 x14 x15 x16 x17 x18 x19
      = shapeCast _ (pool
          (bn (agg (nrm x1 x2) (src (F := F) x1) (dst (F := F) x1)
              (mm2 (bn (agg (nrm x1 x2) (src (F := F) x1) (dst (F := F) x1) (mm1 x0 x4)) x5 x8 x9 x10 x11) x6))
            x7 x12 x13 x14 x15)
          x3 x16 x17 x18 x19) shapeCasts_S128x1_S128 := by
  unfold val_main_v155
  rw [v154_eq, v133_eq, v114_eq, v101_eq, v66_eq, v47_eq, nrm2_eq, src2_eq, dst2_eq]

end Cert.ReferenceIdeal.Stages

end
-- ==== Proof.ValR0.lean ====
/-
  What the first projection's output array holds after the region, at the exact instance: every one of the ten
  tiles writes back the product of its 5000 rows with the whole right operand, the tiles cover the 50000 rows, and a
  tile's product is the rows' part of the whole product: entry (r, j) is the sum over k of x(r, k) * w(k, j), which is
  what the reference's dot_general computes.
-/
import proofs.«431412_j35321811042312_1_alg».proof.Proof.IdealR0
import proofs.«431412_j35321811042312_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)
open scoped BigOperators

variable (V : (c : Dev nD) → (b : Ref sig .tc) → Buf (Elt Ideal) ((c : Thread nD τ).loc b))

/-- The zero offsets of a whole-block rectangle, as the constant function. -/
theorem mm1_hz : (![0, 0] : Fin 2 → Nat) = fun _ => 0 := funext fun a => by fin_cases a <;> rfl

/-! ## The tile product at an entry -/

/-- The left operand's index at output entry i and contraction index q: row i 0 … -/
theorem mm1_klhs_0 (i : S5000x64.Idx) (q : dot_S5000x5_S5x64_S5000x64_1_0_0_1_n_n.contr.Idx) :
    (dot_S5000x5_S5x64_S5000x64_1_0_0_1_n_n.lhsIdx i q 0).val = (i 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
/-- … column q. -/
theorem mm1_klhs_1 (i : S5000x64.Idx) (q : dot_S5000x5_S5x64_S5000x64_1_0_0_1_n_n.contr.Idx) :
    (dot_S5000x5_S5x64_S5000x64_1_0_0_1_n_n.lhsIdx i q 1).val = (q ⟨0, by decide⟩).val :=
  dot_S5000x5_S5x64_S5000x64_1_0_0_1_n_n.lhsIdx_val_of_single rfl i q
/-- The right operand's index: row q … -/
theorem mm1_krhs_0 (i : S5000x64.Idx) (q : dot_S5000x5_S5x64_S5000x64_1_0_0_1_n_n.contr.Idx) :
    (dot_S5000x5_S5x64_S5000x64_1_0_0_1_n_n.rhsIdx i q 0).val = (q ⟨0, by decide⟩).val :=
  dot_S5000x5_S5x64_S5000x64_1_0_0_1_n_n.rhsIdx_val_of_single rfl i q
/-- … column i 1. -/
theorem mm1_krhs_1 (i : S5000x64.Idx) (q : dot_S5000x5_S5x64_S5000x64_1_0_0_1_n_n.contr.Idx) :
    (dot_S5000x5_S5x64_S5000x64_1_0_0_1_n_n.rhsIdx i q 1).val = (i 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-- Entry (p, k) of the tile's rows, and entry (k, j) of the right operand, for output entry i = (p, j). -/
abbrev mm1_klidx (i : S5000x64.Idx) (k : Fin 5) : S5000x5.Idx := fun a => match a with
  | ⟨0, _⟩ => ⟨(i 0).val, (i 0).isLt⟩
  | ⟨1, _⟩ => ⟨k.val, k.isLt⟩
abbrev mm1_kridx (i : S5000x64.Idx) (k : Fin 5) : S5x64.Idx := fun a => match a with
  | ⟨0, _⟩ => ⟨k.val, k.isLt⟩
  | ⟨1, _⟩ => ⟨(i 1).val, (i 1).isLt⟩

/-- The body's payload at entry (p, j): the sum over k of x(p, k) * w(k, j). -/
theorem mm1_pay_apply (x : Vec Ideal S5000x5 .f32) (w : Vec Ideal S5x64 .f32) (i : S5000x64.Idx) :
    k0_pay1 (F := Ideal) x w i = ∑ k : Fin 5, x (mm1_klidx i k) * w (mm1_kridx i k) := by
  unfold k0_pay1
  simp only [matmul]
  refine (Ideal.matmul_constant_zero_apply dot_S5000x5_S5x64_S5000x64_1_0_0_1_n_n none _ _ i).trans ?_
  rw [← Equiv.sum_comp (ValueIdx.contrEquiv1 dot_S5000x5_S5x64_S5000x64_1_0_0_1_n_n 5 rfl rfl).symm]
  refine Finset.sum_congr rfl fun k _ => ?_
  have hk := ValueIdx.contrEquiv1_symm_val dot_S5000x5_S5x64_S5000x64_1_0_0_1_n_n 5 rfl rfl k
  have el : dot_S5000x5_S5x64_S5000x64_1_0_0_1_n_n.lhsIdx i ((ValueIdx.contrEquiv1 dot_S5000x5_S5x64_S5000x64_1_0_0_1_n_n 5 rfl rfl).symm k) = mm1_klidx i k := funext fun a => Fin.ext (by
    match a with
    | ⟨0, _⟩ => exact mm1_klhs_0 _ _
    | ⟨1, _⟩ => exact (mm1_klhs_1 _ _).trans hk)
  have er : dot_S5000x5_S5x64_S5000x64_1_0_0_1_n_n.rhsIdx i ((ValueIdx.contrEquiv1 dot_S5000x5_S5x64_S5000x64_1_0_0_1_n_n 5 rfl rfl).symm k) = mm1_kridx i k := funext fun a => Fin.ext (by
    match a with
    | ⟨0, _⟩ => exact (mm1_krhs_0 _ _).trans hk
    | ⟨1, _⟩ => exact mm1_krhs_1 _ _)
  rw [el, er]
  rfl

/-! ## Closed form: the output array as the whole product -/

/-- The index maps over the grid: the row windows sit at row block t, the right operand at block (0, 0). -/
theorem mm1_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the operand arrays as the region finds them. -/
theorem mm1_flushed_eq (c : Dev nD) (t : Fin cfg0.N) :
    (dat0 (F := Ideal) V c).flushed 2 t
      = ((cfg0.win 2).blk t).view.read (Elt Ideal) (Cert.ReferenceIdeal.Stages.mm1 (F := Ideal) (V c main_arg0) (V c main_arg4)) := by
  show (cfg0.win 2).cut (grid0.coords t) ((dat0 (F := Ideal) V c).after 2 t) = _
  rw [after0_2]
  unfold out0_2
  rw [View.canon_unit_zero mm1_hz]
  simp only [View.ld_unit_zero (S := S5000x5) mm1_hz, View.ld_unit_zero (S := S5x64) mm1_hz]
  obtain ⟨e0, e1, e2, e3, e4, e5⟩ := mm1_idx_facts t
  funext j
  refine (mm1_pay_apply (iblk0 V c 0 t) (iblk0 V c 1 t) j).trans ?_
  refine Eq.trans ?_ (Cert.ReferenceIdeal.Read.val_main_v34_apply (V c main_arg0) (V c main_arg4) (((cfg0.win 2).blk t).view.emb j)).symm
  refine Finset.sum_congr rfl fun k _ => ?_
  have hj0 : (j 0).val < 5000 := (j 0).isLt
  have hj1 : (j 1).val < 64 := (j 1).isLt
  have h0 : ((cfg0.win 0).blk t).view.emb (mm1_klidx j k)
      = Cert.ReferenceIdeal.Read.lidx_main_v34 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 5 + 1 * k.val = k.val; omega
  have h1 : ((cfg0.win 1).blk t).view.emb (mm1_kridx j k)
      = Cert.ReferenceIdeal.Read.ridx_main_v34 (((cfg0.win 2).blk t).view.emb j) k := by
    funext a; apply Fin.ext
    match a with
    | ⟨0, _⟩ => show win0_1.index t (0 : Fin 2) * 5 + 1 * k.val = k.val; omega
    | ⟨1, _⟩ => show win0_1.index t (1 : Fin 2) * 64 + 1 * (j 1).val = win0_2.index t (1 : Fin 2) * 64 + 1 * (j 1).val; omega
  have a0 : iblk0 V c 0 t (mm1_klidx j k)
      = V c main_arg0 (Cert.ReferenceIdeal.Read.lidx_main_v34 (((cfg0.win 2).blk t).view.emb j) k) :=
    congrArg (V c main_arg0) h0
  have a1 : iblk0 V c 1 t (mm1_kridx j k)
      = V c main_arg4 (Cert.ReferenceIdeal.Read.ridx_main_v34 (((cfg0.win 2).blk t).view.emb j) k) :=
    congrArg (V c main_arg4) h1
  rw [a0, a1]

/-- An index of the array is in point t's block iff each coordinate is in the block's range on its axis. -/
theorem mm1_mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- Every row lies in the block of the point its row index divided by 5000 names. -/
theorem mm1_cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : (i 0).val / 5000 < grid0.N := by rw [N_0]; omega
  obtain ⟨e0, e1, e2, e3, e4, e5⟩ := mm1_idx_facts ⟨(i 0).val / 5000, hN⟩
  refine ⟨⟨(i 0).val / 5000, hN⟩, flush0_2 _, ?_⟩
  rw [mm1_mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 64 ≤ (i 1).val ∧ (i 1).val < win0_2.index ⟨(i 0).val / 5000, hN⟩ (1 : Fin 2) * 64 + 64
    rw [e5]; omega

/-- The output array after the last point is the whole matrix product of the two operand arrays as the region finds them. -/
theorem closed0 (c : Dev nD) :
    (dat0 (F := Ideal) V c).arrAt 2 cfg0.N
      = Cert.ReferenceIdeal.Stages.mm1 (F := Ideal) (V c main_arg0) (V c main_arg4) :=
  (dat0 (F := Ideal) V c).arrAt_eq_of_cover 2 _ (fun t _ => mm1_flushed_eq V c t) (mm1_cover)

end Cert.KernelIdeal.HandValue

end
-- ==== Proof.ValR1.lean ====
/-
  What the first normalisation's output array holds after the region, at the exact instance: every one of the ten
  tiles writes back, row by row, max(((a + bias) - mean) * rsqrt(var + eps) * scale + shift, 0) of its 5000 rows, the
  parameters read from 1 x 64 rows; the tiles cover the 50000 rows; entry by entry this is the reference's chain of
  whole-array operations on the aggregated features and the length-64 parameter vectors.
-/
import proofs.«431412_j35321811042312_1_alg».proof.Proof.IdealR1
import proofs.«431412_j35321811042312_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)

/-- One entry of the normalised and rectified array, from the input's entry and the five parameters' entries of its
    column: max(((a + b) - mean) * rsqrt(var + eps) * scale + shift, 0). -/
def bnPt1 (a b sc sh mn vr : Ideal .f32) : Ideal .f32 :=
  FloatOps.maximumf
    (FloatOps.addf (FloatOps.mulf (FloatOps.mulf (FloatOps.subf (FloatOps.addf a b) mn)
        (FloatOps.rsqrt (FloatOps.addf vr (FloatOps.ofBits .f32 0x3727C5AC#32)))) sc) sh)
    (FloatOps.ofBits .f32 0x00000000#32)

theorem bnPt1_congr {a a' b b' sc sc' sh sh' mn mn' vr vr' : Ideal .f32} (ha : a = a') (hb : b = b') (hsc : sc = sc')
    (hsh : sh = sh') (hmn : mn = mn') (hvr : vr = vr') : bnPt1 a b sc sh mn vr = bnPt1 a' b' sc' sh' mn' vr' := by
  subst ha; subst hb; subst hsc; subst hsh; subst hmn; subst hvr; rfl

/-- A 1 x 64 row broadcast to 5000 rows, read at (r, j), is the row's entry (0, j). -/
theorem bcast1_apply (v : FVec Ideal S1x64 .f32) (j : S5000x64.Idx) (k : S1x64.Idx)
    (hk0 : (k 0).val = 0) (hk1 : (k 1).val = (j 1).val) :
    broadcastTo S5000x64 v broadcasts_S1x64_S5000x64 j = v k :=
  broadcastTo_apply v broadcasts_S1x64_S5000x64 j k (fun a => by
    match a with
    | ⟨0, _⟩ => exact hk0
    | ⟨1, _⟩ => exact hk1)

/-- The body's payload at an entry (r, j) of the tile: the entry's function of the tile's entry and the parameter
    rows' entries (0, j). -/
theorem pay1_apply (x0 : FVec Ideal S5000x64 .f32) (b sc sh mn vr : FVec Ideal S1x64 .f32) (j : S5000x64.Idx) (k : S1x64.Idx)
    (hk0 : (k 0).val = 0) (hk1 : (k 1).val = (j 1).val) :
    k1_pay1 x0 b mn vr sc sh j = bnPt1 (x0 j) (b k) (sc k) (sh k) (mn k) (vr k) := by
  unfold k1_pay1
  simp only [shapeCast_self]
  show FloatOps.maximumf
    (FloatOps.addf (FloatOps.mulf (FloatOps.mulf (FloatOps.subf (FloatOps.addf (x0 j)
        (broadcastTo S5000x64 b broadcasts_S1x64_S5000x64 j)) (broadcastTo S5000x64 mn broadcasts_S1x64_S5000x64 j))
        (broadcastTo S5000x64 (rsqrt (addf vr (broadcast S1x64 (Scalar.ofBits .f32 0x3727C5AC#32)))) broadcasts_S1x64_S5000x64 j))
        (broadcastTo S5000x64 sc broadcasts_S1x64_S5000x64 j)) (broadcastTo S5000x64 sh broadcasts_S1x64_S5000x64 j))
    (FloatOps.ofBits .f32 0x00000000#32) = _
  rw [bcast1_apply b j k hk0 hk1, bcast1_apply mn j k hk0 hk1, bcast1_apply sc j k hk0 hk1, bcast1_apply sh j k hk0 hk1,
    bcast1_apply (rsqrt (addf vr (broadcast S1x64 (Scalar.ofBits .f32 0x3727C5AC#32)))) j k hk0 hk1]
  rfl

/-- A length-64 vector broadcast to a row and then over the 50000 rows, read at (r, j), is the vector's entry j. -/
theorem rowB1_apply (p : FVec Ideal Cert.ReferenceIdeal.S64 .f32) (i : Cert.ReferenceIdeal.S50000x64.Idx)
    (k : Cert.ReferenceIdeal.S64.Idx) (hk : (k 0).val = (i 1).val) :
    Cert.ReferenceIdeal.Stages.rowB p i = p k := by
  refine (broadcastInDim_apply _ Cert.ReferenceIdeal.Gen.bcast_S1x64_S50000x64_0_1 _ i (ValueIdx.ix2 (0 : Fin 1) (i 1)) (fun a => ?_)).trans
    (broadcastInDim_apply _ Cert.ReferenceIdeal.Gen.bcast_S64_S1x64_1 p _ k (fun a => ?_))
  · match a with
    | ⟨0, _⟩ => rfl
    | ⟨1, _⟩ => rfl
  · match a with
    | ⟨0, _⟩ => exact hk

/-- The reference's stage at an entry (r, j): the entry's function of the input's entry and the parameters' entries j. -/
theorem bn1_apply (a : FVec Ideal Cert.ReferenceIdeal.S50000x64 .f32) (b sc sh mn vr : FVec Ideal Cert.ReferenceIdeal.S64 .f32)
    (i : Cert.ReferenceIdeal.S50000x64.Idx) (k : Cert.ReferenceIdeal.S64.Idx) (hk : (k 0).val = (i 1).val) :
    Cert.ReferenceIdeal.Stages.bn a b sc sh mn vr i = bnPt1 (a i) (b k) (sc k) (sh k) (mn k) (vr k) := by
  unfold Cert.ReferenceIdeal.Stages.bn
  show FloatOps.maximumf
    (FloatOps.addf (FloatOps.mulf (FloatOps.mulf (FloatOps.subf (FloatOps.addf (a i)
        (Cert.ReferenceIdeal.Stages.rowB b i)) (Cert.ReferenceIdeal.Stages.rowB mn i))
        (Cert.ReferenceIdeal.Stages.rowB (Host.rsqrt (addf vr (broadcastInDim Cert.ReferenceIdeal.S64 ![] Cert.ReferenceIdeal.Gen.bcast_S_S64
          (constant Cert.ReferenceIdeal.S_ .f32 0x3727C5AC#32)))) i))
        (Cert.ReferenceIdeal.Stages.rowB sc i)) (Cert.ReferenceIdeal.Stages.rowB sh i))
    (FloatOps.ofBits .f32 0x00000000#32) = _
  rw [rowB1_apply b i k hk, rowB1_apply mn i k hk, rowB1_apply sc i k hk, rowB1_apply sh i k hk,
    rowB1_apply (Host.rsqrt (addf vr (broadcastInDim Cert.ReferenceIdeal.S64 ![] Cert.ReferenceIdeal.Gen.bcast_S_S64
          (constant Cert.ReferenceIdeal.S_ .f32 0x3727C5AC#32)))) i k hk]
  rfl

variable (V : (c : Dev nD) → (b : Ref sig .tc) → Buf (Elt Ideal) ((c : Thread nD τ).loc b))

theorem hz1 : (![0, 0] : Fin 2 → Nat) = fun _ => 0 := funext fun a => by fin_cases a <;> rfl

/-- The reference's stage of the arrays as the region finds them: what the output array ends holding. -/
abbrev G1 (c : Dev nD) : Cert.ReferenceIdeal.S50000x64.Idx → Ideal .f32 :=
  Cert.ReferenceIdeal.Stages.bn (F := Ideal) (V c main_v47) (Cert.ReferenceIdeal.Stages.unrow (V c main_v48))
    (Cert.ReferenceIdeal.Stages.unrow (V c main_v49)) (Cert.ReferenceIdeal.Stages.unrow (V c main_v50))
    (Cert.ReferenceIdeal.Stages.unrow (V c main_v51)) (Cert.ReferenceIdeal.Stages.unrow (V c main_v52))

/-- The index maps, decided over the grid: the input rows' block moves with the output's block, the parameter rows'
    block stays at (0, 0), the output's block index is (t, 0) with t below ten. -/
theorem idx_facts1 : ∀ t : Fin cfg1.N, win1_0.index t (0 : Fin 2) = win1_6.index t (0 : Fin 2)
    ∧ win1_0.index t (1 : Fin 2) = win1_6.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every block of rows is some point's. -/
theorem idx_onto1 : ∀ (q0 : Fin 10) (q1 : Fin 1), ∃ t : Fin cfg1.N, win1_6.index t = ![q0.val + 0, q1.val + 0] :=
  (by decide +kernel : ∀ (q0 : Fin 10) (q1 : Fin 1), ∃ t : Fin grid1.N, win1_6.index t = ![q0.val + 0, q1.val + 0])

/-- What point t writes back is block t of the reference's stage of the arrays as the region finds them. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz1]
  simp only [View.ld_unit_zero (S := S5000x64) hz1, View.ld_unit_zero (S := S1x64) hz1]
  obtain ⟨e00, e01, e10, e11, e20, e21, e30, e31, e40, e41, e50, e51, e6, e61⟩ := idx_facts1 t
  funext j
  have hj0 : (j 0).val < 5000 := (j 0).isLt
  have hj1 : (j 1).val < 64 := (j 1).isLt
  refine (pay1_apply (iblk1 V c 0 t) (iblk1 V c 1 t) (iblk1 V c 2 t) (iblk1 V c 3 t) (iblk1 V c 4 t) (iblk1 V c 5 t) _
    (ValueIdx.ix2 (0 : Fin 1) (⟨(j 1).val, hj1⟩ : Fin 64)) rfl rfl).trans ?_
  refine Eq.trans ?_ (bn1_apply (V c main_v47) (Cert.ReferenceIdeal.Stages.unrow (V c main_v48))
    (Cert.ReferenceIdeal.Stages.unrow (V c main_v49)) (Cert.ReferenceIdeal.Stages.unrow (V c main_v50))
    (Cert.ReferenceIdeal.Stages.unrow (V c main_v51)) (Cert.ReferenceIdeal.Stages.unrow (V c main_v52))
    (((cfg1.win 6).blk t).view.emb j) (ValueIdx.ix1 (⟨(j 1).val, hj1⟩ : Fin 64)) ?_).symm
  · refine bnPt1_congr ?_ ?_ ?_ ?_ ?_ ?_
    · show V c main_v47 (((cfg1.win 0).blk t).view.emb j) = V c main_v47 (((cfg1.win 6).blk t).view.emb j)
      refine congrArg (V c main_v47) ?_
      funext a; apply Fin.ext
      match a with
      | ⟨0, _⟩ => show win1_0.index t (0 : Fin 2) * 5000 + 1 * (j 0).val = win1_6.index t (0 : Fin 2) * 5000 + 1 * (j 0).val; omega
      | ⟨1, _⟩ => show win1_0.index t (1 : Fin 2) * 64 + 1 * (j 1).val = win1_6.index t (1 : Fin 2) * 64 + 1 * (j 1).val; omega
    · show V c main_v48 (((cfg1.win 1).blk t).view.emb (ValueIdx.ix2 (0 : Fin 1) (⟨(j 1).val, hj1⟩ : Fin 64)))
        = V c main_v48 (ValueIdx.ix2 (0 : Fin 1) (⟨(j 1).val, hj1⟩ : Fin 64))
      refine congrArg (V c main_v48) ?_
      funext a; apply Fin.ext
      match a with
      | ⟨0, _⟩ => show win1_1.index t (0 : Fin 2) * 1 + 1 * 0 = 0; omega
      | ⟨1, _⟩ => show win1_1.index t (1 : Fin 2) * 64 + 1 * (j 1).val = (j 1).val; omega
    · show V c main_v49 (((cfg1.win 2).blk t).view.emb (ValueIdx.ix2 (0 : Fin 1) (⟨(j 1).val, hj1⟩ : Fin 64)))
        = V c main_v49 (ValueIdx.ix2 (0 : Fin 1) (⟨(j 1).val, hj1⟩ : Fin 64))
      refine congrArg (V c main_v49) ?_
      funext a; apply Fin.ext
      match a with
      | ⟨0, _⟩ => show win1_2.index t (0 : Fin 2) * 1 + 1 * 0 = 0; omega
      | ⟨1, _⟩ => show win1_2.index t (1 : Fin 2) * 64 + 1 * (j 1).val = (j 1).val; omega
    · show V c main_v50 (((cfg1.win 3).blk t).view.emb (ValueIdx.ix2 (0 : Fin 1) (⟨(j 1).val, hj1⟩ : Fin 64)))
        = V c main_v50 (ValueIdx.ix2 (0 : Fin 1) (⟨(j 1).val, hj1⟩ : Fin 64))
      refine congrArg (V c main_v50) ?_
      funext a; apply Fin.ext
      match a with
      | ⟨0, _⟩ => show win1_3.index t (0 : Fin 2) * 1 + 1 * 0 = 0; omega
      | ⟨1, _⟩ => show win1_3.index t (1 : Fin 2) * 64 + 1 * (j 1).val = (j 1).val; omega
    · show V c main_v51 (((cfg1.win 4).blk t).view.emb (ValueIdx.ix2 (0 : Fin 1) (⟨(j 1).val, hj1⟩ : Fin 64)))
        = V c main_v51 (ValueIdx.ix2 (0 : Fin 1) (⟨(j 1).val, hj1⟩ : Fin 64))
      refine congrArg (V c main_v51) ?_
      funext a; apply Fin.ext
      match a with
      | ⟨0, _⟩ => show win1_4.index t (0 : Fin 2) * 1 + 1 * 0 = 0; omega
      | ⟨1, _⟩ => show win1_4.index t (1 : Fin 2) * 64 + 1 * (j 1).val = (j 1).val; omega
    · show V c main_v52 (((cfg1.win 5).blk t).view.emb (ValueIdx.ix2 (0 : Fin 1) (⟨(j 1).val, hj1⟩ : Fin 64)))
        = V c main_v52 (ValueIdx.ix2 (0 : Fin 1) (⟨(j 1).val, hj1⟩ : Fin 64))
      refine congrArg (V c main_v52) ?_
      funext a; apply Fin.ext
      match a with
      | ⟨0, _⟩ => show win1_5.index t (0 : Fin 2) * 1 + 1 * 0 = 0; omega
      | ⟨1, _⟩ => show win1_5.index t (1 : Fin 2) * 64 + 1 * (j 1).val = (j 1).val; omega
  · show (j 1).val = win1_6.index t (1 : Fin 2) * 64 + 1 * (j 1).val
    omega

/-- An index of the array is in point t's block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v53).slice (win1_6.rect t)).set ↔ _
  rw [View.set_slice_whole, Rect.mem_set_unit]
  exact Iff.rfl

/-- The ten blocks of 5000 rows cover the 50000 rows: row r is in block r / 5000. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := idx_onto1 ⟨(i 0).val / 5000, by omega⟩ ⟨(i 1).val / 64, by omega⟩
  have q0 : win1_6.index t (0 : Fin 2) = (i 0).val / 5000 + 0 := congrFun ht 0
  have q1 : win1_6.index t (1 : Fin 2) = (i 1).val / 64 + 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

open Cert.ReferenceIdeal.Stages (unrow) in
/-- The output array after the last point is the reference's normalisation stage of the input array and the five
    parameter rows (bias, scale, shift, mean, variance) as the region finds them. -/
theorem closed1 (c : Dev nD) :
    (dat1 (F := Ideal) V c).arrAt 6 cfg1.N
      = Cert.ReferenceIdeal.Stages.bn (F := Ideal) (V c main_v47) (unrow (V c main_v48)) (unrow (V c main_v49))
          (unrow (V c main_v50)) (unrow (V c main_v51)) (unrow (V c main_v52)) := by
  exact (dat1 (F := Ideal) V c).arrAt_eq_of_cover 6 (G1 V c) (fun t _ => flushed1_eq V c t) (fun i => cover1 i)

end Cert.KernelIdeal.HandValue

end
-- ==== Proof.ValR2.lean ====
/-
  What the second projection's output array holds after the region, at the exact instance: every one of the ten
  tiles writes back the product of its 5000 rows with the whole right operand, the tiles cover the 50000 rows, and a
  tile's product is the rows' part of the whole product: entry (r, j) is the sum over k of h(r, k) * w(k, j), which is
  what the reference's dot_general computes.
-/
import proofs.«431412_j35321811042312_1_alg».proof.Proof.IdealR2
import proofs.«431412_j35321811042312_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)
open scoped BigOperators

variable (V : (c : Dev nD) → (b : Ref sig .tc) → Buf (Elt Ideal) ((c : Thread nD τ).loc b))

/-- The zero offsets of a whole-block rectangle, as the constant function. -/
theorem mm2_hz : (![0, 0] : Fin 2 → Nat) = fun _ => 0 := funext fun a => by fin_cases a <;> rfl

/-! ## The tile product at an entry -/

/-- The left operand's index at output entry i and contraction index q: row i 0 … -/
theorem mm2_klhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … column q. -/
theorem mm2_klhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: row q … -/
theorem mm2_krhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … column i 1. -/
theorem mm2_krhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, k) of the tile's rows, and entry (k, j) of the right operand, for output entry i = (p, j). -/
abbrev mm2_klidx (i : S5000x64.Idx) (k : Fin 64) : S5000x64.Idx := fun a => match a with
  | ⟨0, _⟩ => ⟨(i 0).val, (i 0).isLt⟩
  | ⟨1, _⟩ => ⟨k.val, k.isLt⟩
abbrev mm2_kridx (i : S5000x64.Idx) (k : Fin 64) : S64x64.Idx := fun a => match a with
  | ⟨0, _⟩ => ⟨k.val, k.isLt⟩
  | ⟨1, _⟩ => ⟨(i 1).val, (i 1).isLt⟩

/-- The body's payload at entry (p, j): the sum over k of h(p, k) * w(k, j); the cast of the rows to their own shape
    changes nothing. -/
theorem mm2_pay_apply (x : Vec Ideal S5000x64 .f32) (w : Vec Ideal S64x64 .f32) (i : S5000x64.Idx) :
    k2_pay1 (F := Ideal) x w i = ∑ k : Fin 64, x (mm2_klidx i k) * w (mm2_kridx i k) := by
  unfold k2_pay1
  simp only [matmul]
  refine (Ideal.matmul_constant_zero_apply dot_S5000x64_S64x64_S5000x64_1_0_0_1_n_n none _ _ i).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = mm2_klidx i k := funext fun a => Fin.ext (by
    match a with
    | ⟨0, _⟩ => exact mm2_klhs_0 _ _
    | ⟨1, _⟩ => exact (mm2_klhs_1 _ _).trans hk)
  have er : dot_S5000x64_S64x64_S5000x64_1_0_0_1_n_n.rhsIdx i ((ValueIdx.contrEquiv1 dot_S5000x64_S64x64_S5000x64_1_0_0_1_n_n 64 rfl rfl).symm k) = mm2_kridx i k := funext fun a => Fin.ext (by
    match a with
    | ⟨0, _⟩ => exact (mm2_krhs_0 _ _).trans hk
    | ⟨1, _⟩ => exact mm2_krhs_1 _ _)
  rw [el, er, shapeCast_self]
  rfl

/-- The reference's product at entry (r, j): the sum over k of h(r, k) * w(k, j). -/
theorem mm2_ref_apply (x : FVec Ideal S50000x64 .f32) (w : FVec Ideal S64x64 .f32) (i : S50000x64.Idx) :
    Cert.ReferenceIdeal.Stages.mm2 (F := Ideal) x w i
      = ∑ k : Fin 64, x (Cert.ReferenceIdeal.Read.lidx_main_v101 i k) * w (Cert.ReferenceIdeal.Read.ridx_main_v101 i k) := by
  unfold Cert.ReferenceIdeal.Stages.mm2
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : (Cert.ReferenceIdeal.dot_S50000x64_S64x64_S50000x64_1_0_0_1_n_n).lhsIdx i ((ValueIdx.contrEquiv1 Cert.ReferenceIdeal.dot_S50000x64_S64x64_S50000x64_1_0_0_1_n_n 64 rfl rfl).symm k) = Cert.ReferenceIdeal.Read.lidx_main_v101 i k := funext fun a => Fin.ext (by
    match a with
    | ⟨0, _⟩ => exact Cert.ReferenceIdeal.Read.lhs_main_v101_0 _ _
    | ⟨1, _⟩ => exact (Cert.ReferenceIdeal.Read.lhs_main_v101_1 _ _).trans hk)
  have er : (Cert.ReferenceIdeal.dot_S50000x64_S64x64_S50000x64_1_0_0_1_n_n).rhsIdx i ((ValueIdx.contrEquiv1 Cert.ReferenceIdeal.dot_S50000x64_S64x64_S50000x64_1_0_0_1_n_n 64 rfl rfl).symm k) = Cert.ReferenceIdeal.Read.ridx_main_v101 i k := funext fun a => Fin.ext (by
    match a with
    | ⟨0, _⟩ => exact (Cert.ReferenceIdeal.Read.rhs_main_v101_0 _ _).trans hk
    | ⟨1, _⟩ => exact Cert.ReferenceIdeal.Read.rhs_main_v101_1 _ _)
  rw [el, er]

/-! ## Closed form: the output array as the whole product -/

/-- The index maps over the grid: the row windows sit at row block t, the right operand at block (0, 0). -/
theorem mm2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the operand arrays as the region finds them. -/
theorem mm2_flushed_eq (c : Dev nD) (t : Fin cfg2.N) :
    (dat2 (F := Ideal) V c).flushed 2 t
      = ((cfg2.win 2).blk t).view.read (Elt Ideal) (Cert.ReferenceIdeal.Stages.mm2 (F := Ideal) (V c main_v53) (V c main_arg6)) := by
  show (cfg2.win 2).cut (grid2.coords t) ((dat2 (F := Ideal) V c).after 2 t) = _
  rw [after2_2]
  unfold out2_2
  rw [View.canon_unit_zero mm2_hz]
  simp only [View.ld_unit_zero (S := S5000x64) mm2_hz, View.ld_unit_zero (S := S64x64) mm2_hz]
  obtain ⟨e0, e1, e2, e3, e4, e5⟩ := mm2_idx_facts t
  funext j
  refine (mm2_pay_apply (iblk2 V c 0 t) (iblk2 V c 1 t) j).trans ?_
  refine Eq.trans ?_ (mm2_ref_apply (V c main_v53) (V c main_arg6) (((cfg2.win 2).blk t).view.emb j)).symm
  refine Finset.sum_congr rfl fun k _ => ?_
  have hj0 : (j 0).val < 5000 := (j 0).isLt
  have hj1 : (j 1).val < 64 := (j 1).isLt
  have h0 : ((cfg2.win 0).blk t).view.emb (mm2_klidx j k)
      = Cert.ReferenceIdeal.Read.lidx_main_v101 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (mm2_kridx j k)
      = Cert.ReferenceIdeal.Read.ridx_main_v101 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have a0 : iblk2 V c 0 t (mm2_klidx j k)
      = V c main_v53 (Cert.ReferenceIdeal.Read.lidx_main_v101 (((cfg2.win 2).blk t).view.emb j) k) :=
    congrArg (V c main_v53) h0
  have a1 : iblk2 V c 1 t (mm2_kridx j k)
      = V c main_arg6 (Cert.ReferenceIdeal.Read.ridx_main_v101 (((cfg2.win 2).blk t).view.emb j) k) :=
    congrArg (V c main_arg6) h1
  rw [a0, a1]

/-- An index of the array is in point t's block iff each coordinate is in the block's range on its axis. -/
theorem mm2_mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v54).slice (win2_2.rect t)).set ↔ _
  rw [View.set_slice_whole, Rect.mem_set_unit]
  exact Iff.rfl

/-- Every row lies in the block of the point its row index divided by 5000 names. -/
theorem mm2_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : (i 0).val / 5000 < grid2.N := by rw [N_2]; omega
  obtain ⟨e0, e1, e2, e3, e4, e5⟩ := mm2_idx_facts ⟨(i 0).val / 5000, hN⟩
  refine ⟨⟨(i 0).val / 5000, hN⟩, flush2_2 _, ?_⟩
  rw [mm2_mem_blk]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 64 ≤ (i 1).val ∧ (i 1).val < win2_2.index ⟨(i 0).val / 5000, hN⟩ (1 : Fin 2) * 64 + 64
    rw [e5]; omega

/-- The output array after the last point is the whole matrix product of the two operand arrays as the region finds them. -/
theorem closed2 (c : Dev nD) :
    (dat2 (F := Ideal) V c).arrAt 2 cfg2.N
      = Cert.ReferenceIdeal.Stages.mm2 (F := Ideal) (V c main_v53) (V c main_arg6) :=
  (dat2 (F := Ideal) V c).arrAt_eq_of_cover 2 _ (fun t _ => mm2_flushed_eq V c t) (mm2_cover)

end Cert.KernelIdeal.HandValue

end
-- ==== Proof.ValR3.lean ====
/-
  What the second normalisation's output array holds after the region, at the exact instance: every one of the ten
  tiles writes back, row by row, max(((a + bias) - mean) * rsqrt(var + eps) * scale + shift, 0) of its 5000 rows, the
  parameters read from 1 x 64 rows; the tiles cover the 50000 rows; entry by entry this is the reference's chain of
  whole-array operations on the aggregated features and the length-64 parameter vectors.
-/
import proofs.«431412_j35321811042312_1_alg».proof.Proof.IdealR3
import proofs.«431412_j35321811042312_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)

/-- One entry of the normalised and rectified array, from the input's entry and the five parameters' entries of its
    column: max(((a + b) - mean) * rsqrt(var + eps) * scale + shift, 0). -/
def bnPt3 (a b sc sh mn vr : Ideal .f32) : Ideal .f32 :=
  FloatOps.maximumf
    (FloatOps.addf (FloatOps.mulf (FloatOps.mulf (FloatOps.subf (FloatOps.addf a b) mn)
        (FloatOps.rsqrt (FloatOps.addf vr (FloatOps.ofBits .f32 0x3727C5AC#32)))) sc) sh)
    (FloatOps.ofBits .f32 0x00000000#32)

theorem bnPt3_congr {a a' b b' sc sc' sh sh' mn mn' vr vr' : Ideal .f32} (ha : a = a') (hb : b = b') (hsc : sc = sc')
    (hsh : sh = sh') (hmn : mn = mn') (hvr : vr = vr') : bnPt3 a b sc sh mn vr = bnPt3 a' b' sc' sh' mn' vr' := by
  subst ha; subst hb; subst hsc; subst hsh; subst hmn; subst hvr; rfl

/-- A 1 x 64 row broadcast to 5000 rows, read at (r, j), is the row's entry (0, j). -/
theorem bcast3_apply (v : FVec Ideal S1x64 .f32) (j : S5000x64.Idx) (k : S1x64.Idx)
    (hk0 : (k 0).val = 0) (hk1 : (k 1).val = (j 1).val) :
    broadcastTo S5000x64 v broadcasts_S1x64_S5000x64 j = v k :=
  broadcastTo_apply v broadcasts_S1x64_S5000x64 j k (fun a => by
    match a with
    | ⟨0, _⟩ => exact hk0
    | ⟨1, _⟩ => exact hk1)

/-- The body's payload at an entry (r, j) of the tile: the entry's function of the tile's entry and the parameter
    rows' entries (0, j). -/
theorem pay3_apply (x0 : FVec Ideal S5000x64 .f32) (b sc sh mn vr : FVec Ideal S1x64 .f32) (j : S5000x64.Idx) (k : S1x64.Idx)
    (hk0 : (k 0).val = 0) (hk1 : (k 1).val = (j 1).val) :
    k3_pay1 x0 b mn vr sc sh j = bnPt3 (x0 j) (b k) (sc k) (sh k) (mn k) (vr k) := by
  unfold k3_pay1
  simp only [shapeCast_self]
  show FloatOps.maximumf
    (FloatOps.addf (FloatOps.mulf (FloatOps.mulf (FloatOps.subf (FloatOps.addf (x0 j)
        (broadcastTo S5000x64 b broadcasts_S1x64_S5000x64 j)) (broadcastTo S5000x64 mn broadcasts_S1x64_S5000x64 j))
        (broadcastTo S5000x64 (rsqrt (addf vr (broadcast S1x64 (Scalar.ofBits .f32 0x3727C5AC#32)))) broadcasts_S1x64_S5000x64 j))
        (broadcastTo S5000x64 sc broadcasts_S1x64_S5000x64 j)) (broadcastTo S5000x64 sh broadcasts_S1x64_S5000x64 j))
    (FloatOps.ofBits .f32 0x00000000#32) = _
  rw [bcast3_apply b j k hk0 hk1, bcast3_apply mn j k hk0 hk1, bcast3_apply sc j k hk0 hk1, bcast3_apply sh j k hk0 hk1,
    bcast3_apply (rsqrt (addf vr (broadcast S1x64 (Scalar.ofBits .f32 0x3727C5AC#32)))) j k hk0 hk1]
  rfl

/-- A length-64 vector broadcast to a row and then over the 50000 rows, read at (r, j), is the vector's entry j. -/
theorem rowB3_apply (p : FVec Ideal Cert.ReferenceIdeal.S64 .f32) (i : Cert.ReferenceIdeal.S50000x64.Idx)
    (k : Cert.ReferenceIdeal.S64.Idx) (hk : (k 0).val = (i 1).val) :
    Cert.ReferenceIdeal.Stages.rowB p i = p k := by
  refine (broadcastInDim_apply _ Cert.ReferenceIdeal.Gen.bcast_S1x64_S50000x64_0_1 _ i (ValueIdx.ix2 (0 : Fin 1) (i 1)) (fun a => ?_)).trans
    (broadcastInDim_apply _ Cert.ReferenceIdeal.Gen.bcast_S64_S1x64_1 p _ k (fun a => ?_))
  · match a with
    | ⟨0, _⟩ => rfl
    | ⟨1, _⟩ => rfl
  · match a with
    | ⟨0, _⟩ => exact hk

/-- The reference's stage at an entry (r, j): the entry's function of the input's entry and the parameters' entries j. -/
theorem bn3_apply (a : FVec Ideal Cert.ReferenceIdeal.S50000x64 .f32) (b sc sh mn vr : FVec Ideal Cert.ReferenceIdeal.S64 .f32)
    (i : Cert.ReferenceIdeal.S50000x64.Idx) (k : Cert.ReferenceIdeal.S64.Idx) (hk : (k 0).val = (i 1).val) :
    Cert.ReferenceIdeal.Stages.bn a b sc sh mn vr i = bnPt3 (a i) (b k) (sc k) (sh k) (mn k) (vr k) := by
  unfold Cert.ReferenceIdeal.Stages.bn
  show FloatOps.maximumf
    (FloatOps.addf (FloatOps.mulf (FloatOps.mulf (FloatOps.subf (FloatOps.addf (a i)
        (Cert.ReferenceIdeal.Stages.rowB b i)) (Cert.ReferenceIdeal.Stages.rowB mn i))
        (Cert.ReferenceIdeal.Stages.rowB (Host.rsqrt (addf vr (broadcastInDim Cert.ReferenceIdeal.S64 ![] Cert.ReferenceIdeal.Gen.bcast_S_S64
          (constant Cert.ReferenceIdeal.S_ .f32 0x3727C5AC#32)))) i))
        (Cert.ReferenceIdeal.Stages.rowB sc i)) (Cert.ReferenceIdeal.Stages.rowB sh i))
    (FloatOps.ofBits .f32 0x00000000#32) = _
  rw [rowB3_apply b i k hk, rowB3_apply mn i k hk, rowB3_apply sc i k hk, rowB3_apply sh i k hk,
    rowB3_apply (Host.rsqrt (addf vr (broadcastInDim Cert.ReferenceIdeal.S64 ![] Cert.ReferenceIdeal.Gen.bcast_S_S64
          (constant Cert.ReferenceIdeal.S_ .f32 0x3727C5AC#32)))) i k hk]
  rfl

variable (V : (c : Dev nD) → (b : Ref sig .tc) → Buf (Elt Ideal) ((c : Thread nD τ).loc b))

theorem hz3 : (![0, 0] : Fin 2 → Nat) = fun _ => 0 := funext fun a => by fin_cases a <;> rfl

/-- The reference's stage of the arrays as the region finds them: what the output array ends holding. -/
abbrev G3 (c : Dev nD) : Cert.ReferenceIdeal.S50000x64.Idx → Ideal .f32 :=
  Cert.ReferenceIdeal.Stages.bn (F := Ideal) (V c main_v67) (Cert.ReferenceIdeal.Stages.unrow (V c main_v68))
    (Cert.ReferenceIdeal.Stages.unrow (V c main_v69)) (Cert.ReferenceIdeal.Stages.unrow (V c main_v70))
    (Cert.ReferenceIdeal.Stages.unrow (V c main_v71)) (Cert.ReferenceIdeal.Stages.unrow (V c main_v72))

/-- The index maps, decided over the grid: the input rows' block moves with the output's block, the parameter rows'
    block stays at (0, 0), the output's block index is (t, 0) with t below ten. -/
theorem idx_facts3 : ∀ t : Fin cfg3.N, win3_0.index t (0 : Fin 2) = win3_6.index t (0 : Fin 2)
    ∧ win3_0.index t (1 : Fin 2) = win3_6.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 9 ∧ win3_6.index t (1 : Fin 2) = 0 :=
  (by decide +kernel : ∀ t : Fin grid3.N, _)

/-- Every block of rows is some point's. -/
theorem idx_onto3 : ∀ (q0 : Fin 10) (q1 : Fin 1), ∃ t : Fin cfg3.N, win3_6.index t = ![q0.val + 0, q1.val + 0] :=
  (by decide +kernel : ∀ (q0 : Fin 10) (q1 : Fin 1), ∃ t : Fin grid3.N, win3_6.index t = ![q0.val + 0, q1.val + 0])

/-- What point t writes back is block t of the reference's stage of the arrays as the region finds them. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz3]
  simp only [View.ld_unit_zero (S := S5000x64) hz3, View.ld_unit_zero (S := S1x64) hz3]
  obtain ⟨e00, e01, e10, e11, e20, e21, e30, e31, e40, e41, e50, e51, e6, e61⟩ := idx_facts3 t
  funext j
  have hj0 : (j 0).val < 5000 := (j 0).isLt
  have hj1 : (j 1).val < 64 := (j 1).isLt
  refine (pay3_apply (iblk3 V c 0 t) (iblk3 V c 1 t) (iblk3 V c 2 t) (iblk3 V c 3 t) (iblk3 V c 4 t) (iblk3 V c 5 t) _
    (ValueIdx.ix2 (0 : Fin 1) (⟨(j 1).val, hj1⟩ : Fin 64)) rfl rfl).trans ?_
  refine Eq.trans ?_ (bn3_apply (V c main_v67) (Cert.ReferenceIdeal.Stages.unrow (V c main_v68))
    (Cert.ReferenceIdeal.Stages.unrow (V c main_v69)) (Cert.ReferenceIdeal.Stages.unrow (V c main_v70))
    (Cert.ReferenceIdeal.Stages.unrow (V c main_v71)) (Cert.ReferenceIdeal.Stages.unrow (V c main_v72))
    (((cfg3.win 6).blk t).view.emb j) (ValueIdx.ix1 (⟨(j 1).val, hj1⟩ : Fin 64)) ?_).symm
  · refine bnPt3_congr ?_ ?_ ?_ ?_ ?_ ?_
    · show V c main_v67 (((cfg3.win 0).blk t).view.emb j) = V c main_v67 (((cfg3.win 6).blk t).view.emb j)
      refine congrArg (V c main_v67) ?_
      funext a; apply Fin.ext
      match a with
      | ⟨0, _⟩ => show win3_0.index t (0 : Fin 2) * 5000 + 1 * (j 0).val = win3_6.index t (0 : Fin 2) * 5000 + 1 * (j 0).val; omega
      | ⟨1, _⟩ => show win3_0.index t (1 : Fin 2) * 64 + 1 * (j 1).val = win3_6.index t (1 : Fin 2) * 64 + 1 * (j 1).val; omega
    · show V c main_v68 (((cfg3.win 1).blk t).view.emb (ValueIdx.ix2 (0 : Fin 1) (⟨(j 1).val, hj1⟩ : Fin 64)))
        = V c main_v68 (ValueIdx.ix2 (0 : Fin 1) (⟨(j 1).val, hj1⟩ : Fin 64))
      refine congrArg (V c main_v68) ?_
      funext a; apply Fin.ext
      match a with
      | ⟨0, _⟩ => show win3_1.index t (0 : Fin 2) * 1 + 1 * 0 = 0; omega
      | ⟨1, _⟩ => show win3_1.index t (1 : Fin 2) * 64 + 1 * (j 1).val = (j 1).val; omega
    · show V c main_v69 (((cfg3.win 2).blk t).view.emb (ValueIdx.ix2 (0 : Fin 1) (⟨(j 1).val, hj1⟩ : Fin 64)))
        = V c main_v69 (ValueIdx.ix2 (0 : Fin 1) (⟨(j 1).val, hj1⟩ : Fin 64))
      refine congrArg (V c main_v69) ?_
      funext a; apply Fin.ext
      match a with
      | ⟨0, _⟩ => show win3_2.index t (0 : Fin 2) * 1 + 1 * 0 = 0; omega
      | ⟨1, _⟩ => show win3_2.index t (1 : Fin 2) * 64 + 1 * (j 1).val = (j 1).val; omega
    · show V c main_v70 (((cfg3.win 3).blk t).view.emb (ValueIdx.ix2 (0 : Fin 1) (⟨(j 1).val, hj1⟩ : Fin 64)))
        = V c main_v70 (ValueIdx.ix2 (0 : Fin 1) (⟨(j 1).val, hj1⟩ : Fin 64))
      refine congrArg (V c main_v70) ?_
      funext a; apply Fin.ext
      match a with
      | ⟨0, _⟩ => show win3_3.index t (0 : Fin 2) * 1 + 1 * 0 = 0; omega
      | ⟨1, _⟩ => show win3_3.index t (1 : Fin 2) * 64 + 1 * (j 1).val = (j 1).val; omega
    · show V c main_v71 (((cfg3.win 4).blk t).view.emb (ValueIdx.ix2 (0 : Fin 1) (⟨(j 1).val, hj1⟩ : Fin 64)))
        = V c main_v71 (ValueIdx.ix2 (0 : Fin 1) (⟨(j 1).val, hj1⟩ : Fin 64))
      refine congrArg (V c main_v71) ?_
      funext a; apply Fin.ext
      match a with
      | ⟨0, _⟩ => show win3_4.index t (0 : Fin 2) * 1 + 1 * 0 = 0; omega
      | ⟨1, _⟩ => show win3_4.index t (1 : Fin 2) * 64 + 1 * (j 1).val = (j 1).val; omega
    · show V c main_v72 (((cfg3.win 5).blk t).view.emb (ValueIdx.ix2 (0 : Fin 1) (⟨(j 1).val, hj1⟩ : Fin 64)))
        = V c main_v72 (ValueIdx.ix2 (0 : Fin 1) (⟨(j 1).val, hj1⟩ : Fin 64))
      refine congrArg (V c main_v72) ?_
      funext a; apply Fin.ext
      match a with
      | ⟨0, _⟩ => show win3_5.index t (0 : Fin 2) * 1 + 1 * 0 = 0; omega
      | ⟨1, _⟩ => show win3_5.index t (1 : Fin 2) * 64 + 1 * (j 1).val = (j 1).val; omega
  · show (j 1).val = win3_6.index t (1 : Fin 2) * 64 + 1 * (j 1).val
    omega

/-- An index of the array is in point t's block iff each coordinate is in the block's range on its axis. -/
theorem mem_blk3 (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v73).slice (win3_6.rect t)).set ↔ _
  rw [View.set_slice_whole, Rect.mem_set_unit]
  exact Iff.rfl

/-- The ten blocks of 5000 rows cover the 50000 rows: row r is in block r / 5000. -/
theorem cover3 (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ := idx_onto3 ⟨(i 0).val / 5000, by omega⟩ ⟨(i 1).val / 64, by omega⟩
  have q0 : win3_6.index t (0 : Fin 2) = (i 0).val / 5000 + 0 := congrFun ht 0
  have q1 : win3_6.index t (1 : Fin 2) = (i 1).val / 64 + 0 := congrFun ht 1
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

open Cert.ReferenceIdeal.Stages (unrow) in
/-- The output array after the last point is the reference's normalisation stage of the input array and the five
    parameter rows (bias, scale, shift, mean, variance) as the region finds them. -/
theorem closed3 (c : Dev nD) :
    (dat3 (F := Ideal) V c).arrAt 6 cfg3.N
      = Cert.ReferenceIdeal.Stages.bn (F := Ideal) (V c main_v67) (unrow (V c main_v68)) (unrow (V c main_v69))
          (unrow (V c main_v70)) (unrow (V c main_v71)) (unrow (V c main_v72)) := by
  exact (dat3 (F := Ideal) V c).arrAt_eq_of_cover 6 (G3 V c) (fun t _ => flushed3_eq V c t) (fun i => cover3 i)

end Cert.KernelIdeal.HandValue

end
-- ==== Proof.ValR4d.lean ====
/-
  The reference's two segment sums over the graphs of the batch, named: the per-graph sums of the feature rows and the
  per-graph row counts, each a scatter-add into zeros at the graph ids.
-/
import proofs.«431412_j35321811042312_1_alg».proof.Proof.RefStages
import Idealize.ShloMosaic.PureOps.Ideal.Laws

noncomputable section

namespace Cert.KernelIdeal.HandValue

open Idealize.ShloMosaic Idealize.ShloMosaic.TcCoe

/-- The reference's per-graph sums of the rows of h: zeros, plus row r of h added into row batch(r). -/
def refS4 (h : FVec Ideal Cert.ReferenceIdeal.S50000x64 .f32) (b : IVec Cert.ReferenceIdeal.S50000 32) :
    FVec Ideal Cert.ReferenceIdeal.S128x64 .f32 :=
  Host.scatterAdd Cert.ReferenceIdeal.scatter_S128x64_S50000x1_S50000x64_1_0_0_1
    (broadcastInDim Cert.ReferenceIdeal.S128x64 ![] Cert.ReferenceIdeal.Gen.bcast_S_S128x64 (constant Cert.ReferenceIdeal.S_ .f32 0x00000000#32))
    (broadcastInDim Cert.ReferenceIdeal.S50000x1 ![0] Cert.ReferenceIdeal.Gen.bcast_S50000_S50000x1_0 b) h

/-- The reference's per-graph row counts: zeros, plus one added into entry batch(r) for every row r. -/
def refC4 (b : IVec Cert.ReferenceIdeal.S50000 32) : FVec Ideal Cert.ReferenceIdeal.S128 .f32 :=
  Host.scatterAdd Cert.ReferenceIdeal.scatter_S128_S50000x1_S50000_n_0_0_1
    (broadcastInDim Cert.ReferenceIdeal.S128 ![] Cert.ReferenceIdeal.Gen.bcast_S_S128 (constant Cert.ReferenceIdeal.S_ .f32 0x00000000#32))
    (broadcastInDim Cert.ReferenceIdeal.S50000x1 ![0] Cert.ReferenceIdeal.Gen.bcast_S50000_S50000x1_0 b)
    (broadcastInDim Cert.ReferenceIdeal.S50000 ![] Cert.ReferenceIdeal.Gen.bcast_S_S50000 (constant Cert.ReferenceIdeal.S_ .f32 0x3F800000#32))

end Cert.KernelIdeal.HandValue

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.ValR4a.lean ====
/-
  One point's update of the pooling region's two tables, read at an index, and the reference's two segment sums read
  at an index. The one-hot compare of a tile's graph ids against the column numbers 0..127 is, as floats, one where the
  row's graph id (a 32-bit word read signed) is the column and zero elsewhere; the tile's matrix product adds to entry
  (g, j) of the sums table the rows of the tile whose id is g, in column j; the column sums add their number to the
  counts table. Rows below 5000 n selected by a predicate sum tile by tile to the sum over all selected rows, which is
  what the reference's scatter-add into zeros holds (an id outside 0..127 selects no entry on either side).
-/
import proofs.«431412_j35321811042312_1_alg».proof.Proof.IdealR4
import proofs.«431412_j35321811042312_1_alg».proof.Proof.RefStages
import proofs.«431412_j35321811042312_1_alg».proof.Proof.ValR4d
import proofs.«431412_j35321811042312_1_alg».proof.Proof.LibGS
import Idealize.ShloMosaic.Lib.Pipeline.Value
import Idealize.ShloMosaic.Lib.ValueIdx
import Idealize.ShloMosaic.Lib.ValueLayout
import Idealize.ShloMosaic.Lib.IdealHost
import Idealize.ShloMosaic.Lib.FinSumWindow
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx (ix1 ix2)
open scoped BigOperators

/-- A 32-bit word is the word of a small natural exactly when, read signed, it is that natural. -/
theorem word_eq_ofNat_iff (x : BitVec 32) (g : Nat) (hg : g < 128) : x = BitVec.ofNat 32 g ↔ x.toInt = (g : ℤ) := by
  have hv : (BitVec.ofNat 32 g).toInt = (g : ℤ) := by
    rw [BitVec.toInt_ofNat']
    have h1 : ((g : ℤ)) % (2 ^ 32 : ℕ) = g := by omega
    have h2 : (g : ℤ) < (((2 ^ 32 : ℕ) : ℤ) + 1) / 2 := by omega
    unfold Int.bmod
    rw [h1]
    exact if_pos h2
  constructor
  · rintro rfl; exact hv
  · intro h; exact BitVec.eq_of_toInt_eq (h.trans hv.symm)

/-- The one-hot compare at (r, g): the bit of "the graph id of row r is g". -/
theorem k4pay3_apply (bb : Vec Ideal S5000x1 .i32) (r : Fin 5000) (g : Fin 128) :
    k4_pay3 (F := Ideal) bb (ix2 r g) = BitVec.ofBool (decide ((bb (ix2 r 0)).toInt = (g.val : ℤ))) := by
  unfold k4_pay3
  show IntOp.cmpi .eq (broadcastTo S5000x128 (shapeCast S5000x1 bb shapeCasts_S5000x1_S5000x1) broadcasts_S5000x1_S5000x128 (ix2 r g))
      (iota .tc S5000x128 32 [1] iota_S5000x128_d1_w32 (ix2 r g)) = _
  rw [iota_single_apply, shapeCast_self,
    broadcastTo_apply bb broadcasts_S5000x1_S5000x128 (ix2 r g) (ix2 r 0) (fun a => by
      match a with
      | ⟨0, _⟩ => rfl
      | ⟨1, _⟩ => rfl)]
  show BitVec.ofBool (bb (ix2 r 0) == BitVec.ofNat 32 g.val) = _
  congr 1
  rw [Bool.eq_iff_iff, beq_iff_eq, decide_eq_true_iff]
  exact word_eq_ofNat_iff _ _ g.isLt

/-- The one-hot matrix as floats at (r, g): one when the graph id of row r is g, zero otherwise. -/
theorem onehot_apply (bb : Vec Ideal S5000x1 .i32) (r : Fin 5000) (g : Fin 128) :
    (sitofp .f32 (extui 32 (k4_pay3 (F := Ideal) bb) natLt_1_32) : FVec Ideal S5000x128 .f32) (ix2 r g)
      = if (bb (ix2 r 0)).toInt = (g.val : ℤ) then (1 : EReal) else 0 := by
  show FloatOps.sitofp (F := Ideal) .f32 ((k4_pay3 (F := Ideal) bb (ix2 r g)).setWidth 32) = _
  rw [k4pay3_apply]
  by_cases h : (bb (ix2 r 0)).toInt = (g.val : ℤ)
  · rw [if_pos h, decide_eq_true h]
    show (((BitVec.setWidth 32 (BitVec.ofBool true)).toInt : ℝ) : EReal) = 1
    have : (BitVec.setWidth 32 (BitVec.ofBool true)).toInt = 1 := by decide
    rw [this]; norm_num
  · rw [if_neg h, decide_eq_false h]
    show (((BitVec.setWidth 32 (BitVec.ofBool false)).toInt : ℝ) : EReal) = 0
    have : (BitVec.setWidth 32 (BitVec.ofBool false)).toInt = 0 := by decide
    rw [this]; norm_num

/-! The tile's matrix product: the one-hot matrix, transposed, times the tile's rows. -/

theorem tile_lhs_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem tile_lhs_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
theorem tile_rhs_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem tile_rhs_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- One point's update of the sums table at (g, j): what the table held plus the rows of the tile whose graph id is g,
    summed in column j. -/
theorem pay4_apply (hb : Vec Ideal S5000x64 .f32) (bb : Vec Ideal S5000x1 .i32) (s : Vec Ideal S128x64 .f32) (g : Fin 128) (j : Fin 64) :
    k4_pay4 (F := Ideal) hb bb s (ix2 g j)
      = s (ix2 g j) + ∑ r : Fin 5000, (if (bb (ix2 r 0)).toInt = (g.val : ℤ) then (1 : EReal) else 0) * hb (ix2 r j) := by
  unfold k4_pay4
  rw [shapeCast_self]
  show s (ix2 g j) + FloatOps.matmul dot_S5000x128_S5000x64_S128x64_0_0_1_1_n_n none
      (truncf .bf16 (sitofp .f32 (extui 32 (k4_pay3 (F := Ideal) bb) natLt_1_32) : FVec Ideal S5000x128 .f32) bitsLt_bf16_f32)
      (truncf .bf16 (shapeCast S5000x64 hb shapeCasts_S5000x64_S5000x64) bitsLt_bf16_f32)
      (constant S128x64 .f32 0x00000000#32) (ix2 g j) = _
  rw [Ideal.matmul_constant_zero_apply,
    ← Equiv.sum_comp (ValueIdx.contrEquiv1 dot_S5000x128_S5000x64_S128x64_0_0_1_1_n_n 5000 rfl rfl).symm]
  congr 1
  refine Finset.sum_congr rfl fun r _ => ?_
  have hk := ValueIdx.contrEquiv1_symm_val dot_S5000x128_S5000x64_S128x64_0_0_1_1_n_n 5000 rfl rfl r
  have el : dot_S5000x128_S5000x64_S128x64_0_0_1_1_n_n.lhsIdx (ix2 g j) ((ValueIdx.contrEquiv1 dot_S5000x128_S5000x64_S128x64_0_0_1_1_n_n 5000 rfl rfl).symm r) = ix2 r g := funext fun a => Fin.ext (by
    match a with
    | ⟨0, _⟩ => exact (tile_lhs_0 _ _).trans hk
    | ⟨1, _⟩ => exact tile_lhs_1 _ _)
  have er : dot_S5000x128_S5000x64_S128x64_0_0_1_1_n_n.rhsIdx (ix2 g j) ((ValueIdx.contrEquiv1 dot_S5000x128_S5000x64_S128x64_0_0_1_1_n_n 5000 rfl rfl).symm r) = ix2 r j := funext fun a => Fin.ext (by
    match a with
    | ⟨0, _⟩ => exact (tile_rhs_0 _ _).trans hk
    | ⟨1, _⟩ => exact tile_rhs_1 _ _)
  rw [el, er]
  show (sitofp .f32 (extui 32 (k4_pay3 (F := Ideal) bb) natLt_1_32) : FVec Ideal S5000x128 .f32) (ix2 r g)
      * (shapeCast S5000x64 hb shapeCasts_S5000x64_S5000x64) (ix2 r j) = _
  rw [shapeCast_self, onehot_apply]

/-- One point's update of the counts table at g: what it held plus the number of the tile's rows whose graph id is g. -/
theorem pay5_apply (bb : Vec Ideal S5000x1 .i32) (n : Vec Ideal S128x1 .f32) (g : Fin 128) :
    k4_pay5 (F := Ideal) bb n (ix2 g 0)
      = n (ix2 g 0) + ∑ r : Fin 5000, (if (bb (ix2 r 0)).toInt = (g.val : ℤ) then (1 : EReal) else 0) := by
  unfold k4_pay5
  rw [shapeCast_self]
  show n (ix2 g 0) + shapeCast S128x1 _ shapeCasts_S128_S128x1 (ix2 g 0) = _
  rw [shapeCast_apply _ shapeCasts_S128_S128x1 (ix2 g 0) (ix1 g) (by
      rw [Shape.rowMajor_val_one, Shape.rowMajor_val_two]; show g.val = g.val * 1 + 0; omega)]
  refine congrArg (n (ix2 g 0) + ·) ?_
  refine (Ideal.multiReduction_add_single _ _ reduces_S5000x128_S128 _ _ (ix1 g)).trans ?_
  refine Finset.sum_congr rfl fun (r : Fin 5000) _ => ?_
  have e : reduces_S5000x128_S128.lift (ix1 g) r = ix2 r g := funext fun a => Fin.ext (by
    match a with
    | ⟨0, _⟩ => rfl
    | ⟨1, _⟩ => rfl)
  exact (congrArg _ e).trans (onehot_apply bb r g)

/-- The cleared tables hold zero everywhere. -/
theorem k4pay1_apply (i : S128x64.Idx) : k4_pay1 (F := Ideal) i = 0 := by
  unfold k4_pay1
  rw [shapeCast_self]
  exact Ideal.ofBits_zero_f32
theorem pay2_apply (i : S128x1.Idx) : k4_pay2 (F := Ideal) i = 0 := by
  unfold k4_pay2
  rw [shapeCast_self]
  exact Ideal.ofBits_zero_f32

theorem zero2 : (![0, 0] : Fin 2 → ℕ) = fun _ => 0 := funext fun a => by
  match a with
  | ⟨0, _⟩ => rfl
  | ⟨1, _⟩ => rfl

/-- One point's update of the sums table at (g, j). -/
theorem stepS4_apply (hb : Vec Ideal S5000x64 .f32) (bb : Vec Ideal S5000x1 .i32) (s : Vec Ideal S128x64 .f32) (g : Fin 128) (j : Fin 64) :
    stepS4 (F := Ideal) hb bb s (ix2 g j)
      = s (ix2 g j) + ∑ r : Fin 5000, (if (bb (ix2 r 0)).toInt = (g.val : ℤ) then (1 : EReal) else 0) * hb (ix2 r j) := by
  unfold stepS4
  rw [show View.ld hb rH4 = hb from View.ld_unit_zero zero2 _ hb, show View.ld bb rB4 = bb from View.ld_unit_zero zero2 _ bb]
  exact pay4_apply hb bb s g j

/-- One point's update of the counts table at g. -/
theorem stepC4_apply (bb : Vec Ideal S5000x1 .i32) (n : Vec Ideal S128x1 .f32) (g : Fin 128) :
    stepC4 (F := Ideal) bb n (ix2 g 0)
      = n (ix2 g 0) + ∑ r : Fin 5000, (if (bb (ix2 r 0)).toInt = (g.val : ℤ) then (1 : EReal) else 0) := by
  unfold stepC4
  rw [show View.ld bb rB4 = bb from View.ld_unit_zero zero2 _ bb]
  exact pay5_apply bb n g

/-! The rows before tile n, selected by a predicate, summed: the sum over all rows grows tile by tile. -/

section Partial

variable (P : Fin 50000 → Prop) [DecidablePred P] (x : Fin 50000 → EReal)

/-- The sum of x over the rows below 5000 n that satisfy P. -/
def partialSum (n : ℕ) : EReal := ∑ e : Fin 50000, if e.val < 5000 * n ∧ P e then x e else 0

theorem partialSum_zero : partialSum P x 0 = 0 :=
  Finset.sum_eq_zero fun e _ => if_neg (fun h => by have := h.1; omega)

/-- Tile n adds its own selected rows. -/
theorem partialSum_succ (n : ℕ) (hn : 5000 * n + 5000 ≤ 50000) :
    partialSum P x (n + 1) = partialSum P x n
      + ∑ r : Fin 5000, (if P ⟨5000 * n + r.val, by omega⟩ then (1 : EReal) else 0) * x ⟨5000 * n + r.val, by omega⟩ := by
  have hw := Idealize.ShloMosaic.FinSumWindow.sum_window (N := 50000) (W := 5000) (5000 * n) hn
    (fun e => if 5000 * n ≤ e.val ∧ e.val < 5000 * n + 5000 then (if P e then (1 : EReal) else 0) * x e else 0)
    (fun e he => if_neg he)
  have hr : (∑ r : Fin 5000, (if P ⟨5000 * n + r.val, by omega⟩ then (1 : EReal) else 0) * x ⟨5000 * n + r.val, by omega⟩)
      = ∑ p : Fin 5000, (fun e : Fin 50000 => if 5000 * n ≤ e.val ∧ e.val < 5000 * n + 5000 then (if P e then (1 : EReal) else 0) * x e else 0)
          ⟨5000 * n + p.val, by omega⟩ :=
    Finset.sum_congr rfl fun p _ => (if_pos ⟨Nat.le_add_right _ _, by show 5000 * n + p.val < 5000 * n + 5000; omega⟩).symm
  unfold partialSum
  rw [hr, ← hw, ← Finset.sum_add_distrib]
  refine Finset.sum_congr rfl fun e _ => ?_
  by_cases h1 : e.val < 5000 * n
  · by_cases hp : P e
    · rw [if_pos ⟨by omega, hp⟩, if_pos ⟨h1, hp⟩, if_neg (fun h => by omega), add_zero]
    · rw [if_neg (fun h => hp h.2), if_neg (fun h => hp h.2), if_neg (fun h => by omega), add_zero]
  · by_cases h2 : e.val < 5000 * (n + 1)
    · by_cases hp : P e
      · rw [if_pos ⟨h2, hp⟩, if_neg (fun h => h1 h.1), if_pos ⟨by omega, by omega⟩, if_pos hp, one_mul, zero_add]
      · rw [if_neg (fun h => hp h.2), if_neg (fun h => hp h.2), if_pos ⟨by omega, by omega⟩, if_neg hp, zero_mul, zero_add]
    · rw [if_neg (fun h => h2 h.1), if_neg (fun h => h1 h.1), if_neg (fun h => by omega), add_zero]

/-- After the tenth tile: the sum over all the selected rows. -/
theorem partialSum_ten : partialSum P x 10 = ∑ e ∈ Finset.univ.filter (fun e : Fin 50000 => P e), x e := by
  unfold partialSum
  rw [Finset.sum_filter]
  refine Finset.sum_congr rfl fun e _ => ?_
  by_cases hp : P e
  · rw [if_pos ⟨by have := e.isLt; omega, hp⟩, if_pos hp]
  · rw [if_neg (fun h => hp h.2), if_neg hp]

end Partial

/-! The reference's two segment sums read at an index. -/

open Cert.ReferenceIdeal.Stages (uncol) in
/-- Entry (g, j) of the reference's per-graph row sums: the sum of h(e, j) over the rows e whose graph id is g. -/
theorem refS4_apply (h : FVec Ideal Cert.ReferenceIdeal.S50000x64 .f32) (b : IVec S50000x1 32) (g : Fin 128) (j : Fin 64) :
    refS4 h (uncol b) (ix2 g j)
      = ∑ e ∈ Finset.univ.filter (fun e : Fin 50000 => (b (ix2 e 0)).toInt = (g.val : ℤ)), h (ix2 e j) := by
  have wf : ScatterDims.WF ⟨2, ![128, 64]⟩ ⟨2, ![50000, 1]⟩ ⟨2, ![50000, 64]⟩ [1] [0] [0] 1 :=
    Cert.ReferenceIdeal.scatter_S128x64_S50000x1_S50000x64_1_0_0_1.wf
  have z : (broadcastInDim Cert.ReferenceIdeal.S128x64 ![] Cert.ReferenceIdeal.Gen.bcast_S_S128x64
      (constant (F := Ideal) Cert.ReferenceIdeal.S_ .f32 0x00000000#32)) (ix2 g j) = 0 := by
    rw [broadcastInDim_apply _ _ _ (ix2 g j) ValueIdx.ix0 (fun a => a.elim0)]
    exact Ideal.ofBits_zero_f32
  unfold refS4
  refine (show _ = Ideal.hostScatterAdd (Cert.LibGS.rowScatterDims 128 50000 64 wf) _ _ _ (ix2 g j) from rfl).trans ?_
  refine (Cert.LibGS.scatterAdd_rows_apply wf _ _ _ g j).trans ?_
  refine (congrArg₂ (· + ·) z rfl).trans ?_
  refine (zero_add _).trans ?_
  refine Finset.sum_congr (Finset.filter_congr fun e _ => ?_) (fun _ _ => rfl)
  rw [broadcastInDim_apply ![0] Cert.ReferenceIdeal.Gen.bcast_S50000_S50000x1_0 (uncol b) (ix2 e 0) (ix1 e) (fun a => by
    match a with
    | ⟨0, _⟩ => rfl)]
  rfl

open Cert.ReferenceIdeal.Stages (uncol) in
/-- Entry g of the reference's per-graph counts: the number of rows whose graph id is g. -/
theorem refC4_apply (b : IVec S50000x1 32) (g : Fin 128) :
    refC4 (uncol b) (ix1 g)
      = ∑ e ∈ Finset.univ.filter (fun e : Fin 50000 => (b (ix2 e 0)).toInt = (g.val : ℤ)), (1 : EReal) := by
  have wf : ScatterDims.WF ⟨1, ![128]⟩ ⟨2, ![50000, 1]⟩ ⟨1, ![50000]⟩ [] [0] [0] 1 :=
    Cert.ReferenceIdeal.scatter_S128_S50000x1_S50000_n_0_0_1.wf
  have z : (broadcastInDim Cert.ReferenceIdeal.S128 ![] Cert.ReferenceIdeal.Gen.bcast_S_S128
      (constant (F := Ideal) Cert.ReferenceIdeal.S_ .f32 0x00000000#32)) (ix1 g) = 0 := by
    rw [broadcastInDim_apply _ _ _ (ix1 g) ValueIdx.ix0 (fun a => a.elim0)]
    exact Ideal.ofBits_zero_f32
  unfold refC4
  refine (show _ = Ideal.hostScatterAdd (Cert.LibGS.vecScatterDims 128 50000 wf) _ _ _ (ix1 g) from rfl).trans ?_
  refine (Cert.LibGS.scatterAdd_vec_apply wf _ _ _ g).trans ?_
  refine (congrArg₂ (· + ·) z rfl).trans ?_
  refine (zero_add _).trans ?_
  refine Finset.sum_congr (Finset.filter_congr fun e _ => ?_) (fun e _ => ?_)
  · rw [broadcastInDim_apply ![0] Cert.ReferenceIdeal.Gen.bcast_S50000_S50000x1_0 (uncol b) (ix2 e 0) (ix1 e) (fun a => by
      match a with
      | ⟨0, _⟩ => rfl)]
    rfl
  · rw [broadcastInDim_apply _ _ _ (ix1 e) ValueIdx.ix0 (fun a => a.elim0)]
    exact Ideal.ofBits_one_f32

end Cert.KernelIdeal.HandValue

end
-- ==== Proof.ValR4h.lean ====
/-
  The pooling region's head: given the two tables as the reference's two segment sums, the last point's division of
  sums by counts (counts at least one) and its two-layer head are the reference's, entry by entry: the same two matrix
  products as sums over the contracted coordinate, the same broadcast biases, the same rectifier.
-/
import proofs.«431412_j35321811042312_1_alg».proof.Proof.IdealR4
import proofs.«431412_j35321811042312_1_alg».proof.Proof.RefStages
import proofs.«431412_j35321811042312_1_alg».proof.Proof.ValR4d
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx (ix1 ix2)

/-- At the exact values a matrix product accumulated into zeros is the host's product of the same dimension numbers:
    both are the sum, over the contracted coordinate, of the products of the operands' entries. -/
theorem mm_zero_eq_dot {sl sr so : Shape} {φ₁ φ₂ : FTy} (d : DotDims sl sr so) (lhs : FVec Ideal sl φ₁) (rhs : FVec Ideal sr φ₂) :
    matmul (F := Ideal) d none lhs rhs (constant so .f32 0x00000000#32) = Host.dotGeneral (F := Ideal) d none lhs rhs := by
  funext j
  show FloatOps.matmul d none lhs rhs (constant so .f32 0x00000000#32) j = FloatOps.dotGeneral d none .single lhs rhs j
  rw [Ideal.matmul_constant_zero_apply, Ideal.dotGeneral_apply]

/-- The two products' dimension numbers are the same literal records on the two sides. -/
theorem dot1_eq : Cert.KernelIdeal.dot_S128x64_S64x32_S128x32_1_0_0_1_n_n = Cert.ReferenceIdeal.dot_S128x64_S64x32_S128x32_1_0_0_1_n_n := rfl
theorem dot2_eq : Cert.KernelIdeal.dot_S128x32_S32x1_S128x1_1_0_0_1_n_n = Cert.ReferenceIdeal.dot_S128x32_S32x1_S128x1_1_0_0_1_n_n := rfl

/-- A narrowing of the format is the identity at the exact values. -/
theorem truncf_id {s : Shape} (x : FVec Ideal s .f32) (h : FTy.bits .bf16 < FTy.bits .f32) : truncf (F := Ideal) .bf16 x h = x := rfl

/-- The divisor: the counts column, at least one, spread over the 64 columns, is the reference's counts, at least one,
    as a column spread over the 64 columns. -/
theorem den_eq (C : Vec Ideal S128x1 .f32) (b : IVec Cert.ReferenceIdeal.S50000 32)
    (hC : ∀ g : Fin 128, C (ix2 g 0) = refC4 b (ix1 g)) :
    broadcastTo S128x64 (maximumf (F := Ideal) C (broadcast S128x1 (Scalar.ofBits .f32 0x3F800000#32))) broadcasts_S128x1_S128x64
      = broadcastInDim Cert.ReferenceIdeal.S128x64 ![0, 1] Cert.ReferenceIdeal.Gen.bcast_S128x1_S128x64_0_1
          (broadcastInDim Cert.ReferenceIdeal.S128x1 ![0] Cert.ReferenceIdeal.Gen.bcast_S128_S128x1_0
            (maximumf (F := Ideal) (refC4 b)
              (broadcastInDim Cert.ReferenceIdeal.S128 ![] Cert.ReferenceIdeal.Gen.bcast_S_S128 (constant Cert.ReferenceIdeal.S_ .f32 0x3F800000#32)))) := by
  funext i
  refine (broadcastTo_apply _ broadcasts_S128x1_S128x64 i (ix2 (i 0) (0 : Fin 1)) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])).trans ?_
  refine Eq.trans ?_ (broadcastInDim_apply _ Cert.ReferenceIdeal.Gen.bcast_S128x1_S128x64_0_1 _ i (ix2 (i 0) (0 : Fin 1)) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])).symm
  refine Eq.trans ?_ (broadcastInDim_apply _ Cert.ReferenceIdeal.Gen.bcast_S128_S128x1_0 _ (ix2 (i 0) (0 : Fin 1)) (ix1 (i 0)) (fun a => match a with
    | ⟨0, _⟩ => by show (i 0).val = if (128 : Nat) = 1 then 0 else (i 0).val; rw [if_neg (by decide)])).symm
  show FloatOps.maximumf (C (ix2 (i 0) 0)) _ = FloatOps.maximumf (refC4 b (ix1 (i 0))) _
  rw [hC (i 0)]
  rfl

/-- The first bias: the 1 x 32 row spread over the 128 rows is the reference's length-32 vector as a row, spread. -/
theorem bias1_eq (b1 : Vec Ideal S1x32 .f32) :
    broadcastTo S128x32 (shapeCast S1x32 b1 shapeCasts_S1x32_S1x32) broadcasts_S1x32_S128x32
      = broadcastInDim Cert.ReferenceIdeal.S128x32 ![0, 1] Cert.ReferenceIdeal.Gen.bcast_S1x32_S128x32_0_1
          (broadcastInDim Cert.ReferenceIdeal.S1x32 ![1] Cert.ReferenceIdeal.Gen.bcast_S32_S1x32_1 (Cert.ReferenceIdeal.Stages.unrow b1)) := by
  funext i
  rw [shapeCast_self]
  refine (broadcastTo_apply _ broadcasts_S1x32_S128x32 i (ix2 (0 : Fin 1) (i 1)) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])).trans ?_
  refine Eq.trans ?_ (broadcastInDim_apply _ Cert.ReferenceIdeal.Gen.bcast_S1x32_S128x32_0_1 _ i (ix2 (0 : Fin 1) (i 1)) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])).symm
  refine Eq.trans ?_ (broadcastInDim_apply _ Cert.ReferenceIdeal.Gen.bcast_S32_S1x32_1 _ (ix2 (0 : Fin 1) (i 1)) (ix1 (i 1)) (fun a => match a with
    | ⟨0, _⟩ => by show (i 1).val = if (32 : Nat) = 1 then 0 else (i 1).val; rw [if_neg (by decide)])).symm
  rfl

/-- The second bias: the 1 x 1 entry spread over the 128 rows is the reference's length-1 vector as a row, spread. -/
theorem bias2_eq (b2 : Vec Ideal S1x1 .f32) :
    broadcastTo S128x1 (shapeCast S1x1 b2 shapeCasts_S1x1_S1x1) broadcasts_S1x1_S128x1
      = broadcastInDim Cert.ReferenceIdeal.S128x1 ![0, 1] Cert.ReferenceIdeal.Gen.bcast_S1x1_S128x1_0_1
          (broadcastInDim Cert.ReferenceIdeal.S1x1 ![1] Cert.ReferenceIdeal.Gen.bcast_S1_S1x1_1 (Cert.ReferenceIdeal.Stages.unrow b2)) := by
  funext i
  rw [shapeCast_self]
  refine (broadcastTo_apply _ broadcasts_S1x1_S128x1 i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])).trans ?_
  refine Eq.trans ?_ (broadcastInDim_apply _ Cert.ReferenceIdeal.Gen.bcast_S1x1_S128x1_0_1 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])).symm
  refine Eq.trans ?_ (broadcastInDim_apply _ Cert.ReferenceIdeal.Gen.bcast_S1_S1x1_1 _ (ix2 (0 : Fin 1) (0 : Fin 1)) (ix1 (0 : Fin 1)) (fun a => match a with
    | ⟨0, _⟩ => by show 0 = if (1 : Nat) = 1 then 0 else (0 : Nat); rw [if_pos rfl])).symm
  rfl

/-- The rectifier's zeros: the zero word spread over the 128 x 32 block, on both sides. -/
theorem zeros_eq :
    broadcast S128x32 (Scalar.ofBits (F := Ideal) .f32 0x00000000#32)
      = broadcastInDim Cert.ReferenceIdeal.S128x32 ![] Cert.ReferenceIdeal.Gen.bcast_S_S128x32 (constant (F := Ideal) Cert.ReferenceIdeal.S_ .f32 0x00000000#32) := rfl

/-- The quotient of two arrays is the host's quotient at the exact values. -/
theorem divf_eq_host {s : Shape} (x y : FVec Ideal s .f32) : divf (F := Ideal) x y = Host.divf (F := Ideal) x y := rfl

/-- The reference's pooling-and-head stage with its two segment sums named. -/
theorem pool_named (h : FVec Ideal Cert.ReferenceIdeal.S50000x64 .f32) (b : IVec Cert.ReferenceIdeal.S50000 32)
    (w1 : FVec Ideal Cert.ReferenceIdeal.S64x32 .f32) (b1 : FVec Ideal Cert.ReferenceIdeal.S32 .f32)
    (w2 : FVec Ideal Cert.ReferenceIdeal.S32x1 .f32) (b2 : FVec Ideal Cert.ReferenceIdeal.S1 .f32) :
    Cert.ReferenceIdeal.Stages.pool (F := Ideal) h b w1 b1 w2 b2
      = addf (Host.dotGeneral Cert.ReferenceIdeal.dot_S128x32_S32x1_S128x1_1_0_0_1_n_n none
          (maximumf
            (addf (Host.dotGeneral Cert.ReferenceIdeal.dot_S128x64_S64x32_S128x32_1_0_0_1_n_n none
                (Host.divf (refS4 h b)
                  (broadcastInDim Cert.ReferenceIdeal.S128x64 ![0, 1] Cert.ReferenceIdeal.Gen.bcast_S128x1_S128x64_0_1
                    (broadcastInDim Cert.ReferenceIdeal.S128x1 ![0] Cert.ReferenceIdeal.Gen.bcast_S128_S128x1_0
                      (maximumf (refC4 b)
                        (broadcastInDim Cert.ReferenceIdeal.S128 ![] Cert.ReferenceIdeal.Gen.bcast_S_S128 (constant Cert.ReferenceIdeal.S_ .f32 0x3F800000#32))))))
                w1)
              (broadcastInDim Cert.ReferenceIdeal.S128x32 ![0, 1] Cert.ReferenceIdeal.Gen.bcast_S1x32_S128x32_0_1
                (broadcastInDim Cert.ReferenceIdeal.S1x32 ![1] Cert.ReferenceIdeal.Gen.bcast_S32_S1x32_1 b1)))
            (broadcastInDim Cert.ReferenceIdeal.S128x32 ![] Cert.ReferenceIdeal.Gen.bcast_S_S128x32 (constant Cert.ReferenceIdeal.S_ .f32 0x00000000#32)))
          w2)
        (broadcastInDim Cert.ReferenceIdeal.S128x1 ![0, 1] Cert.ReferenceIdeal.Gen.bcast_S1x1_S128x1_0_1
          (broadcastInDim Cert.ReferenceIdeal.S1x1 ![1] Cert.ReferenceIdeal.Gen.bcast_S1_S1x1_1 b2)) := rfl

/-- The last point's payload with its format changes dropped and its two products read as the host's. -/
theorem pay6_named (S : Vec Ideal S128x64 .f32) (C : Vec Ideal S128x1 .f32) (w1 : Vec Ideal S64x32 .f32) (b1 : Vec Ideal S1x32 .f32)
    (w2 : Vec Ideal S32x1 .f32) (b2 : Vec Ideal S1x1 .f32) :
    k4_pay6 (F := Ideal) S C w1 b1 w2 b2
      = addf (Host.dotGeneral (φ₁ := .f32) (φ₂ := .f32) Cert.KernelIdeal.dot_S128x32_S32x1_S128x1_1_0_0_1_n_n none
          (maximumf
            (addf (Host.dotGeneral (φ₁ := .f32) (φ₂ := .f32) Cert.KernelIdeal.dot_S128x64_S64x32_S128x32_1_0_0_1_n_n none
                (divf S (broadcastTo S128x64 (maximumf C (broadcast S128x1 (Scalar.ofBits .f32 0x3F800000#32))) broadcasts_S128x1_S128x64))
                w1)
              (broadcastTo S128x32 (shapeCast S1x32 b1 shapeCasts_S1x32_S1x32) broadcasts_S1x32_S128x32))
            (broadcast S128x32 (Scalar.ofBits .f32 0x00000000#32)))
          w2)
        (broadcastTo S128x1 (shapeCast S1x1 b2 shapeCasts_S1x1_S1x1) broadcasts_S1x1_S128x1) := by
  unfold k4_pay6
  dsimp only
  rw [truncf_id, truncf_id, truncf_id, truncf_id, mm_zero_eq_dot, mm_zero_eq_dot]
  rfl

open Cert.ReferenceIdeal.Stages (unrow uncol) in
/-- The last point's stored block, when the sums table is the reference's per-graph row sums and the counts table its
    per-graph counts (as a column), is the reference's pooling-and-head stage. -/
theorem head4 (S : Vec Ideal S128x64 .f32) (C : Vec Ideal S128x1 .f32) (w1 : Vec Ideal S64x32 .f32) (b1 : Vec Ideal S1x32 .f32)
    (w2 : Vec Ideal S32x1 .f32) (b2 : Vec Ideal S1x1 .f32) (h : FVec Ideal Cert.ReferenceIdeal.S50000x64 .f32) (b : IVec Cert.ReferenceIdeal.S50000 32)
    (hS : S = refS4 h b) (hC : ∀ g : Fin 128, C (ix2 g 0) = refC4 b (ix1 g)) :
    k4_pay6 (F := Ideal) S C w1 b1 w2 b2 = Cert.ReferenceIdeal.Stages.pool (F := Ideal) h b w1 (unrow b1) w2 (unrow b2) := by
  rw [pay6_named, pool_named, den_eq C b hC, bias1_eq, bias2_eq, zeros_eq, divf_eq_host, hS, dot1_eq, dot2_eq]

end Cert.KernelIdeal.HandValue

end
-- ==== Proof.ValR4p.lean ====
/-
  The pooling region's blocks read off their arrays: the feature rows' and the graph ids' blocks move with the point
  (point t holds rows 5000 t .. 5000 t + 4999), the four parameter blocks are their whole arrays at every point, and the
  output array after the region is what the last point stored (its block is the whole 128 x 1 array, written back once).
-/
import proofs.«431412_j35321811042312_1_alg».proof.Proof.IdealR4
import proofs.«431412_j35321811042312_1_alg».proof.Proof.RefStages
import proofs.«431412_j35321811042312_1_alg».proof.Proof.ValR4d
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx (ix1 ix2)

variable (V : (c : Dev nD) → (b : Ref sig .tc) → Buf (Elt Ideal) ((c : Thread nD τ).loc b))

/-- The zero offsets of a whole-block rectangle, as the constant function. -/
theorem p4_hz : (![0, 0] : Fin 2 → Nat) = fun _ => 0 := funext fun a => by fin_cases a <;> rfl

/-- The index maps of the two moving windows over the grid: row block t, column block 0. -/
theorem p4_idx_mov : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- The index maps of the four parameter windows over the grid: block (0, 0) at every point. -/
theorem p4_idx_par : ∀ t : Fin cfg4.N, win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The index map of the output window over the grid: block (0, 0) at every point. -/
theorem p4_idx_out : ∀ t : Fin cfg4.N, win4_6.index t (0 : Fin 2) = 0 ∧ win4_6.index t (1 : Fin 2) = 0 :=
  (by decide +kernel : ∀ t : Fin grid4.N, _)

/-- Row r of point t's feature block is row 5000 t + r of the feature array. -/
theorem hblk4_apply (c : Dev nD) (t : Fin cfg4.N) (r : Fin 5000) (j : Fin 64) (hr : 5000 * t.val + r.val < 50000) :
    hblk4 (F := Ideal) V c t (ix2 r j) = (V c main_v73 : FVec Ideal S50000x64 .f32) (ix2 (⟨5000 * t.val + r.val, hr⟩ : Fin 50000) j) := by
  obtain ⟨e0, e1, -, -⟩ := p4_idx_mov t
  have h : ((cfg4.win 0).blk t).view.emb (ix2 r j) = ix2 (⟨5000 * t.val + r.val, hr⟩ : Fin 50000) j := by
    funext a; apply Fin.ext
    match a with
    | ⟨0, _⟩ => show win4_0.index t (0 : Fin 2) * 5000 + 1 * r.val = 5000 * t.val + r.val; omega
    | ⟨1, _⟩ => show win4_0.index t (1 : Fin 2) * 64 + 1 * j.val = j.val; omega
  exact congrArg (V c main_v73) h
/-- Entry r of point t's graph-id block is entry 5000 t + r of the graph-id column. -/
theorem bblk4_apply (c : Dev nD) (t : Fin cfg4.N) (r : Fin 5000) (hr : 5000 * t.val + r.val < 50000) :
    bblk4 (F := Ideal) V c t (ix2 r 0) = (V c main_v74 : IVec S50000x1 32) (ix2 (⟨5000 * t.val + r.val, hr⟩ : Fin 50000) 0) := by
  obtain ⟨-, -, e0, e1⟩ := p4_idx_mov t
  have h : ((cfg4.win 1).blk t).view.emb (ix2 r 0) = ix2 (⟨5000 * t.val + r.val, hr⟩ : Fin 50000) 0 := by
    funext a; apply Fin.ext
    match a with
    | ⟨0, _⟩ => show win4_1.index t (0 : Fin 2) * 5000 + 1 * r.val = 5000 * t.val + r.val; omega
    | ⟨1, _⟩ => show win4_1.index t (1 : Fin 2) * 1 + 1 * 0 = 0; omega
  exact congrArg (V c main_v74) h
/-- The parameter blocks, loaded whole, are the parameter arrays. -/
theorem w1blk4_ld (c : Dev nD) (t : Fin cfg4.N) : View.ld (w1blk4 (F := Ideal) V c t) rW14 = (V c main_arg16 : FVec Ideal S64x32 .f32) := by
  have e0 : win4_2.index t (0 : Fin 2) = 0 := (p4_idx_par t).1
  have e1 : win4_2.index t (1 : Fin 2) = 0 := (p4_idx_par t).2.1
  refine (View.ld_unit_zero (S := S64x32) p4_hz inb_S64x32_S64x32_0_0 (w1blk4 (F := Ideal) V c t)).trans ?_
  funext y
  have h : ((cfg4.win 2).blk t).view.emb y = y := by
    funext a; apply Fin.ext
    match a with
    | ⟨0, _⟩ => show win4_2.index t (0 : Fin 2) * 64 + 1 * (y 0).val = (y 0).val; omega
    | ⟨1, _⟩ => show win4_2.index t (1 : Fin 2) * 32 + 1 * (y 1).val = (y 1).val; omega
  exact congrArg (V c main_arg16) h
theorem b1blk4_ld (c : Dev nD) (t : Fin cfg4.N) : View.ld (b1blk4 (F := Ideal) V c t) rB14 = (V c main_v75 : FVec Ideal S1x32 .f32) := by
  have e0 : win4_3.index t (0 : Fin 2) = 0 := (p4_idx_par t).2.2.1
  have e1 : win4_3.index t (1 : Fin 2) = 0 := (p4_idx_par t).2.2.2.1
  refine (View.ld_unit_zero (S := S1x32) p4_hz inb_S1x32_S1x32_0_0 (b1blk4 (F := Ideal) V c t)).trans ?_
  funext y
  have h : ((cfg4.win 3).blk t).view.emb y = y := by
    funext a; apply Fin.ext
    match a with
    | ⟨0, _⟩ => show win4_3.index t (0 : Fin 2) * 1 + 1 * (y 0).val = (y 0).val; omega
    | ⟨1, _⟩ => show win4_3.index t (1 : Fin 2) * 32 + 1 * (y 1).val = (y 1).val; omega
  exact congrArg (V c main_v75) h
theorem w2blk4_ld (c : Dev nD) (t : Fin cfg4.N) : View.ld (w2blk4 (F := Ideal) V c t) rW24 = (V c main_arg18 : FVec Ideal S32x1 .f32) := by
  have e0 : win4_4.index t (0 : Fin 2) = 0 := (p4_idx_par t).2.2.2.2.1
  have e1 : win4_4.index t (1 : Fin 2) = 0 := (p4_idx_par t).2.2.2.2.2.1
  refine (View.ld_unit_zero (S := S32x1) p4_hz inb_S32x1_S32x1_0_0 (w2blk4 (F := Ideal) V c t)).trans ?_
  funext y
  have h : ((cfg4.win 4).blk t).view.emb y = y := by
    funext a; apply Fin.ext
    match a with
    | ⟨0, _⟩ => show win4_4.index t (0 : Fin 2) * 32 + 1 * (y 0).val = (y 0).val; omega
    | ⟨1, _⟩ => show win4_4.index t (1 : Fin 2) * 1 + 1 * (y 1).val = (y 1).val; omega
  exact congrArg (V c main_arg18) h
theorem b2blk4_ld (c : Dev nD) (t : Fin cfg4.N) : View.ld (b2blk4 (F := Ideal) V c t) rB24 = (V c main_v76 : FVec Ideal S1x1 .f32) := by
  have e0 : win4_5.index t (0 : Fin 2) = 0 := (p4_idx_par t).2.2.2.2.2.2.1
  have e1 : win4_5.index t (1 : Fin 2) = 0 := (p4_idx_par t).2.2.2.2.2.2.2
  refine (View.ld_unit_zero (S := S1x1) p4_hz inb_S1x1_S1x1_0_0 (b2blk4 (F := Ideal) V c t)).trans ?_
  funext y
  have h : ((cfg4.win 5).blk t).view.emb y = y := by
    funext a; apply Fin.ext
    match a with
    | ⟨0, _⟩ => show win4_5.index t (0 : Fin 2) * 1 + 1 * (y 0).val = (y 0).val; omega
    | ⟨1, _⟩ => show win4_5.index t (1 : Fin 2) * 1 + 1 * (y 1).val = (y 1).val; omega
  exact congrArg (V c main_v76) h

/-- The one point that writes the output block back is the last. -/
theorem p4_flush_last (t : Fin cfg4.N) (ht : (cfg4.win 6).flush t = true) : t = t4_9 := by
  have h := (flush4_6 t).mp ht
  have hN : t.val < 10 := lt_of_lt_of_eq t.isLt N_4
  apply Fin.ext
  show t.val = 9
  omega

/-- What a point that writes back stores is its block of what the last point leaves: the block is the whole array. -/
theorem p4_flushed6 (c : Dev nD) (t : Fin cfg4.N) (ht : (cfg4.win 6).flush t = true) :
    (dat4 (F := Ideal) V c).flushed 6 t = ((cfg4.win 6).blk t).view.read (Elt Ideal) (out4_6 (F := Ideal) V c t4_9) := by
  show (cfg4.win 6).cut (grid4.coords t) ((dat4 (F := Ideal) V c).after 6 t) = _
  rw [after4_6]
  have e : out4_6 (F := Ideal) V c t = out4_6 (F := Ideal) V c t4_9 := congrArg (out4_6 (F := Ideal) V c) (p4_flush_last t ht)
  rw [e]
  obtain ⟨e0, e1⟩ := p4_idx_out t
  funext y
  refine congrArg (out4_6 (F := Ideal) V c t4_9) ?_
  funext a; apply Fin.ext
  match a with
  | ⟨0, _⟩ => show (y 0).val = win4_6.index t (0 : Fin 2) * 128 + 1 * (y 0).val; omega
  | ⟨1, _⟩ => show (y 1).val = win4_6.index t (1 : Fin 2) * 1 + 1 * (y 1).val; omega

/-- An index of the output array is in point t's block iff each coordinate is in the block's range on its axis. -/
theorem p4_mem_blk6 (t : Fin cfg4.N) (i : S128x1.Idx) :
    i ∈ ((cfg4.win 6).blk t).view.set ↔ ∀ a : Fin 2, win4_6.index t a * S128x1.size a ≤ (i a).val ∧ (i a).val < win4_6.index t a * S128x1.size a + S128x1.size a := by
  show i ∈ ((View.whole main_v77).slice (win4_6.rect t)).set ↔ _
  rw [View.set_slice_whole, Rect.mem_set_unit]
  exact Iff.rfl

/-- Every index of the output array lies in the last point's block. -/
theorem p4_cover6 (i : S128x1.Idx) :
    ∃ t : Fin cfg4.N, (cfg4.win 6).flush t = true ∧ i ∈ ((cfg4.win 6).blk t).view.set := by
  have hi0 : (i 0).val < 128 := (i 0).isLt
  have hi1 : (i 1).val < 1 := (i 1).isLt
  obtain ⟨e0, e1⟩ := p4_idx_out t4_9
  refine ⟨t4_9, (flush4_6 t4_9).mpr rfl, ?_⟩
  rw [p4_mem_blk6]
  intro a
  match a with
  | ⟨0, _⟩ => show win4_6.index t4_9 (0 : Fin 2) * 128 ≤ (i 0).val ∧ (i 0).val < win4_6.index t4_9 (0 : Fin 2) * 128 + 128; omega
  | ⟨1, _⟩ => show win4_6.index t4_9 (1 : Fin 2) * 1 ≤ (i 1).val ∧ (i 1).val < win4_6.index t4_9 (1 : Fin 2) * 1 + 1; omega

/-- The output array after the region is what the last point stored. -/
theorem arr4_6 (c : Dev nD) : (dat4 (F := Ideal) V c).arrAt 6 cfg4.N = out4_6 (F := Ideal) V c t4_9 :=
  (dat4 (F := Ideal) V c).arrAt_eq_of_cover 6 _ (fun t ht => p4_flushed6 V c t ht) p4_cover6

end Cert.KernelIdeal.HandValue

end
-- ==== Proof.ValR4.lean ====
/-
  What the pooling region's output array holds after the region, at the exact instance. The sums table after the
  last point is, entry (g, j), the sum over all 50000 rows r of [batch(r) = g] * h(r, j) (ten tiles of 5000 rows, each
  a one-hot matrix product added to the table, the table cleared before the first); the counts table is the number of
  rows of each graph; these are the reference's two segment sums (an update whose graph id is outside 0..127 lands
  nowhere on either side). The last point then applies the same division and two-layer head as the reference and its
  block is the whole 128 x 1 output array.
-/
import proofs.«431412_j35321811042312_1_alg».proof.Proof.IdealR4
import proofs.«431412_j35321811042312_1_alg».proof.Proof.RefStages
import proofs.«431412_j35321811042312_1_alg».proof.Proof.ValR4d
import proofs.«431412_j35321811042312_1_alg».proof.Proof.ValR4a
import proofs.«431412_j35321811042312_1_alg».proof.Proof.ValR4h
import proofs.«431412_j35321811042312_1_alg».proof.Proof.ValR4p
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx (ix1 ix2)
open scoped BigOperators

variable (V : (c : Dev nD) → (b : Ref sig .tc) → Buf (Elt Ideal) ((c : Thread nD τ).loc b))

/-- After point n the sums table holds, at (g, j), the sum of h(e, j) over the rows e below 5000 (n + 1) whose graph id
    is g, and the counts table the number of those rows. -/
theorem acc4_apply (c : Dev nD) : ∀ (n : ℕ) (hn : n < cfg4.N),
    (∀ (g : Fin 128) (j : Fin 64), (accAt4 (F := Ideal) V c n hn).1 (ix2 g j)
        = partialSum (fun e : Fin 50000 => ((V c main_v74 : IVec S50000x1 32) (ix2 e 0)).toInt = (g.val : ℤ))
            (fun e => (V c main_v73 : FVec Ideal S50000x64 .f32) (ix2 e j)) (n + 1))
    ∧ (∀ g : Fin 128, (accAt4 (F := Ideal) V c n hn).2 (ix2 g 0)
        = partialSum (fun e : Fin 50000 => ((V c main_v74 : IVec S50000x1 32) (ix2 e 0)).toInt = (g.val : ℤ))
            (fun _ => (1 : EReal)) (n + 1))
  | 0, hn => by
    constructor
    · intro g j
      show stepS4 (hblk4 V c ⟨0, hn⟩) (bblk4 V c ⟨0, hn⟩) (k4_pay1 (F := Ideal)) (ix2 g j) = _
      rw [stepS4_apply, k4pay1_apply, partialSum_succ _ _ 0 (by omega), partialSum_zero]
      refine congrArg₂ (· + ·) rfl (Finset.sum_congr rfl fun r _ => ?_)
      have hr : 5000 * (⟨0, hn⟩ : Fin cfg4.N).val + r.val < 50000 := by show 5000 * 0 + r.val < 50000; omega
      rw [hblk4_apply V c ⟨0, hn⟩ r j hr, bblk4_apply V c ⟨0, hn⟩ r hr]
    · intro g
      show stepC4 (bblk4 V c ⟨0, hn⟩) (k4_pay2 (F := Ideal)) (ix2 g 0) = _
      rw [stepC4_apply, pay2_apply, partialSum_succ _ _ 0 (by omega), partialSum_zero]
      refine congrArg₂ (· + ·) rfl (Finset.sum_congr rfl fun r _ => ?_)
      have hr : 5000 * (⟨0, hn⟩ : Fin cfg4.N).val + r.val < 50000 := by show 5000 * 0 + r.val < 50000; omega
      rw [bblk4_apply V c ⟨0, hn⟩ r hr]
      exact (mul_one _).symm
  | n + 1, hn => by
    obtain ⟨ihS, ihC⟩ := acc4_apply c n (Nat.lt_of_succ_lt hn)
    have h10 : n + 1 < 10 := by have e := N_4; exact e ▸ hn
    constructor
    · intro g j
      show stepS4 (hblk4 V c ⟨n + 1, hn⟩) (bblk4 V c ⟨n + 1, hn⟩) (accAt4 V c n (Nat.lt_of_succ_lt hn)).1 (ix2 g j) = _
      rw [stepS4_apply, ihS g j, partialSum_succ _ _ (n + 1) (by omega)]
      refine congrArg₂ (· + ·) rfl (Finset.sum_congr rfl fun r _ => ?_)
      have hr : 5000 * (⟨n + 1, hn⟩ : Fin cfg4.N).val + r.val < 50000 := by show 5000 * (n + 1) + r.val < 50000; omega
      rw [hblk4_apply V c ⟨n + 1, hn⟩ r j hr, bblk4_apply V c ⟨n + 1, hn⟩ r hr]
    · intro g
      show stepC4 (bblk4 V c ⟨n + 1, hn⟩) (accAt4 V c n (Nat.lt_of_succ_lt hn)).2 (ix2 g 0) = _
      rw [stepC4_apply, ihC g, partialSum_succ _ _ (n + 1) (by omega)]
      refine congrArg₂ (· + ·) rfl (Finset.sum_congr rfl fun r _ => ?_)
      have hr : 5000 * (⟨n + 1, hn⟩ : Fin cfg4.N).val + r.val < 50000 := by show 5000 * (n + 1) + r.val < 50000; omega
      rw [bblk4_apply V c ⟨n + 1, hn⟩ r hr]
      exact (mul_one _).symm

open Cert.ReferenceIdeal.Stages (unrow uncol) in
/-- The two tables after the last point are the reference's two segment sums. -/
theorem tables4 (c : Dev nD) (h9 : 9 < cfg4.N) :
    (accAt4 (F := Ideal) V c 9 h9).1 = refS4 (V c main_v73) (uncol (V c main_v74))
    ∧ ∀ g : Fin 128, (accAt4 (F := Ideal) V c 9 h9).2 (ix2 g 0) = refC4 (uncol (V c main_v74)) (ix1 g) := by
  obtain ⟨hS, hC⟩ := acc4_apply V c 9 h9
  constructor
  · funext i
    obtain ⟨g, j, rfl⟩ : ∃ (g : Fin 128) (j : Fin 64), i = ix2 g j := ⟨i 0, i 1, ValueIdx.eq_ix2 i⟩
    rw [hS, partialSum_ten]
    exact (refS4_apply _ _ g j).symm
  · intro g
    rw [hC, partialSum_ten]
    exact (refC4_apply _ g).symm

open Cert.ReferenceIdeal.Stages (unrow uncol) in
/-- The output array after the last point is the reference's pooling-and-head stage of the feature array, the graph
    ids (a 50000 x 1 column) and the head's parameters (the two biases as rows) as the region finds them. -/
theorem closed4 (c : Dev nD) :
    (dat4 (F := Ideal) V c).arrAt 6 cfg4.N
      = Cert.ReferenceIdeal.Stages.pool (F := Ideal) (V c main_v73) (uncol (V c main_v74)) (V c main_arg16)
          (unrow (V c main_v75)) (V c main_arg18) (unrow (V c main_v76)) := by
  rw [arr4_6 V c]
  unfold out4_6
  rw [w1blk4_ld V c, b1blk4_ld V c, w2blk4_ld V c, b2blk4_ld V c]
  obtain ⟨hS, hC⟩ := tables4 V c t4_9.isLt
  exact head4 _ _ _ _ _ _ _ _ hS hC

end Cert.KernelIdeal.HandValue

end
-- ==== Proof.KChain.lean ====
/-
  The idealized kernel program's result as one function of its arguments: reading the buffer contents at the end of
  the main program back through the fold of its items. Each host stretch contributes the composition of its
  operations; each region contributes its closed form (the two projections are whole matrix products, the two
  normalisations the reference's normalisation stage, the pooling region the reference's pooling stage); the edge
  normalisation, gathers and scatter-adds between them are the very operations of the reference, so the composition
  is the reference's composition of stages applied to the same arguments.
-/
import proofs.«431412_j35321811042312_1_alg».proof.Proof.IdealFold
import proofs.«431412_j35321811042312_1_alg».proof.Proof.Gen.KernelIdeal.Regions
import proofs.«431412_j35321811042312_1_alg».proof.Proof.ValR0
import proofs.«431412_j35321811042312_1_alg».proof.Proof.ValR1
import proofs.«431412_j35321811042312_1_alg».proof.Proof.ValR2
import proofs.«431412_j35321811042312_1_alg».proof.Proof.ValR3
import proofs.«431412_j35321811042312_1_alg».proof.Proof.ValR4
import proofs.«431412_j35321811042312_1_alg».proof.Proof.RefStages
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)

/-! ## The host stretches, each at an arbitrary valuation of the buffers it finds -/

section stretches

variable {F : FTy → Type} [FloatOps F]
variable (W : Valuation τ sig (Elt F))

open Cert.ReferenceIdeal.Read

/-- The sources with the self loops appended, from the edge list. -/
theorem h0_v5 :
    StableHlo.after hostOps0 W (Proc.devRef .tc main_v5) = val_main_v5 (F := F) (W (Proc.devRef .tc main_arg1)) := by
  after_results; rfl

/-- The targets with the self loops appended, from the edge list. -/
theorem h0_v6 :
    StableHlo.after hostOps0 W (Proc.devRef .tc main_v6) = val_main_v6 (F := F) (W (Proc.devRef .tc main_arg1)) := by
  after_results; rfl

/-- The edge weights with the self loops' unit weights appended. -/
theorem h0_v8 :
    StableHlo.after hostOps0 W (Proc.devRef .tc main_v8) = val_main_v8 (F := F) (W (Proc.devRef .tc main_arg2)) := by
  after_results; rfl

/-- Where the weighted degree is positive. -/
theorem h0_v13 :
    StableHlo.after hostOps0 W (Proc.devRef .tc main_v13)
      = val_main_v13 (F := F) (W (Proc.devRef .tc main_arg1)) (W (Proc.devRef .tc main_arg2)) := by
  after_results; rfl

/-- The inverse square root of the weighted degree (clamped below). -/
theorem h0_v16 :
    StableHlo.after hostOps0 W (Proc.devRef .tc main_v16)
      = val_main_v16 (F := F) (W (Proc.devRef .tc main_arg1)) (W (Proc.devRef .tc main_arg2)) := by
  after_results; rfl

/-- The zero the degree-free nodes get. -/
theorem h0_cst3 :
    StableHlo.after hostOps0 W (Proc.devRef .tc main_cst_3) = val_main_cst_3 (F := F) := by
  after_results; rfl

/-- The inverse square roots, zero where the degree is not positive. -/
theorem h01_v17 (x1 : IVec Cert.ReferenceIdeal.S2x800000 32) (x2 : FVec F Cert.ReferenceIdeal.S800000 .f32)
    (h13 : W (Proc.devRef .tc main_v13) = val_main_v13 (F := F) x1 x2)
    (h16 : W (Proc.devRef .tc main_v16) = val_main_v16 (F := F) x1 x2)
    (hc : W (Proc.devRef .tc main_cst_3) = val_main_cst_3 (F := F)) :
    StableHlo.after hostOps0_1 W (Proc.devRef .tc main_v17) = val_main_v17 (F := F) x1 x2 := by
  after_results
  rw [h13, h16, hc]
  rfl

/-- The edge norms: the two gathers of the inverse square roots at the sources and at the targets, times the weights. -/
theorem h02_v33 (x1 : IVec Cert.ReferenceIdeal.S2x800000 32) (x2 : FVec F Cert.ReferenceIdeal.S800000 .f32)
    (h5 : W (Proc.devRef .tc main_v5) = val_main_v5 (F := F) x1)
    (h6 : W (Proc.devRef .tc main_v6) = val_main_v6 (F := F) x1)
    (h8 : W (Proc.devRef .tc main_v8) = val_main_v8 (F := F) x2)
    (h17 : W (Proc.devRef .tc main_v17) = val_main_v17 (F := F) x1 x2) :
    StableHlo.after hostOps0_2 W (Proc.devRef .tc main_v33) = val_main_v33 (F := F) x1 x2 := by
  after_results_simp
  rw [h5, h6, h8, h17]
  rfl

/-- The first aggregation: gather of the projected rows at the sources, scale by the edge norms, scatter-add at the targets. -/
theorem h1_v47 (n : FVec F Cert.ReferenceIdeal.S850000 .f32) (s d : IVec Cert.ReferenceIdeal.S850000 32)
    (hp : FVec F Cert.ReferenceIdeal.S50000x64 .f32)
    (h33 : W (Proc.devRef .tc main_v33) = n) (h5 : W (Proc.devRef .tc main_v5) = s)
    (h6 : W (Proc.devRef .tc main_v6) = d) (h34 : W (Proc.devRef .tc main_v34) = hp) :
    StableHlo.after hostOps1 W (Proc.devRef .tc main_v47) = Cert.ReferenceIdeal.Stages.agg n s d hp := by
  after_results_simp
  rw [h33, h5, h6, h34]
  rfl

/-- The second aggregation, by the same operations. -/
theorem h3_v67 (n : FVec F Cert.ReferenceIdeal.S850000 .f32) (s d : IVec Cert.ReferenceIdeal.S850000 32)
    (hp : FVec F Cert.ReferenceIdeal.S50000x64 .f32)
    (h33 : W (Proc.devRef .tc main_v33) = n) (h5 : W (Proc.devRef .tc main_v5) = s)
    (h6 : W (Proc.devRef .tc main_v6) = d) (h54 : W (Proc.devRef .tc main_v54) = hp) :
    StableHlo.after hostOps3 W (Proc.devRef .tc main_v67) = Cert.ReferenceIdeal.Stages.agg n s d hp := by
  after_results_simp
  rw [h33, h5, h6, h54]
  rfl

end stretches

/-! ## The parameter reshapes -/

section reshapes

variable {F : FTy → Type} [FloatOps F]
variable (W : Valuation τ sig (Elt F))

open Cert.ReferenceIdeal.Stages (unrow uncol)

/-- A vector cast to a one-row matrix and read back as a vector is the vector. -/
theorem unrow_shapeCast {n : Nat} {α : Type} (x : (⟨1, ![n]⟩ : Shape).Idx → α)
    (h : (⟨1, ![n]⟩ : Shape).ShapeCasts ⟨2, ![1, n]⟩) : unrow (shapeCast ⟨2, ![1, n]⟩ x h) = x := by
  funext j
  show shapeCast ⟨2, ![1, n]⟩ x h (ValueIdx.ix2 (0 : Fin 1) (j 0)) = x j
  rw [ValueIdx.shapeCast_a_1a_apply x h 0 (j 0)]
  exact congrArg x (ValueIdx.eq_ix1 j).symm

/-- A vector cast to a one-column matrix and read back as a vector is the vector. -/
theorem uncol_shapeCast {n : Nat} {α : Type} (x : (⟨1, ![n]⟩ : Shape).Idx → α)
    (h : (⟨1, ![n]⟩ : Shape).ShapeCasts ⟨2, ![n, 1]⟩) : uncol (shapeCast ⟨2, ![n, 1]⟩ x h) = x := by
  funext j
  show shapeCast ⟨2, ![n, 1]⟩ x h (ValueIdx.ix2 (j 0) (0 : Fin 1)) = x j
  refine shapeCast_apply x h _ j ?_
  rw [Shape.rowMajor_val_two, Shape.rowMajor_val_one]
  show (j 0).val = (j 0).val * 1 + 0
  omega

theorem h1_v48 : StableHlo.after hostOps1 W (Proc.devRef .tc main_v48)
    = shapeCast S1x64 (W (Proc.devRef .tc main_arg5)) shapeCasts_S64_S1x64 := by
  after_results; rfl
theorem h1_v49 : StableHlo.after hostOps1 W (Proc.devRef .tc main_v49)
    = shapeCast S1x64 (W (Proc.devRef .tc main_arg8)) shapeCasts_S64_S1x64 := by
  after_results; rfl
theorem h1_v50 : StableHlo.after hostOps1 W (Proc.devRef .tc main_v50)
    = shapeCast S1x64 (W (Proc.devRef .tc main_arg9)) shapeCasts_S64_S1x64 := by
  after_results; rfl
theorem h1_v51 : StableHlo.after hostOps1 W (Proc.devRef .tc main_v51)
    = shapeCast S1x64 (W (Proc.devRef .tc main_arg10)) shapeCasts_S64_S1x64 := by
  after_results; rfl
theorem h1_v52 : StableHlo.after hostOps1 W (Proc.devRef .tc main_v52)
    = shapeCast S1x64 (W (Proc.devRef .tc main_arg11)) shapeCasts_S64_S1x64 := by
  after_results; rfl

theorem h3_v68 : StableHlo.after hostOps3 W (Proc.devRef .tc main_v68)
    = shapeCast S1x64 (W (Proc.devRef .tc main_arg7)) shapeCasts_S64_S1x64 := by
  after_results; rfl
theorem h3_v69 : StableHlo.after hostOps3 W (Proc.devRef .tc main_v69)
    = shapeCast S1x64 (W (Proc.devRef .tc main_arg12)) shapeCasts_S64_S1x64 := by
  after_results; rfl
theorem h3_v70 : StableHlo.after hostOps3 W (Proc.devRef .tc main_v70)
    = shapeCast S1x64 (W (Proc.devRef .tc main_arg13)) shapeCasts_S64_S1x64 := by
  after_results; rfl
theorem h3_v71 : StableHlo.after hostOps3 W (Proc.devRef .tc main_v71)
    = shapeCast S1x64 (W (Proc.devRef .tc main_arg14)) shapeCasts_S64_S1x64 := by
  after_results; rfl
theorem h3_v72 : StableHlo.after hostOps3 W (Proc.devRef .tc main_v72)
    = shapeCast S1x64 (W (Proc.devRef .tc main_arg15)) shapeCasts_S64_S1x64 := by
  after_results; rfl

theorem h4_v74 : StableHlo.after hostOps4 W (Proc.devRef .tc main_v74)
    = shapeCast S50000x1 (W (Proc.devRef .tc main_arg3)) shapeCasts_S50000_S50000x1 := by
  after_results; rfl
theorem h4_v75 : StableHlo.after hostOps4 W (Proc.devRef .tc main_v75)
    = shapeCast S1x32 (W (Proc.devRef .tc main_arg17)) shapeCasts_S32_S1x32 := by
  after_results; rfl
theorem h4_v76 : StableHlo.after hostOps4 W (Proc.devRef .tc main_v76)
    = shapeCast S1x1 (W (Proc.devRef .tc main_arg19)) shapeCasts_S1_S1x1 := by
  after_results; rfl

theorem h5_v78 : StableHlo.after hostOps5 W (Proc.devRef .tc main_v78)
    = shapeCast S128 (W (Proc.devRef .tc main_v77)) shapeCasts_S128x1_S128 := by
  after_results; rfl

end reshapes

/-! ## The fold's valuations, buffer by buffer -/

section fold

open Cert.ReferenceIdeal.Stages

variable (m : (ℓ : Loc nD τ sig) → Buf (Elt Ideal) ℓ) (c : Dev nD)

/-- What a host stretch does not write it leaves as it found it. -/
theorem U1_of (r : Ref sig .tc) (h : r ∉ hostOps0_W := by decide) :
    U1 m c (Proc.devRef .tc r) = U0 m c (Proc.devRef .tc r) :=
  StableHlo.after_of_writes_sub hostOps0 _ hostOps0_writes h
theorem U2_of (r : Ref sig .tc) (h : r ∉ hostOps0_1_W := by decide) :
    U2 m c (Proc.devRef .tc r) = U1 m c (Proc.devRef .tc r) :=
  StableHlo.after_of_writes_sub hostOps0_1 _ hostOps0_1_writes h
theorem U3_of (r : Ref sig .tc) (h : r ∉ hostOps0_2_W := by decide) :
    U3 m c (Proc.devRef .tc r) = U2 m c (Proc.devRef .tc r) :=
  StableHlo.after_of_writes_sub hostOps0_2 _ hostOps0_2_writes h
theorem U5_of (r : Ref sig .tc) (h : r ∉ hostOps1_W := by decide) :
    U5 m c (Proc.devRef .tc r) = U4 m c (Proc.devRef .tc r) :=
  StableHlo.after_of_writes_sub hostOps1 _ hostOps1_writes h
theorem U8_of (r : Ref sig .tc) (h : r ∉ hostOps3_W := by decide) :
    U8 m c (Proc.devRef .tc r) = U7 m c (Proc.devRef .tc r) :=
  StableHlo.after_of_writes_sub hostOps3 _ hostOps3_writes h
theorem U10_of (r : Ref sig .tc) (h : r ∉ hostOps4_W := by decide) :
    U10 m c (Proc.devRef .tc r) = U9 m c (Proc.devRef .tc r) :=
  StableHlo.after_of_writes_sub hostOps4 _ hostOps4_writes h

/-- The launch contents of a reference. -/
abbrev xa (r : Ref sig .tc) : Buf (Elt Ideal) ((c : Thread nD τ).loc r) := m ((c : Thread nD τ).loc r)

/-- A reference no stretch so far writes and no region so far has among its windows' arrays holds its launch contents. -/
theorem U3_arg (r : Ref sig .tc) (h0 : r ∉ hostOps0_W := by decide) (h1 : r ∉ hostOps0_1_W := by decide)
    (h2 : r ∉ hostOps0_2_W := by decide) : U3 m c (Proc.devRef .tc r) = xa m c r :=
  (U3_of m c r h2).trans ((U2_of m c r h1).trans ((U1_of m c r h0).trans rfl))
theorem U4_arg (r : Ref sig .tc) (h0 : r ∉ hostOps0_W := by decide) (h1 : r ∉ hostOps0_1_W := by decide)
    (h2 : r ∉ hostOps0_2_W := by decide) (g0 : ∀ w, Pipeline.arrRef spec0 w ≠ r := by decide) :
    U4 m c (Proc.devRef .tc r) = xa m c r :=
  (U4_of_ne m c r g0).trans (U3_arg m c r h0 h1 h2)
theorem U5_arg (r : Ref sig .tc) (h0 : r ∉ hostOps0_W := by decide) (h1 : r ∉ hostOps0_1_W := by decide)
    (h2 : r ∉ hostOps0_2_W := by decide) (g0 : ∀ w, Pipeline.arrRef spec0 w ≠ r := by decide)
    (h3 : r ∉ hostOps1_W := by decide) : U5 m c (Proc.devRef .tc r) = xa m c r :=
  (U5_of m c r h3).trans (U4_arg m c r h0 h1 h2 g0)
theorem U6_arg (r : Ref sig .tc) (h0 : r ∉ hostOps0_W := by decide) (h1 : r ∉ hostOps0_1_W := by decide)
    (h2 : r ∉ hostOps0_2_W := by decide) (g0 : ∀ w, Pipeline.arrRef spec0 w ≠ r := by decide)
    (h3 : r ∉ hostOps1_W := by decide) (g1 : ∀ w, Pipeline.arrRef spec1 w ≠ r := by decide) :
    U6 m c (Proc.devRef .tc r) = xa m c r :=
  (U6_of_ne m c r g1).trans (U5_arg m c r h0 h1 h2 g0 h3)
theorem U7_arg (r : Ref sig .tc) (h0 : r ∉ hostOps0_W := by decide) (h1 : r ∉ hostOps0_1_W := by decide)
    (h2 : r ∉ hostOps0_2_W := by decide) (g0 : ∀ w, Pipeline.arrRef spec0 w ≠ r := by decide)
    (h3 : r ∉ hostOps1_W := by decide) (g1 : ∀ w, Pipeline.arrRef spec1 w ≠ r := by decide)
    (g2 : ∀ w, Pipeline.arrRef spec2 w ≠ r := by decide) : U7 m c (Proc.devRef .tc r) = xa m c r :=
  (U7_of_ne m c r g2).trans (U6_arg m c r h0 h1 h2 g0 h3 g1)
theorem U8_arg (r : Ref sig .tc) (h0 : r ∉ hostOps0_W := by decide) (h1 : r ∉ hostOps0_1_W := by decide)
    (h2 : r ∉ hostOps0_2_W := by decide) (g0 : ∀ w, Pipeline.arrRef spec0 w ≠ r := by decide)
    (h3 : r ∉ hostOps1_W := by decide) (g1 : ∀ w, Pipeline.arrRef spec1 w ≠ r := by decide)
    (g2 : ∀ w, Pipeline.arrRef spec2 w ≠ r := by decide) (h4 : r ∉ hostOps3_W := by decide) :
    U8 m c (Proc.devRef .tc r) = xa m c r :=
  (U8_of m c r h4).trans (U7_arg m c r h0 h1 h2 g0 h3 g1 g2)
theorem U9_arg (r : Ref sig .tc) (h0 : r ∉ hostOps0_W := by decide) (h1 : r ∉ hostOps0_1_W := by decide)
    (h2 : r ∉ hostOps0_2_W := by decide) (g0 : ∀ w, Pipeline.arrRef spec0 w ≠ r := by decide)
    (h3 : r ∉ hostOps1_W := by decide) (g1 : ∀ w, Pipeline.arrRef spec1 w ≠ r := by decide)
    (g2 : ∀ w, Pipeline.arrRef spec2 w ≠ r := by decide) (h4 : r ∉ hostOps3_W := by decide)
    (g3 : ∀ w, Pipeline.arrRef spec3 w ≠ r := by decide) : U9 m c (Proc.devRef .tc r) = xa m c r :=
  (U9_of_ne m c r g3).trans (U8_arg m c r h0 h1 h2 g0 h3 g1 g2 h4)
theorem U10_arg (r : Ref sig .tc) (h0 : r ∉ hostOps0_W := by decide) (h1 : r ∉ hostOps0_1_W := by decide)
    (h2 : r ∉ hostOps0_2_W := by decide) (g0 : ∀ w, Pipeline.arrRef spec0 w ≠ r := by decide)
    (h3 : r ∉ hostOps1_W := by decide) (g1 : ∀ w, Pipeline.arrRef spec1 w ≠ r := by decide)
    (g2 : ∀ w, Pipeline.arrRef spec2 w ≠ r := by decide) (h4 : r ∉ hostOps3_W := by decide)
    (g3 : ∀ w, Pipeline.arrRef spec3 w ≠ r := by decide) (h5 : r ∉ hostOps4_W := by decide) :
    U10 m c (Proc.devRef .tc r) = xa m c r :=
  (U10_of m c r h5).trans (U9_arg m c r h0 h1 h2 g0 h3 g1 g2 h4 g3)

/-! ### The edge data: sources, targets and norms, written by the first three stretches and read by the two aggregations -/

open Cert.ReferenceIdeal.Read in
theorem U1_v5 : U1 m c (Proc.devRef .tc main_v5) = val_main_v5 (F := Ideal) (xa m c main_arg1) := h0_v5 (U0 m c)
open Cert.ReferenceIdeal.Read in
theorem U1_v6 : U1 m c (Proc.devRef .tc main_v6) = val_main_v6 (F := Ideal) (xa m c main_arg1) := h0_v6 (U0 m c)
open Cert.ReferenceIdeal.Read in
theorem U1_v8 : U1 m c (Proc.devRef .tc main_v8) = val_main_v8 (F := Ideal) (xa m c main_arg2) := h0_v8 (U0 m c)
open Cert.ReferenceIdeal.Read in
theorem U1_v13 : U1 m c (Proc.devRef .tc main_v13) = val_main_v13 (F := Ideal) (xa m c main_arg1) (xa m c main_arg2) :=
  h0_v13 (U0 m c)
open Cert.ReferenceIdeal.Read in
theorem U1_v16 : U1 m c (Proc.devRef .tc main_v16) = val_main_v16 (F := Ideal) (xa m c main_arg1) (xa m c main_arg2) :=
  h0_v16 (U0 m c)
open Cert.ReferenceIdeal.Read in
theorem U1_cst3 : U1 m c (Proc.devRef .tc main_cst_3) = val_main_cst_3 (F := Ideal) := h0_cst3 (U0 m c)

open Cert.ReferenceIdeal.Read in
theorem U2_v5 : U2 m c (Proc.devRef .tc main_v5) = val_main_v5 (F := Ideal) (xa m c main_arg1) :=
  (U2_of m c main_v5).trans (U1_v5 m c)
open Cert.ReferenceIdeal.Read in
theorem U2_v6 : U2 m c (Proc.devRef .tc main_v6) = val_main_v6 (F := Ideal) (xa m c main_arg1) :=
  (U2_of m c main_v6).trans (U1_v6 m c)
open Cert.ReferenceIdeal.Read in
theorem U2_v8 : U2 m c (Proc.devRef .tc main_v8) = val_main_v8 (F := Ideal) (xa m c main_arg2) :=
  (U2_of m c main_v8).trans (U1_v8 m c)
open Cert.ReferenceIdeal.Read in
theorem U2_v17 : U2 m c (Proc.devRef .tc main_v17) = val_main_v17 (F := Ideal) (xa m c main_arg1) (xa m c main_arg2) :=
  h01_v17 (U1 m c) _ _ (U1_v13 m c) (U1_v16 m c) (U1_cst3 m c)

theorem U3_v5 : U3 m c (Proc.devRef .tc main_v5) = src (F := Ideal) (xa m c main_arg1) :=
  (U3_of m c main_v5).trans (U2_v5 m c)
theorem U3_v6 : U3 m c (Proc.devRef .tc main_v6) = dst (F := Ideal) (xa m c main_arg1) :=
  (U3_of m c main_v6).trans (U2_v6 m c)
theorem U3_v33 : U3 m c (Proc.devRef .tc main_v33) = nrm (F := Ideal) (xa m c main_arg1) (xa m c main_arg2) :=
  h02_v33 (U2 m c) _ _ (U2_v5 m c) (U2_v6 m c) (U2_v8 m c) (U2_v17 m c)

theorem U4_v5 : U4 m c (Proc.devRef .tc main_v5) = src (F := Ideal) (xa m c main_arg1) :=
  (U4_of_ne m c main_v5 (by decide)).trans (U3_v5 m c)
theorem U4_v6 : U4 m c (Proc.devRef .tc main_v6) = dst (F := Ideal) (xa m c main_arg1) :=
  (U4_of_ne m c main_v6 (by decide)).trans (U3_v6 m c)
theorem U4_v33 : U4 m c (Proc.devRef .tc main_v33) = nrm (F := Ideal) (xa m c main_arg1) (xa m c main_arg2) :=
  (U4_of_ne m c main_v33 (by decide)).trans (U3_v33 m c)

theorem U7_v5 : U7 m c (Proc.devRef .tc main_v5) = src (F := Ideal) (xa m c main_arg1) :=
  (U7_of_ne m c main_v5 (by decide)).trans ((U6_of_ne m c main_v5 (by decide)).trans ((U5_of m c main_v5).trans (U4_v5 m c)))
theorem U7_v6 : U7 m c (Proc.devRef .tc main_v6) = dst (F := Ideal) (xa m c main_arg1) :=
  (U7_of_ne m c main_v6 (by decide)).trans ((U6_of_ne m c main_v6 (by decide)).trans ((U5_of m c main_v6).trans (U4_v6 m c)))
theorem U7_v33 : U7 m c (Proc.devRef .tc main_v33) = nrm (F := Ideal) (xa m c main_arg1) (xa m c main_arg2) :=
  (U7_of_ne m c main_v33 (by decide)).trans ((U6_of_ne m c main_v33 (by decide)).trans ((U5_of m c main_v33).trans (U4_v33 m c)))

end fold

/-! ## The stages along the fold -/

section stages

open Cert.ReferenceIdeal.Stages

variable (m : (ℓ : Loc nD τ sig) → Buf (Elt Ideal) ℓ) (c : Dev nD)

/-- A buffer holding a vector cast to a one-row matrix, read back as a vector. -/
theorem unrow_of {n : Nat} {α : Type} {V : (⟨2, ![1, n]⟩ : Shape).Idx → α} {a x : (⟨1, ![n]⟩ : Shape).Idx → α}
    {h : (⟨1, ![n]⟩ : Shape).ShapeCasts ⟨2, ![1, n]⟩} (hV : V = shapeCast ⟨2, ![1, n]⟩ a h) (ha : a = x) : unrow V = x := by
  subst hV; subst ha; exact unrow_shapeCast _ _
/-- A buffer holding a vector cast to a one-column matrix, read back as a vector. -/
theorem uncol_of {n : Nat} {α : Type} {V : (⟨2, ![n, 1]⟩ : Shape).Idx → α} {a x : (⟨1, ![n]⟩ : Shape).Idx → α}
    {h : (⟨1, ![n]⟩ : Shape).ShapeCasts ⟨2, ![n, 1]⟩} (hV : V = shapeCast ⟨2, ![n, 1]⟩ a h) (ha : a = x) : uncol V = x := by
  subst hV; subst ha; exact uncol_shapeCast _ _

/-- The first layer's aggregated rows, normalised rows, the second layer's projected, aggregated and normalised rows,
    and the pooled head, as functions of the launch contents of the arguments. -/
abbrev k1 : FVec Ideal Cert.ReferenceIdeal.S50000x64 .f32 :=
  agg (nrm (xa m c main_arg1) (xa m c main_arg2)) (src (F := Ideal) (xa m c main_arg1)) (dst (F := Ideal) (xa m c main_arg1))
    (mm1 (xa m c main_arg0) (xa m c main_arg4))
abbrev k2 : FVec Ideal Cert.ReferenceIdeal.S50000x64 .f32 :=
  bn (k1 m c) (xa m c main_arg5) (xa m c main_arg8) (xa m c main_arg9) (xa m c main_arg10) (xa m c main_arg11)
abbrev k3 : FVec Ideal Cert.ReferenceIdeal.S50000x64 .f32 := mm2 (k2 m c) (xa m c main_arg6)
abbrev k4 : FVec Ideal Cert.ReferenceIdeal.S50000x64 .f32 :=
  agg (nrm (xa m c main_arg1) (xa m c main_arg2)) (src (F := Ideal) (xa m c main_arg1)) (dst (F := Ideal) (xa m c main_arg1)) (k3 m c)
abbrev k5 : FVec Ideal Cert.ReferenceIdeal.S50000x64 .f32 :=
  bn (k4 m c) (xa m c main_arg7) (xa m c main_arg12) (xa m c main_arg13) (xa m c main_arg14) (xa m c main_arg15)
abbrev k6 : FVec Ideal Cert.ReferenceIdeal.S128x1 .f32 :=
  pool (k5 m c) (xa m c main_arg3) (xa m c main_arg16) (xa m c main_arg17) (xa m c main_arg18) (xa m c main_arg19)

/-- The first projection's output is the whole product of the node features and the first weight matrix. -/
theorem U4_v34 : U4 m c (Proc.devRef .tc main_v34) = mm1 (F := Ideal) (xa m c main_arg0) (xa m c main_arg4) := by
  refine (U4_arr m c 2).trans ((closed0 (atTc (U3 m)) c).trans ?_)
  rw [show atTc (U3 m) c main_arg0 = xa m c main_arg0 from U3_arg m c main_arg0,
    show atTc (U3 m) c main_arg4 = xa m c main_arg4 from U3_arg m c main_arg4]

/-- The first aggregation. -/
theorem U5_v47 : U5 m c (Proc.devRef .tc main_v47) = k1 m c :=
  h1_v47 (U4 m c) _ _ _ _ (U4_v33 m c) (U4_v5 m c) (U4_v6 m c) (U4_v34 m c)
theorem U5_v48 : unrow (U5 m c (Proc.devRef .tc main_v48)) = xa m c main_arg5 := unrow_of (h1_v48 (U4 m c)) (U4_arg m c main_arg5)
theorem U5_v49 : unrow (U5 m c (Proc.devRef .tc main_v49)) = xa m c main_arg8 := unrow_of (h1_v49 (U4 m c)) (U4_arg m c main_arg8)
theorem U5_v50 : unrow (U5 m c (Proc.devRef .tc main_v50)) = xa m c main_arg9 := unrow_of (h1_v50 (U4 m c)) (U4_arg m c main_arg9)
theorem U5_v51 : unrow (U5 m c (Proc.devRef .tc main_v51)) = xa m c main_arg10 := unrow_of (h1_v51 (U4 m c)) (U4_arg m c main_arg10)
theorem U5_v52 : unrow (U5 m c (Proc.devRef .tc main_v52)) = xa m c main_arg11 := unrow_of (h1_v52 (U4 m c)) (U4_arg m c main_arg11)

/-- The first normalisation. -/
theorem U6_v53 : U6 m c (Proc.devRef .tc main_v53) = k2 m c := by
  refine (U6_arr m c 6).trans ((closed1 (atTc (U5 m)) c).trans ?_)
  rw [show atTc (U5 m) c main_v47 = k1 m c from U5_v47 m c,
    show unrow (atTc (U5 m) c main_v48) = xa m c main_arg5 from U5_v48 m c,
    show unrow (atTc (U5 m) c main_v49) = xa m c main_arg8 from U5_v49 m c,
    show unrow (atTc (U5 m) c main_v50) = xa m c main_arg9 from U5_v50 m c,
    show unrow (atTc (U5 m) c main_v51) = xa m c main_arg10 from U5_v51 m c,
    show unrow (atTc (U5 m) c main_v52) = xa m c main_arg11 from U5_v52 m c]

/-- The second projection. -/
theorem U7_v54 : U7 m c (Proc.devRef .tc main_v54) = k3 m c := by
  refine (U7_arr m c 2).trans ((closed2 (atTc (U6 m)) c).trans ?_)
  rw [show atTc (U6 m) c main_v53 = k2 m c from U6_v53 m c,
    show atTc (U6 m) c main_arg6 = xa m c main_arg6 from U6_arg m c main_arg6]

/-- The second aggregation. -/
theorem U8_v67 : U8 m c (Proc.devRef .tc main_v67) = k4 m c :=
  h3_v67 (U7 m c) _ _ _ _ (U7_v33 m c) (U7_v5 m c) (U7_v6 m c) (U7_v54 m c)
theorem U8_v68 : unrow (U8 m c (Proc.devRef .tc main_v68)) = xa m c main_arg7 := unrow_of (h3_v68 (U7 m c)) (U7_arg m c main_arg7)
theorem U8_v69 : unrow (U8 m c (Proc.devRef .tc main_v69)) = xa m c main_arg12 := unrow_of (h3_v69 (U7 m c)) (U7_arg m c main_arg12)
theorem U8_v70 : unrow (U8 m c (Proc.devRef .tc main_v70)) = xa m c main_arg13 := unrow_of (h3_v70 (U7 m c)) (U7_arg m c main_arg13)
theorem U8_v71 : unrow (U8 m c (Proc.devRef .tc main_v71)) = xa m c main_arg14 := unrow_of (h3_v71 (U7 m c)) (U7_arg m c main_arg14)
theorem U8_v72 : unrow (U8 m c (Proc.devRef .tc main_v72)) = xa m c main_arg15 := unrow_of (h3_v72 (U7 m c)) (U7_arg m c main_arg15)

/-- The second normalisation. -/
theorem U9_v73 : U9 m c (Proc.devRef .tc main_v73) = k5 m c := by
  refine (U9_arr m c 6).trans ((closed3 (atTc (U8 m)) c).trans ?_)
  rw [show atTc (U8 m) c main_v67 = k4 m c from U8_v67 m c,
    show unrow (atTc (U8 m) c main_v68) = xa m c main_arg7 from U8_v68 m c,
    show unrow (atTc (U8 m) c main_v69) = xa m c main_arg12 from U8_v69 m c,
    show unrow (atTc (U8 m) c main_v70) = xa m c main_arg13 from U8_v70 m c,
    show unrow (atTc (U8 m) c main_v71) = xa m c main_arg14 from U8_v71 m c,
    show unrow (atTc (U8 m) c main_v72) = xa m c main_arg15 from U8_v72 m c]

/-- The pooling region's operands: the normalised rows carried over the three reshapes, the graph ids as a column, the
    head's biases as rows, its weight matrices as launched. -/
theorem U10_v73 : U10 m c (Proc.devRef .tc main_v73) = k5 m c := (U10_of m c main_v73).trans (U9_v73 m c)
theorem U10_v74 : uncol (U10 m c (Proc.devRef .tc main_v74)) = xa m c main_arg3 := uncol_of (h4_v74 (U9 m c)) (U9_arg m c main_arg3)
theorem U10_v75 : unrow (U10 m c (Proc.devRef .tc main_v75)) = xa m c main_arg17 := unrow_of (h4_v75 (U9 m c)) (U9_arg m c main_arg17)
theorem U10_v76 : unrow (U10 m c (Proc.devRef .tc main_v76)) = xa m c main_arg19 := unrow_of (h4_v76 (U9 m c)) (U9_arg m c main_arg19)

/-- The pooling and the head. -/
theorem U11_v77 : U11 m c (Proc.devRef .tc main_v77) = k6 m c := by
  refine (U11_arr m c 6).trans ((closed4 (atTc (U10 m)) c).trans ?_)
  rw [show atTc (U10 m) c main_v73 = k5 m c from U10_v73 m c,
    show uncol (atTc (U10 m) c main_v74) = xa m c main_arg3 from U10_v74 m c,
    show atTc (U10 m) c main_arg16 = xa m c main_arg16 from U10_arg m c main_arg16,
    show unrow (atTc (U10 m) c main_v75) = xa m c main_arg17 from U10_v75 m c,
    show atTc (U10 m) c main_arg18 = xa m c main_arg18 from U10_arg m c main_arg18,
    show unrow (atTc (U10 m) c main_v76) = xa m c main_arg19 from U10_v76 m c]

/-- The result buffer: the head's column cast to a vector. -/
theorem U12_v78 : U12 m c (Proc.devRef .tc main_v78) = shapeCast S128 (k6 m c) shapeCasts_S128x1_S128 :=
  (h5_v78 (U11 m c)).trans (congrArg (fun z => shapeCast S128 z shapeCasts_S128x1_S128) (U11_v77 m c))

end stages

open Cert.ReferenceIdeal.Stages in
/-- The result buffer at the end of the main program is the reference's composition of stages of the launch
    contents of the arguments. -/
theorem kernel_chain (m : (ℓ : Loc nD τ sig) → Buf (Elt Ideal) ℓ) (c : Dev nD) :
    U12 (F := Ideal) m c main_v78
      = shapeCast _ (pool (F := Ideal)
          (bn (agg (nrm (m ((c : Thread nD τ).loc main_arg1)) (m ((c : Thread nD τ).loc main_arg2)))
                (src (F := Ideal) (m ((c : Thread nD τ).loc main_arg1))) (dst (F := Ideal) (m ((c : Thread nD τ).loc main_arg1)))
              (mm2 (bn (agg (nrm (m ((c : Thread nD τ).loc main_arg1)) (m ((c : Thread nD τ).loc main_arg2)))
                      (src (F := Ideal) (m ((c : Thread nD τ).loc main_arg1))) (dst (F := Ideal) (m ((c : Thread nD τ).loc main_arg1)))
                      (mm1 (m ((c : Thread nD τ).loc main_arg0)) (m ((c : Thread nD τ).loc main_arg4))))
                    (m ((c : Thread nD τ).loc main_arg5)) (m ((c : Thread nD τ).loc main_arg8)) (m ((c : Thread nD τ).loc main_arg9))
                    (m ((c : Thread nD τ).loc main_arg10)) (m ((c : Thread nD τ).loc main_arg11)))
                (m ((c : Thread nD τ).loc main_arg6))))
            (m ((c : Thread nD τ).loc main_arg7)) (m ((c : Thread nD τ).loc main_arg12)) (m ((c : Thread nD τ).loc main_arg13))
            (m ((c : Thread nD τ).loc main_arg14)) (m ((c : Thread nD τ).loc main_arg15)))
          (m ((c : Thread nD τ).loc main_arg3)) (m ((c : Thread nD τ).loc main_arg16)) (m ((c : Thread nD τ).loc main_arg17))
          (m ((c : Thread nD τ).loc main_arg18)) (m ((c : Thread nD τ).loc main_arg19)))
        Cert.ReferenceIdeal.Gen.shapeCasts_S128x1_S128 :=
  U12_v78 m c

end Cert.KernelIdeal.HandValue

end
-- ==== Proof.lean ====
/-
  A two-layer graph convolution network with mean pooling and a two-layer head, kernel against reference.

  Both programs compute, from the edge list (self loops appended), the degree of every node as the sum of the weights
  of its incoming edges, the symmetric edge norms dinv(s) * w * dinv(d), and per layer: project the node features
  (a matrix product), gather the projected rows at the edge sources, scale by the edge norms, add them up at the edge
  targets, add the bias, normalise with the stored batch statistics, rectify. Then the per-graph mean of the node
  features (row sums over counts, counts at least one) goes through a two-layer perceptron.

  The kernel program runs the five dense pieces as tiled kernel regions (ten tiles of 5000 rows): the two projections,
  the two bias-normalise-rectify steps, and the pooling with the head, where the per-graph sums are accumulated tile
  by tile as one-hot matrix products. Everything irregular (the degree sums, the gathers and scatter-adds along the
  edges) is the same sequence of host operations in both programs.

  Over the extended reals a tile's product is the rows' part of the whole product, the tiles cover the rows, and a
  one-hot product summed over the tiles is the sum of the rows of each graph (0 * x = 0 and 1 * x = x for every
  extended real x, and addition is commutative and associative), which is the reference's segment sum; rows whose graph
  id is outside 0..127 contribute to neither side. Every other step is the same operation entry by entry. So the two
  programs' results are one function of the arguments: the reference's composition of stages (RefStages), which the
  kernel's buffer contents, followed through the main program's items, also come to (KChain).

  The frames: each kernel region's body is run on its staging buffers and leaves them at the named contents, so the
  main program, as a chain of host stretches and regions, terminates without a fault with every buffer at the
  contents the fold of its items gives; no item writes an argument array. The reference's frame is its run.
-/
import proofs.«431412_j35321811042312_1_alg».proof.Defs
import proofs.«431412_j35321811042312_1_alg».proof.Proof.Gen.Kernel
import proofs.«431412_j35321811042312_1_alg».proof.Proof.Gen.KernelIdeal
import proofs.«431412_j35321811042312_1_alg».proof.Proof.Gen.ReferenceIdeal
import proofs.«431412_j35321811042312_1_alg».proof.Proof.Gen.Pre_finite_inputs
import proofs.«431412_j35321811042312_1_alg».proof.Proof.Gen.ReferenceIdeal.Run
import proofs.«431412_j35321811042312_1_alg».proof.Proof.Gen.ReferenceIdeal.Read
import proofs.«431412_j35321811042312_1_alg».proof.Proof.BitsPost
import proofs.«431412_j35321811042312_1_alg».proof.Proof.IdealPost
import proofs.«431412_j35321811042312_1_alg».proof.Proof.RefStages
import proofs.«431412_j35321811042312_1_alg».proof.Proof.KChain
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel program's result buffer ends at the reference's composition of stages of the
    arguments, and so does the reference's, from memories that agree on the arguments. -/
theorem algebraic : Cert.algebraic_KernelIdeal_ReferenceIdeal := by
  intro m ρ m' ρ' _ hagree
  refine ⟨fun c => Cert.KernelIdeal.Hand.U12 (F := Ideal) m c Cert.KernelIdeal.main_v78,
    Cert.KernelIdeal.Hand.run_post (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  rw [Cert.ReferenceIdeal.Read.val_main_v155_eq, Cert.ReferenceIdeal.Stages.ref_chain,
    a0, a1, a2, a3, a4, a5, a6, a7, a8, a9, a10, a11, a12, a13, a14, a15, a16, a17, a18, a19]
  exact (Cert.KernelIdeal.HandValue.kernel_chain m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
